-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S4096x256 : Shape := ⟨2, ![4096, 256]⟩
abbrev S819x256 : Shape := ⟨2, ![819, 256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S819x256 : S_.BroadcastsInDim S819x256 (![] : Fin 0 → Fin S819x256.rank)
  reducesTo_S819x256_S_d0_1 : S819x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_arg8 : FVec F S4096x256 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S4096x256 .f32 := Host.absf main_arg8
  let main_cst_14 : FVec F S_ .f32 := constant S_ .f32 0x7F800000#32
  let main_v40 : FVec F S4096x256 .f32 := broadcastInDim S4096x256 ![] bcast_S_S4096x256 main_cst_14
  let main_v41 : IVec S4096x256 1 := cmpf .olt main_v39 main_v40
  let main_c_15 : IVec S_ 1 := constantI S_ 1 1#1
  let main_v42 : IVec S_ 1 := (fun x v => Host.reduce IntOp.andi x v reducesTo_S4096x256_S_d0_1 h_S_) main_v41 main_c_15
  let main_v43 : IVec S_ 1 := andi main_v38 main_v42
  main_v43

def fn_part1 {F : FTy → Type} [FloatOps F] (main_arg4 : FVec F S128 .f32) (main_arg5 : FVec F S3x128 .f32) (main_arg6 : FVec F S3 .f32) (main_arg7 : FVec F S3 .f32) (main_arg8 : FVec F S4096x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg7 main_arg8 main_v33

def fn {F : FTy → Type} [FloatOps F] (main_arg0 : FVec F S16x512x256 .f32) (main_arg1 : FVec F S4096x256 .f32) (main_arg2 : FVec F S819x256 .f32) (main_arg3 : FVec F S128x256 .f32) (main_arg4 : FVec F S128 .f32) (main_arg5 : FVec F S3x128 .f32) (main_arg6 : FVec F S3 .f32) (main_arg7 : FVec F S3 .f32) (main_arg8 : FVec F S4096x256 .f32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S819x256 .f32 := Host.absf main_arg2
  let main_cst_2 : FVec F S_ .f32 := constant S_ .f32 0x7F800000#32
  let main_v10 : FVec F S819x256 .f32 := broadcastInDim S819x256 ![] bcast_S_S819x256 main_cst_2
  let main_v11 : IVec S819x256 1 := cmpf .olt main_v9 main_v10
  let main_c_3 : IVec S_ 1 := constantI S_ 1 1#1
  let main_v12 : IVec S_ 1 := (fun x v => Host.reduce IntOp.andi x v reducesTo_S819x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S16x512x256 : Shape := ⟨3, ![16, 512, 256]⟩
abbrev S4096x256 : Shape := ⟨2, ![4096, 256]⟩
abbrev S819x256 : Shape := ⟨2, ![819, 256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩
abbrev S824x256 : Shape := ⟨2, ![824, 256]⟩
abbrev S512x256 : Shape := ⟨2, ![512, 256]⟩
abbrev S1x128 : Shape := ⟨2, ![1, 128]⟩
abbrev S1x3 : Shape := ⟨2, ![1, 3]⟩
abbrev S8x512x256 : Shape := ⟨3, ![8, 512, 256]⟩
abbrev S3x512x256 : Shape := ⟨3, ![3, 512, 256]⟩
abbrev S1x512x256 : Shape := ⟨3, ![1, 512, 256]⟩
abbrev S256 : Shape := ⟨1, ![256]⟩
abbrev S1x256 : Shape := ⟨2, ![1, 256]⟩
abbrev S8x256 : Shape := ⟨2, ![8, 256]⟩
abbrev S8x128 : Shape := ⟨2, ![8, 128]⟩
abbrev S8x3 : Shape := ⟨2, ![8, 3]⟩
abbrev S8 : Shape := ⟨1, ![8]⟩
abbrev S8x1 : Shape := ⟨2, ![8, 1]⟩
abbrev S512x824 : Shape := ⟨2, ![512, 824]⟩
abbrev S256x824 : Shape := ⟨2, ![256, 824]⟩
abbrev S256x256 : Shape := ⟨2, ![256, 256]⟩
abbrev S1x1 : Shape := ⟨2, ![1, 1]⟩

abbrev nBuf : Space → Nat
  | .hbm => 18
  | .vmem => 13
  | .smem => 0
  | _ => 0

abbrev bufTy : (tb : Table) → Fin (tcTables nBuf tb) → BufTy
  | .hbm, ⟨0, _⟩ => ⟨S16x512x256, .f32⟩
  | .hbm, ⟨1, _⟩ => ⟨S4096x256, .f32⟩
  | .hbm, ⟨2, _⟩ => ⟨S819x256, .f32⟩
  | .hbm, ⟨3, _⟩ => ⟨S128x256, .f32⟩
  | .hbm, ⟨4, _⟩ => ⟨S128, .f32⟩
  | .hbm, ⟨5, _⟩ => ⟨S3x128, .f32⟩
  | .hbm, ⟨6, _⟩ => ⟨S3, .f32⟩
  | .hbm, ⟨7, _⟩ => ⟨S3, .f32⟩
  | .hbm, ⟨8, _⟩ => ⟨S4096x256, .f32⟩
  | .hbm, ⟨9, _⟩ => ⟨S_, .i32⟩
  | .hbm, ⟨10, _⟩ => ⟨S_, .f32⟩
  | .hbm, ⟨11, _⟩ => ⟨S824x256, .f32⟩
  | .hbm, ⟨12, _⟩ => ⟨S512x256, .f32⟩
  | .hbm, ⟨13, _⟩ => ⟨S512x256, .f32⟩
  | .hbm, ⟨14, _⟩ => ⟨S1x128, .f32⟩
  | .hbm, ⟨15, _⟩ => ⟨S1x3, .f32⟩
  | .hbm, ⟨16, _⟩ => ⟨S1x3, .f32⟩
  | .hbm, ⟨17, _⟩ => ⟨S16x512x256, .f32⟩
  | .local _ .vmem, ⟨0, _⟩ => ⟨S8x512x256, .f32⟩
  | .local _ .vmem, ⟨1, _⟩ => ⟨S8x512x256, .f32⟩
  | .local _ .vmem, ⟨2, _⟩ => ⟨S512x256, .f32⟩
  | .local _ .vmem, ⟨3, _⟩ => ⟨S512x256, .f32⟩
  | .local _ .vmem, ⟨4, _⟩ => ⟨S824x256, .f32⟩
  | .local _ .vmem, ⟨5, _⟩ => ⟨S128x256, .f32⟩
  | .local _ .vmem, ⟨6, _⟩ => ⟨S1x128, .f32⟩
  | .local _ .vmem, ⟨7, _⟩ => ⟨S3x128, .f32⟩
  | .local _ .vmem, ⟨8, _⟩ => ⟨S1x3, .f32⟩
  | .local _ .vmem, ⟨9, _⟩ => ⟨S1x3, .f32⟩
  | .local _ .vmem, ⟨10, _⟩ => ⟨S8x512x256, .f32⟩
  | .local _ .vmem, ⟨11, _⟩ => ⟨S8x512x256, .f32⟩
  | .local _ .vmem, ⟨12, _⟩ => ⟨S3x512x256, .bf16⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S824x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  pads_S819x256_S824x256_050_000 : S819x256.Pads (![0, 0] : Fin 2 → Nat) ![5, 0] ![0, 0] S824x256
  h_S_ : 0 < S_.numel
  slices_S4096x256_S512x256_0_0 : S4096x256.Slices ![0, 0] S512x256
  shapeCasts_S128_S1x128 : S128.ShapeCasts S1x128
  shapeCasts_S3_S1x3 : S3.ShapeCasts S1x3
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  reduces_S512x256_S256 : S512x256.Reduces [0] S256
  inb_S8x512x256_S1x512x256_1_0_0 : ∀ a, (![1, 0, 0] : Fin 3 → Nat) a + S1x512x256.size a ≤ S8x512x256.size a
  inb_S8x512x256_S1x512x256_2_0_0 : ∀ a, (![2, 0, 0] : Fin 3 → Nat) a + S1x512x256.size a ≤ S8x512x256.size a
  inb_S8x512x256_S1x512x256_3_0_0 : ∀ a, (![3, 0, 0] : Fin 3 → Nat) a + S1x512x256.size a ≤ S8x512x256.size a
  inb_S8x512x256_S1x512x256_4_0_0 : ∀ a, (![4, 0, 0] : Fin 3 → Nat) a + S1x512x256.size a ≤ S8x512x256.size a
  inb_S8x512x256_S1x512x256_5_0_0 : ∀ a, (![5, 0, 0] : Fin 3 → Nat) a + S1x512x256.size a ≤ S8x512x256.size a
  inb_S8x512x256_S1x512x256_6_0_0 : ∀ a, (![6, 0, 0] : Fin 3 → Nat) a + S1x512x256.size a ≤ S8x512x256.size a
  inb_S8x512x256_S1x512x256_7_0_0 : ∀ a, (![7, 0, 0] : Fin 3 → Nat) a + S1x512x256.size a ≤ S8x512x256.size a
  shapeCasts_S256_S1x256 : S256.ShapeCasts S1x256
  concatenates_S1x256_S1x256_S1x256_S1x256_S1x256_S1x256_S1x256_S1x256_S8x256_d0 : Shape.Concatenates [S1x256, S1x256, S1x256, S1x256, S1x256, S1x256, S1x256, S1x256] S8x256 0
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  inb_S3x128_S3x128_0_0 : ∀ a, (![0, 0] : Fin 2 → Nat) a + S3x128.size a ≤ S3x128.size a
  h_S3x128 : 0 < S3x128.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8x3 : S1x3.Broadcasts S8x3
  reduces_S8x3_S8 : S8x3.Reduces [1] S8
  shapeCasts_S8_S8x1 : S8.ShapeCasts S8x1
  broadcasts_S8x1_S8x3 : S8x1.Broadcasts S8x3
  iota_S512x824_d0_w32 : S512x824.Iotas .tc 32 [0]
  iota_S512x824_d1_w32 : S512x824.Iotas .tc 32 [1]
  natLt_1_32 : 1 < 32
  bitsLt_bf16_f32 : FTy.bits .bf16 < FTy.bits .f32
  inb_S824x256_S824x256_0_0 : ∀ a, (![0, 0] : Fin 2 → Nat) a + S824x256.size a ≤ S824x256.size a
  h_S824x256 : 0 < S824x256.numel
  shapeCasts_S824x256_S824x256 : S824x256.ShapeCasts S824x256
  slices_S512x824_o0_0_S256x824 : S512x824.Slices ![0, 0] S256x824
  slices_S512x824_o256_0_S256x824 : S512x824.Slices ![256, 0] S256x824
  concatenates_S256x256_S256x256_S512x256_d0 : Shape.Concatenates [S256x256, S256x256] S512x256 0
  inb_S1x3_S1x1_0_2 : ∀ a, (![0, 2] : Fin 2 → Nat) a + S1x1.size a ≤ S1x3.size a
  h_S1x1 : 0 < S1x1.numel
  inpos_S1x1_p0_0 : ∀ a, (![0, 0] : Fin 2 → Nat) a < S1x1.size a
  inb_S3x512x256_S1x512x256_0_0_0 : ∀ a, (![0, 0, 0] : Fin 3 → Nat) a + S1x512x256.size a ≤ S3x512x256.size a
  shapeCasts_S512x256_S1x512x256 : S512x256.ShapeCasts S1x512x256
  packedbf16_S3x512x256_S1x512x256_0_0_0 : (Rect.unit (s := S3x512x256) ![0, 0, 0] S1x512x256.size inb_S3x512x256_S1x512x256_0_0_0).PackedRows (EltTy.packing .bf16)
  inb_S1x3_S1x1_0_0 : ∀ a, (![0, 0] : Fin 2 → Nat) a + S1x1.size a ≤ S1x3.size a
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S3x512x256_S1x512x256_1_0_0 : ∀ a, (![1, 0, 0] : Fin 3 → Nat) a + S1x512x256.size a ≤ S3x512x256.size a
  packedbf16_S3x512x256_S1x512x256_1_0_0 : (Rect.unit (s := S3x512x256) ![1, 0, 0] S1x512x256.size inb_S3x512x256_S1x512x256_1_0_0).PackedRows (EltTy.packing .bf16)
  inb_S1x3_S1x1_0_1 : ∀ a, (![0, 1] : Fin 2 → Nat) a + S1x1.size a ≤ S1x3.size a
  inb_S3x512x256_S1x512x256_2_0_0 : ∀ a, (![2, 0, 0] : Fin 3 → Nat) a + S1x512x256.size a ≤ S3x512x256.size a
  packedbf16_S3x512x256_S1x512x256_2_0_0 : (Rect.unit (s := S3x512x256) ![2, 0, 0] S1x512x256.size inb_S3x512x256_S1x512x256_2_0_0).PackedRows (EltTy.packing .bf16)
  slices_S8x3_o0_0_S1x1 : S8x3.Slices ![0, 0] S1x1
  broadcasts_S1x1_S512x256 : S1x1.Broadcasts S512x256
  slices_S8x3_o0_1_S1x1 : S8x3.Slices ![0, 1] S1x1
  slices_S8x1_o0_0_S1x1 : S8x1.Slices ![0, 0] S1x1
  slices_S8x3_o1_0_S1x1 : S8x3.Slices ![1, 0] S1x1
  slices_S8x3_o1_1_S1x1 : S8x3.Slices ![1, 1] S1x1
  slices_S8x1_o1_0_S1x1 : S8x1.Slices ![1, 0] S1x1
  slices_S8x3_o2_0_S1x1 : S8x3.Slices ![2, 0] S1x1
  slices_S8x3_o2_1_S1x1 : S8x3.Slices ![2, 1] S1x1
  slices_S8x1_o2_0_S1x1 : S8x1.Slices ![2, 0] S1x1
  slices_S8x3_o3_0_S1x1 : S8x3.Slices ![3, 0] S1x1
  slices_S8x3_o3_1_S1x1 : S8x3.Slices ![3, 1] S1x1
  slices_S8x1_o3_0_S1x1 : S8x1.Slices ![3, 0] S1x1
  slices_S8x3_o4_0_S1x1 : S8x3.Slices ![4, 0] S1x1
  slices_S8x3_o4_1_S1x1 : S8x3.Slices ![4, 1] S1x1
  slices_S8x1_o4_0_S1x1 : S8x1.Slices ![4, 0] S1x1
  slices_S8x3_o5_0_S1x1 : S8x3.Slices ![5, 0] S1x1
  slices_S8x3_o5_1_S1x1 : S8x3.Slices ![5, 1] S1x1
  slices_S8x1_o5_0_S1x1 : S8x1.Slices ![5, 0] S1x1
  slices_S8x3_o6_0_S1x1 : S8x3.Slices ![6, 0] S1x1
  slices_S8x3_o6_1_S1x1 : S8x3.Slices ![6, 1] S1x1
  slices_S8x1_o6_0_S1x1 : S8x1.Slices ![6, 0] S1x1
  slices_S8x3_o7_0_S1x1 : S8x3.Slices ![7, 0] S1x1
  slices_S8x3_o7_1_S1x1 : S8x3.Slices ![7, 1] S1x1
  slices_S8x1_o7_0_S1x1 : S8x1.Slices ![7, 0] S1x1
  dot_S8x256_S128x256_S8x128_1_1_0_0_n_n_wf : DotDims.WF S8x256 S128x256 S8x128 [1] [1] [0] [0] [] []
  dot_S8x128_S3x128_S8x3_1_1_0_0_n_n_wf : DotDims.WF S8x128 S3x128 S8x3 [1] [1] [0] [0] [] []
  dot_S256x824_S824x256_S256x256_1_0_0_1_n_n_wf : DotDims.WF S256x824 S824x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S16x512x256.size a
  hwx0_0 : ∀ i : grid0.Coords, EltTy.bits .f32 = 32 ∨ (Rect.block (s := S16x512x256) S8x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S824x256.size a ≤ S824x256.size a
  hwx0_3 : ∀ i : grid0.Coords, EltTy.bits .f32 = 32 ∨ (Rect.block (s := S824x256) S824x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128.size a ≤ S3x128.size a
  hwx0_6 : ∀ i : grid0.Coords, EltTy.bits .f32 = 32 ∨ (Rect.block (s := S3x128) S3x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x512x256.size a ≤ S16x512x256.size a
  hwx0_9 : ∀ i : grid0.Coords, EltTy.bits .f32 = 32 ∨ (Rect.block (s := S16x512x256) S8x512x256.size (cc0_transform_9 i) (hinb0_9 i)).WholeWords (EltTy.packing .f32)

variable [Facts₀]

def dot_S8x256_S128x256_S8x128_1_1_0_0_n_n : DotDims S8x256 S128x256 S8x128 where
  lhsContracting := [1]
  rhsContracting := [1]
  lhsNonContracting := [0]
  rhsNonContracting := [0]
  lhsBatch := []
  rhsBatch := []
  wf := dot_S8x256_S128x256_S8x128_1_1_0_0_n_n_wf
def dot_S8x128_S3x128_S8x3_1_1_0_0_n_n : DotDims S8x128 S3x128 S8x3 where
  lhsContracting := [1]
  rhsContracting := [1]
  lhsNonContracting := [0]
  rhsNonContracting := [0]
  lhsBatch := []
  rhsBatch := []
  wf := dot_S8x128_S3x128_S8x3_1_1_0_0_n_n_wf
def dot_S256x824_S824x256_S256x256_1_0_0_1_n_n : DotDims S256x824 S824x256 S256x256 where
  lhsContracting := [1]
  rhsContracting := [0]
  lhsNonContracting := [0]
  rhsNonContracting := [1]
  lhsBatch := []
  rhsBatch := []
  wf := dot_S256x824_S824x256_S256x256_1_0_0_1_n_n_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S824x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S3x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S8x512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x512x256 : Shape := ⟨3, ![16, 512, 256]⟩
abbrev S4096x256 : Shape := ⟨2, ![4096, 256]⟩
abbrev S819x256 : Shape := ⟨2, ![819, 256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S512x256 : Shape := ⟨2, ![512, 256]⟩
abbrev S1x512x256 : Shape := ⟨3, ![1, 512, 256]⟩
abbrev S512 : Shape := ⟨1, ![512]⟩
abbrev S_ : Shape := ⟨0, ![]⟩
abbrev S512x1 : Shape := ⟨2, ![512, 1]⟩
abbrev S1 : Shape := ⟨1, ![1]⟩
abbrev S1x1 : Shape := ⟨2, ![1, 1]⟩
abbrev S1x512 : Shape := ⟨2, ![1, 512]⟩
abbrev S512x512 : Shape := ⟨2, ![512, 512]⟩
abbrev S512x512x1 : Shape := ⟨3, ![512, 512, 1]⟩
abbrev S1x1x1 : Shape := ⟨3, ![1, 1, 1]⟩
abbrev S512x512x256 : Shape := ⟨3, ![512, 512, 256]⟩
abbrev S16x512x256x1 : Shape := ⟨4, ![16, 512, 256, 1]⟩
abbrev S16x512x256x3 : Shape := ⟨4, ![16, 512, 256, 3]⟩
abbrev S16x256 : Shape := ⟨2, ![16, 256]⟩
abbrev S256x128 : Shape := ⟨2, ![256, 128]⟩
abbrev S16x128 : Shape := ⟨2, ![16, 128]⟩
abbrev S1x128 : Shape := ⟨2, ![1, 128]⟩
abbrev S128x3 : Shape := ⟨2, ![128, 3]⟩
abbrev S16x3 : Shape := ⟨2, ![16, 3]⟩
abbrev S1x3 : Shape := ⟨2, ![1, 3]⟩
abbrev S16 : Shape := ⟨1, ![16]⟩
abbrev S16x1 : Shape := ⟨2, ![16, 1]⟩
abbrev S16x1x1x3 : Shape := ⟨4, ![16, 1, 1, 3]⟩
abbrev S1x1x1x3 : Shape := ⟨4, ![1, 1, 1, 3]⟩

abbrev nBuf : Space → Nat
  | .hbm => 131
  | .vmem => 0
  | .smem => 0
  | _ => 0

abbrev hbmTy0_0 (i : Nat) : BufTy := match i % 128 with
  | 0 => ⟨S16x512x256, .f32⟩
  | 1 => ⟨S4096x256, .f32⟩
  | 2 => ⟨S819x256, .f32⟩
  | 3 => ⟨S128x256, .f32⟩
  | 4 => ⟨S128, .f32⟩
  | 5 => ⟨S3x128, .f32⟩
  | 6 => ⟨S3, .f32⟩
  | 7 => ⟨S3, .f32⟩
  | 8 => ⟨S4096x256, .f32⟩
  | 9 => ⟨S512x256, .f32⟩
  | 10 => ⟨S1x512x256, .f32⟩
  | 11 => ⟨S16x512x256, .f32⟩
  | 12 => ⟨S16x512x256, .f32⟩
  | 13 => ⟨S512, .i32⟩
  | 14 => ⟨S_, .i32⟩
  | 15 => ⟨S512, .i32⟩
  | 16 => ⟨S512, .i1⟩
  | 17 => ⟨S_, .i32⟩
  | 18 => ⟨S512, .i32⟩
  | 19 => ⟨S512, .i32⟩
  | 20 => ⟨S512, .i32⟩
  | 21 => ⟨S512x1, .i32⟩
  | 22 => ⟨S1, .i32⟩
  | 23 => ⟨S_, .i32⟩
  | 24 => ⟨S512x1, .i32⟩
  | 25 => ⟨S512x1, .i1⟩
  | 26 => ⟨S1x1, .i32⟩
  | 27 => ⟨S512x1, .i32⟩
  | 28 => ⟨S512x1, .i1⟩
  | 29 => ⟨S512x1, .i1⟩
  | 30 => ⟨S_, .i1⟩
  | 31 => ⟨S512, .i1⟩
  | 32 => ⟨S512x256, .f32⟩
  | 33 => ⟨S512x256, .i1⟩
  | 34 => ⟨S_, .f32⟩
  | 35 => ⟨S512x256, .f32⟩
  | 36 => ⟨S512x256, .f32⟩
  | 37 => ⟨S1x512x256, .f32⟩
  | 38 => ⟨S16x512x256, .f32⟩
  | 39 => ⟨S16x512x256, .f32⟩
  | 40 => ⟨S1x512, .i32⟩
  | 41 => ⟨S512x1, .i32⟩
  | 42 => ⟨S512x512, .i32⟩
  | 43 => ⟨S512x512, .i32⟩
  | 44 => ⟨S512x512, .i32⟩
  | 45 => ⟨S_, .i32⟩
  | 46 => ⟨S_, .i32⟩
  | 47 => ⟨S_, .i32⟩
  | 48 => ⟨S512x512, .i32⟩
  | 49 => ⟨S512x512, .i32⟩
  | 50 => ⟨S_, .i32⟩
  | 51 => ⟨S512x512, .i32⟩
  | 52 => ⟨S512x512, .i32⟩
  | 53 => ⟨S_, .i32⟩
  | 54 => ⟨S512x512, .i32⟩
  | 55 => ⟨S512x512, .i32⟩
  | 56 => ⟨S_, .i32⟩
  | 57 => ⟨S512x512, .i32⟩
  | 58 => ⟨S512x512, .i1⟩
  | 59 => ⟨S_, .i32⟩
  | 60 => ⟨S512x512, .i32⟩
  | 61 => ⟨S512x512, .i32⟩
  | 62 => ⟨S512x512, .i32⟩
  | 63 => ⟨S512x512x1, .i32⟩
  | 64 => ⟨S1, .i32⟩
  | 65 => ⟨S_, .i32⟩
  | 66 => ⟨S512x512x1, .i32⟩
  | 67 => ⟨S512x512x1, .i1⟩
  | 68 => ⟨S1x1x1, .i32⟩
  | 69 => ⟨S512x512x1, .i32⟩
  | 70 => ⟨S512x512x1, .i1⟩
  | 71 => ⟨S512x512x1, .i1⟩
  | 72 => ⟨S_, .i1⟩
  | 73 => ⟨S512x512, .i1⟩
  | 74 => ⟨S512x512x256, .f32⟩
  | 75 => ⟨S512x512x256, .i1⟩
  | 76 => ⟨S_, .f32⟩
  | 77 => ⟨S512x512x256, .f32⟩
  | 78 => ⟨S512x512x256, .f32⟩
  | 79 => ⟨S_, .f32⟩
  | 80 => ⟨S512x256, .f32⟩
  | 81 => ⟨S_, .f32⟩
  | 82 => ⟨S512x256, .f32⟩
  | 83 => ⟨S512x256, .f32⟩
  | 84 => ⟨S1x512x256, .f32⟩
  | 85 => ⟨S16x512x256, .f32⟩
  | 86 => ⟨S16x512x256, .f32⟩
  | 87 => ⟨S16x512x256x1, .f32⟩
  | 88 => ⟨S16x512x256x1, .f32⟩
  | 89 => ⟨S16x512x256x1, .f32⟩
  | 90 => ⟨S16x512x256x3, .f32⟩
  | 91 => ⟨S_, .f32⟩
  | 92 => ⟨S16x256, .f32⟩
  | 93 => ⟨S_, .f32⟩
  | 94 => ⟨S16x256, .f32⟩
  | 95 => ⟨S16x256, .f32⟩
  | 96 => ⟨S256x128, .f32⟩
  | 97 => ⟨S16x128, .f32⟩
  | 98 => ⟨S1x128, .f32⟩
  | 99 => ⟨S16x128, .f32⟩
  | 100 => ⟨S16x128, .f32⟩
  | 101 => ⟨S_, .f32⟩
  | 102 => ⟨S16x128, .f32⟩
  | 103 => ⟨S16x128, .f32⟩
  | 104 => ⟨S128x3, .f32⟩
  | 105 => ⟨S16x3, .f32⟩
  | 106 => ⟨S1x3, .f32⟩
  | 107 => ⟨S16x3, .f32⟩
  | 108 => ⟨S16x3, .f32⟩
  | 109 => ⟨S_, .f32⟩
  | 110 => ⟨S16, .f32⟩
  | 111 => ⟨S_, .f32⟩
  | 112 => ⟨S16, .f32⟩
  | 113 => ⟨S16, .f32⟩
  | 114 => ⟨S16x1, .f32⟩
  | 115 => ⟨S16x3, .f32⟩
  | 116 => ⟨S16x3, .f32⟩
  | 117 => ⟨S16x3, .f32⟩
  | 118 => ⟨S_, .f32⟩
  | 119 => ⟨S16, .f32⟩
  | 120 => ⟨S16x1, .f32⟩
  | 121 => ⟨S16x3, .f32⟩
  | 122 => ⟨S16x3, .f32⟩
  | 123 => ⟨S16x1x1x3, .f32⟩
  | 124 => ⟨S1x1x1x3, .f32⟩
  | 125 => ⟨S16x1x1x3, .f32⟩
  | 126 => ⟨S16x1x1x3, .f32⟩
  | 127 => ⟨S16x512x256x3, .f32⟩
  | _ => ⟨S16x512x256, .f32⟩

abbrev hbmTy0_1 (i : Nat) : BufTy := match i % 128 with
  | 0 => ⟨S16x512x256x3, .f32⟩
  | 1 => ⟨S_, .f32⟩
  | 2 => ⟨S16x512x256, .f32⟩
  | _ => ⟨S16x512x256, .f32⟩

abbrev hbmTy (i : Nat) : BufTy := match i / 128 with
  | 0 => hbmTy0_0 i
  | 1 => hbmTy0_1 i
  | _ => ⟨S16x512x256, .f32⟩

abbrev bufTy : (tb : Table) → Fin (tcTables nBuf tb) → BufTy
  | .hbm, ⟨i, _⟩ => hbmTy i
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v14 : Ref sig .tc := ⟨.hbm, 52, rfl⟩
abbrev main_c_1 : Ref sig .tc := ⟨.hbm, 53, rfl⟩
abbrev main_v15 : Ref sig .tc := ⟨.hbm, 54, rfl⟩
abbrev main_v16 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v17 : Ref sig .tc := ⟨.hbm, 78, rfl⟩
abbrev main_cst : Ref sig .tc := ⟨.hbm, 79, rfl⟩
abbrev main_v18 : Ref sig .tc := ⟨.hbm, 80, rfl⟩
abbrev main_cst_2 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_3 : Ref sig .tc := ⟨.hbm, 91, rfl⟩
abbrev main_v28 : Ref sig .tc := ⟨.hbm, 92, rfl⟩
abbrev main_cst_4 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_call3_cst : Ref sig .tc := ⟨.hbm, 101, rfl⟩
abbrev main_call3_v0 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_5 : Ref sig .tc := ⟨.hbm, 109, rfl⟩
abbrev main_v42 : Ref sig .tc := ⟨.hbm, 110, rfl⟩
abbrev main_cst_6 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_7 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_8 : Ref sig .tc := ⟨.hbm, 129, rfl⟩
abbrev main_v59 : Ref sig .tc := ⟨.hbm, 130, rfl⟩

abbrev nD : Nat := 1
abbrev τ : Topo := Topo.v7x

variable {F : FTy → Type} [FloatOps F]

class Facts₀ : Prop where
  slices_S4096x256_S512x256_0_0 : S4096x256.Slices ![0, 0] S512x256
  bcast_S512x256_S1x512x256_1_2 : S512x256.BroadcastsInDim S1x512x256 (![1, 2] : Fin 2 → Fin S1x512x256.rank)
  bcast_S1x512x256_S16x512x256_0_1_2 : S1x512x256.BroadcastsInDim S16x512x256 (![0, 1, 2] : Fin 3 → Fin S16x512x256.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x256_0 : S512.BroadcastsInDim S512x256 (![0] : Fin 1 → Fin S512x256.rank)
  bcast_S_S512x256 : S_.BroadcastsInDim S512x256 (![] : Fin 0 → Fin S512x256.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  reducesTo_S512x512x1_S512x512_d2 : S512x512x1.ReducesTo [2] S512x512
  bcast_S512x512_S512x512x256_0_1 : S512x512.BroadcastsInDim S512x512x256 (![0, 1] : Fin 2 → Fin S512x512x256.rank)
  bcast_S_S512x512x256 : S_.BroadcastsInDim S512x512x256 (![] : Fin 0 → Fin S512x512x256.rank)
  reducesTo_S512x512x256_S512x256_d1 : S512x512x256.ReducesTo [1] S512x256
  bcast_S16x512x256_S16x512x256x1_0_1_2 : S16x512x256.BroadcastsInDim S16x512x256x1 (![0, 1, 2] : Fin 3 → Fin S16x512x256x1.rank)
  concatenates_S16x512x256x1_S16x512x256x1_S16x512x256x1_S16x512x256x3_d3 : Shape.Concatenates [S16x512x256x1, S16x512x256x1, S16x512x256x1] S16x512x256x3 3
  reducesTo_S16x512x256_S16x256_d1 : S16x512x256.ReducesTo [1] S16x256
  bcast_S_S16x256 : S_.BroadcastsInDim S16x256 (![] : Fin 0 → Fin S16x256.rank)
  transposes_S128x256_S256x128_1_0 : S128x256.Transposes [1, 0] S256x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  transposes_S3x128_S128x3_1_0 : S3x128.Transposes [1, 0] S128x3
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  reducesTo_S16x3_S16_d1 : S16x3.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  bcast_S16x3_S16x1x1x3_0_3 : S16x3.BroadcastsInDim S16x1x1x3 (![0, 3] : Fin 2 → Fin S16x1x1x3.rank)
  bcast_S3_S1x1x1x3_3 : S3.BroadcastsInDim S1x1x1x3 (![3] : Fin 1 → Fin S1x1x1x3.rank)
  bcast_S1x1x1x3_S16x1x1x3_0_1_2_3 : S1x1x1x3.BroadcastsInDim S16x1x1x3 (![0, 1, 2, 3] : Fin 4 → Fin S16x1x1x3.rank)
  bcast_S16x1x1x3_S16x512x256x3_0_1_2_3 : S16x1x1x3.BroadcastsInDim S16x512x256x3 (![0, 1, 2, 3] : Fin 4 → Fin S16x512x256x3.rank)
  reducesTo_S16x512x256x3_S16x512x256_d3 : S16x512x256x3.ReducesTo [3] S16x512x256
  gather_S4096x256_S512x1_S512x256_1_0_n_n_0_1_1256_wf : GatherDims.WF S4096x256 S512x1 S512x256 [1] [0] [] [0] [] 1 ![1, 256]
  gather_S819x256_S512x512x1_S512x512x256_2_0_n_n_0_2_1256_wf : GatherDims.WF S819x256 S512x512x1 S512x512x256 [2] [0] [] [0] [] 2 ![1, 256]
  dot_S16x256_S256x128_S16x128_1_0_0_1_n_n_wf : DotDims.WF S16x256 S256x128 S16x128 [1] [0] [0] [1] [] []
  dot_S16x128_S128x3_S16x3_1_0_0_1_n_n_wf : DotDims.WF S16x128 S128x3 S16x3 [1] [0] [0] [1] [] []

variable [Facts₀]

def gather_S4096x256_S512x1_S512x256_1_0_n_n_0_1_1256 : GatherDims S4096x256 S512x1 S512x256 where
  offsetDims := [1]
  collapsedSliceDims := [0]
  operandBatchingDims := []
  startIndicesBatchingDims := []
  startIndexMap := [0]
  indexVectorDim := 1
  sliceSizes := ![1, 256]
  wf := gather_S4096x256_S512x1_S512x256_1_0_n_n_0_1_1256_wf
def gather_S819x256_S512x512x1_S512x512x256_2_0_n_n_0_2_1256 : GatherDims S819x256 S512x512x1 S512x512x256 where
  offsetDims := [2]
  collapsedSliceDims := [0]
  operandBatchingDims := []
  startIndicesBatchingDims := []
  startIndexMap := [0]
  indexVectorDim := 2
  sliceSizes := ![1, 256]
  wf := gather_S819x256_S512x512x1_S512x512x256_2_0_n_n_0_2_1256_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x3_S16x3_1_0_0_1_n_n : DotDims S16x128 S128x3 S16x3 where
  lhsContracting := [1]
  rhsContracting := [0]
  lhsNonContracting := [0]
  rhsNonContracting := [1]
  lhsBatch := []
  rhsBatch := []
  wf := dot_S16x128_S128x3_S16x3_1_0_0_1_n_n_wf

class Facts : Prop extends Facts₀ where

variable [Facts]
-- ==== Proof.Spec.lean ====
/-
  The mathematics of the adaptive positional encoding, written once over plain coordinates.

  Inputs: a batch of sequences x[b, s, d], three position tables (a sinusoidal one pe, a learned one pos, a
  relative one rel read through the clamped offset j - s), a two-layer perceptron W1, b1, W2, b2 applied to each
  sequence's mean over s, whose three logits are turned into softmax weights prob[b, k], and three mixing weights
  cw[k].

  Two arrangements of the result are stated:
  * refOut: the sum over the three strategies k of (x + table_k) * (prob_k * cw_k), the relative table being the
    mean over j of rel[clip(j - s) + 409];
  * kerOut: wsum * x + (T0 + prob_0 * T1 + prob_1 * T2) with wsum = sum of prob_k * cw_k, T0 = cw_2 * relm,
    T1 = cw_0 * pe - T0, T2 = cw_1 * pos - T0, where relm is the product of a banded matrix of multiplicities
    with the zero-padded relative table.
  They agree on real inputs because the softmax weights sum to one and because the banded matrix counts, for each
  offset row, how many j clamp to it.
-/
import Idealize.ShloMosaic.PureOps.Ideal
import Idealize.ShloMosaic.Lib.ValueIdx

noncomputable section

namespace Cert.Spec

open Idealize.ShloMosaic Idealize.ShloMosaic.ValueIdx
open scoped BigOperators

/-! ## Arrays read through plain coordinates -/

/-- A rank-1 array as a function of its coordinate. -/
abbrev a1 {α : Type} {n0 : ℕ} (f : (⟨1, ![n0]⟩ : Shape).Idx → α) : Fin n0 → α := fun a => f (ix1 a)
/-- A rank-2 array as a function of its two coordinates. -/
abbrev a2 {α : Type} {n0 n1 : ℕ} (f : (⟨2, ![n0, n1]⟩ : Shape).Idx → α) : Fin n0 → Fin n1 → α := fun a b => f (ix2 a b)
/-- A rank-3 array as a function of its three coordinates. -/
abbrev a3 {α : Type} {n0 n1 n2 : ℕ} (f : (⟨3, ![n0, n1, n2]⟩ : Shape).Idx → α) : Fin n0 → Fin n1 → Fin n2 → α :=
  fun a b c => f (ix3 a b c)

/-! ## The strategy weights of one sequence -/

/-- The reciprocal of the sequence length, as an extended real. -/
def invS : EReal := ((1 / 512 : ℝ) : EReal)

/-- The mean over the 512 positions of one sequence, per feature. -/
def mean (xr : Fin 512 → Fin 256 → EReal) (d : Fin 256) : EReal := (∑ s : Fin 512, xr s d) * invS

/-- The hidden layer: relu (mean · W1ᵀ + b1). -/
def hid (xr : Fin 512 → Fin 256 → EReal) (W1 : Fin 128 → Fin 256 → EReal) (b1 : Fin 128 → EReal) (j : Fin 128) : EReal :=
  max (∑ d : Fin 256, mean xr d * W1 j d + b1 j) 0

/-- The three logits: hid · W2ᵀ + b2. -/
def logit (xr : Fin 512 → Fin 256 → EReal) (W1 : Fin 128 → Fin 256 → EReal) (b1 : Fin 128 → EReal)
    (W2 : Fin 3 → Fin 128 → EReal) (b2 : Fin 3 → EReal) (k : Fin 3) : EReal :=
  ∑ j : Fin 128, hid xr W1 b1 j * W2 k j + b2 k

/-- The greatest logit (the fold of max from -∞). -/
def lmax (xr : Fin 512 → Fin 256 → EReal) (W1 : Fin 128 → Fin 256 → EReal) (b1 : Fin 128 → EReal)
    (W2 : Fin 3 → Fin 128 → EReal) (b2 : Fin 3 → EReal) : EReal :=
  (Finset.univ : Finset (Fin 3)).fold max ⊥ (logit xr W1 b1 W2 b2)

/-- The shifted exponentials. -/
def ex (xr : Fin 512 → Fin 256 → EReal) (W1 : Fin 128 → Fin 256 → EReal) (b1 : Fin 128 → EReal)
    (W2 : Fin 3 → Fin 128 → EReal) (b2 : Fin 3 → EReal) (k : Fin 3) : EReal :=
  Ideal.exp (logit xr W1 b1 W2 b2 k - lmax xr W1 b1 W2 b2)

/-- The softmax weights of the three strategies. -/
def prob (xr : Fin 512 → Fin 256 → EReal) (W1 : Fin 128 → Fin 256 → EReal) (b1 : Fin 128 → EReal)
    (W2 : Fin 3 → Fin 128 → EReal) (b2 : Fin 3 → EReal) (k : Fin 3) : EReal :=
  Ideal.div (ex xr W1 b1 W2 b2 k) (∑ k' : Fin 3, ex xr W1 b1 W2 b2 k')

/-- The weights' total against the mixing weights: the sum of prob_k * cw_k. -/
def wsum (xr : Fin 512 → Fin 256 → EReal) (W1 : Fin 128 → Fin 256 → EReal) (b1 : Fin 128 → EReal)
    (W2 : Fin 3 → Fin 128 → EReal) (b2 : Fin 3 → EReal) (cw : Fin 3 → EReal) : EReal :=
  ∑ k : Fin 3, prob xr W1 b1 W2 b2 k * cw k

/-! ## The relative table: the clamped offset -/

/-- Row clip (j - s, -409, 409) + 409 of the relative table, for positions s, j < 512. -/
def relIdx (s j : Fin 512) : Fin 819 :=
  ⟨if j.val + 409 < s.val then 0 else if s.val + 409 < j.val then 818 else j.val + 409 - s.val, by
    have := s.isLt; have := j.isLt; split_ifs <;> omega⟩

/-- A position below 512 as a row of a 4096-row table. -/
def row4096 (s : Fin 512) : Fin 4096 := ⟨s.val, by have := s.isLt; omega⟩

/-- The mean over j of the relative rows rel[relIdx s j]. -/
def relMean (rel : Fin 819 → Fin 256 → EReal) (s : Fin 512) (d : Fin 256) : EReal :=
  (∑ j : Fin 512, rel (relIdx s j) d) * invS

/-- The three tables added to x: sinusoidal, learned, relative mean. -/
def tab (pos : Fin 4096 → Fin 256 → EReal) (rel : Fin 819 → Fin 256 → EReal) (pe : Fin 4096 → Fin 256 → EReal)
    (k : Fin 3) (s : Fin 512) (d : Fin 256) : EReal :=
  match k with
  | ⟨0, _⟩ => pe (row4096 s) d
  | ⟨1, _⟩ => pos (row4096 s) d
  | ⟨2, _⟩ => relMean rel s d

/-- THE REFERENCE'S ARRANGEMENT: the sum over k of (x + table k) * (prob k * cw k). -/
def refOut (x : Fin 16 → Fin 512 → Fin 256 → EReal) (pos : Fin 4096 → Fin 256 → EReal) (rel : Fin 819 → Fin 256 → EReal)
    (W1 : Fin 128 → Fin 256 → EReal) (b1 : Fin 128 → EReal) (W2 : Fin 3 → Fin 128 → EReal) (b2 : Fin 3 → EReal)
    (cw : Fin 3 → EReal) (pe : Fin 4096 → Fin 256 → EReal) (b : Fin 16) (s : Fin 512) (d : Fin 256) : EReal :=
  ∑ k : Fin 3, (x b s d + tab pos rel pe k s d) * (prob (x b) W1 b1 W2 b2 k * cw k)

/-! ## The kernel's arrangement: the banded matrix of multiplicities -/

/-- Row k is an interior offset of position s: max 0 (409 - s) ≤ k ≤ min 818 (920 - s). -/
def interior (s : Fin 512) (k : Fin 824) : ℕ := if 409 - s.val ≤ k.val ∧ k.val ≤ min 818 (920 - s.val) then 1 else 0
/-- How many j clamp to the lowest row: max 0 (s - 409). -/
def clo (s : Fin 512) : ℕ := s.val - 409
/-- How many j clamp to the highest row: max 0 (102 - s). -/
def chi (s : Fin 512) : ℕ := 102 - s.val

/-- Entry (s, k) of the banded matrix: the multiplicity of row k among the relIdx s j, over 512. -/
def mcoef (s : Fin 512) (k : Fin 824) : ℝ :=
  ((interior s k : ℝ) + (if k.val = 0 then (clo s : ℝ) else 0) + (if k.val = 818 then (chi s : ℝ) else 0)) * (1 / 512)

/-- The relative table padded with five zero rows. -/
def relPad (rel : Fin 819 → Fin 256 → EReal) (k : Fin 824) (d : Fin 256) : EReal :=
  if h : k.val < 819 then rel ⟨k.val, h⟩ d else 0

/-- The banded matrix times the padded table. -/
def relm (rel : Fin 819 → Fin 256 → EReal) (s : Fin 512) (d : Fin 256) : EReal :=
  ∑ k : Fin 824, ((mcoef s k : ℝ) : EReal) * relPad rel k d

/-- The base table cw₂ * relm. -/
def T0 (rel : Fin 819 → Fin 256 → EReal) (cw : Fin 3 → EReal) (s : Fin 512) (d : Fin 256) : EReal := cw 2 * relm rel s d
/-- The sinusoidal table's excess over the base: cw₀ * pe - T0. -/
def T1 (rel : Fin 819 → Fin 256 → EReal) (cw : Fin 3 → EReal) (pe : Fin 4096 → Fin 256 → EReal) (s : Fin 512) (d : Fin 256) : EReal :=
  cw 0 * pe (row4096 s) d - T0 rel cw s d
/-- The learned table's excess over the base: cw₁ * pos - T0. -/
def T2 (rel : Fin 819 → Fin 256 → EReal) (cw : Fin 3 → EReal) (pos : Fin 4096 → Fin 256 → EReal) (s : Fin 512) (d : Fin 256) : EReal :=
  cw 1 * pos (row4096 s) d - T0 rel cw s d

/-- THE KERNEL'S ARRANGEMENT: wsum * x + (T0 + prob₀ * T1 + prob₁ * T2). -/
def kerOut (x : Fin 16 → Fin 512 → Fin 256 → EReal) (pos : Fin 4096 → Fin 256 → EReal) (rel : Fin 819 → Fin 256 → EReal)
    (W1 : Fin 128 → Fin 256 → EReal) (b1 : Fin 128 → EReal) (W2 : Fin 3 → Fin 128 → EReal) (b2 : Fin 3 → EReal)
    (cw : Fin 3 → EReal) (pe : Fin 4096 → Fin 256 → EReal) (b : Fin 16) (s : Fin 512) (d : Fin 256) : EReal :=
  wsum (x b) W1 b1 W2 b2 cw * x b s d
    + (T0 rel cw s d + prob (x b) W1 b1 W2 b2 0 * T1 rel cw pe s d + prob (x b) W1 b1 W2 b2 1 * T2 rel cw pos s d)

end Cert.Spec

end
-- ==== Proof.LibIdealReal.lean ====
/-
  Extended-real terms built from REAL arguments by the operations of the ideal float values
  (`Ideal φ = EReal`) are coercions of real expressions. The lemmas below push the coercion
  `ℝ → EReal` outward through each operation as it stands after the instance's `*_def` lemmas
  have fired (`x + y`, `x - y`, `x * y`, `-x`, `max x y`, `max x (-x)`, `Ideal.exp`, `Ideal.log`,
  `Ideal.div`, `Ideal.cmp`), through finite sums and through maxima taken as a fold of `max`
  from `⊥`; and they read the f32 words of a few constants as the reals (or infinities) they denote.
-/
import Idealize.ShloMosaic.PureOps.Ideal
import Idealize.ShloMosaic.PureOps.Ideal.Laws
import Mathlib.Data.EReal.Inv
import Mathlib.Data.EReal.Operations
import Mathlib.Data.Finset.Lattice.Fold
import Mathlib.Data.Finset.Fold
import Mathlib.Algebra.BigOperators.Group.Finset.Basic
import Mathlib.Analysis.SpecialFunctions.Log.Basic

noncomputable section

namespace Cert.LibIdealReal

open Idealize.ShloMosaic
open scoped BigOperators

/-! ## Constants: f32 words as extended reals -/

/-- `+0.0` denotes the real `0` (as a coercion; `Ideal.ofBits_zero_f32` states it as `0 : EReal`). -/
theorem ofBits_zero_f32_coe : Ideal.ofBits .f32 0x00000000#32 = ((0 : ℝ) : EReal) := by
  rw [Ideal.ofBits_zero_f32, EReal.coe_zero]

/-- `1.0` denotes the real `1`. -/
theorem ofBits_one_f32 : Ideal.ofBits .f32 0x3F800000#32 = ((1 : ℝ) : EReal) := by
  simp [Ideal.ofBits, Ideal.ieee, -EReal.coe_mul]; norm_num

/-- `10.0` denotes the real `10`. -/
theorem ofBits_ten_f32 : Ideal.ofBits .f32 0x41200000#32 = ((10 : ℝ) : EReal) := by
  simp [Ideal.ofBits, Ideal.ieee, -EReal.coe_mul]; norm_num

/-- `-10.0` denotes the real `-10`. -/
theorem ofBits_neg_ten_f32 : Ideal.ofBits .f32 0xC1200000#32 = ((-10 : ℝ) : EReal) := by
  simp [Ideal.ofBits, Ideal.ieee, -EReal.coe_mul]; norm_num

/-- `0.5` denotes the real `1/2`. -/
theorem ofBits_half_f32 : Ideal.ofBits .f32 0x3F000000#32 = ((1 / 2 : ℝ) : EReal) := by
  simp [Ideal.ofBits, Ideal.ieee, -EReal.coe_mul]; norm_num

/-- `2048.0` denotes the real `2048`. -/
theorem ofBits_2048_f32 : Ideal.ofBits .f32 0x45000000#32 = ((2048 : ℝ) : EReal) := by
  simp [Ideal.ofBits, Ideal.ieee, -EReal.coe_mul]; norm_num

/-- `50257.0` denotes the real `50257`. -/
theorem ofBits_50257_f32 : Ideal.ofBits .f32 0x47445100#32 = ((50257 : ℝ) : EReal) := by
  simp [Ideal.ofBits, Ideal.ieee, -EReal.coe_mul]; norm_num

/-- `102926336.0` (`= 2048 · 50257`) denotes the real `102926336`. -/
theorem ofBits_102926336_f32 : Ideal.ofBits .f32 0x4CC45100#32 = ((102926336 : ℝ) : EReal) := by
  simp [Ideal.ofBits, Ideal.ieee, -EReal.coe_mul]; norm_num

/-- The pattern of `-∞` denotes `⊥`. -/
theorem ofBits_neg_inf_f32 : Ideal.ofBits .f32 0xFF800000#32 = (⊥ : EReal) := by
  simp [Ideal.ofBits, Ideal.ieee]

/-- The pattern of `+∞` denotes `⊤`. -/
theorem ofBits_inf_f32 : Ideal.ofBits .f32 0x7F800000#32 = (⊤ : EReal) := by
  simp [Ideal.ofBits, Ideal.ieee]

/-! ## Scalar operations on coerced reals

  Sums, differences, products and negations are Mathlib's `EReal.coe_add`, `EReal.coe_sub`, `EReal.coe_mul`,
  `EReal.coe_neg` read right to left; they are restated here left to right so that `rw` / `simp only` can
  use them without an arrow. -/

/-- A sum of two reals' coercions is the coercion of their sum. -/
theorem coe_add_coe (a b : ℝ) : (a : EReal) + (b : EReal) = ((a + b : ℝ) : EReal) := (EReal.coe_add a b).symm

/-- A difference of two reals' coercions is the coercion of their difference. -/
theorem coe_sub_coe (a b : ℝ) : (a : EReal) - (b : EReal) = ((a - b : ℝ) : EReal) := (EReal.coe_sub a b).symm

/-- A product of two reals' coercions is the coercion of their product. -/
theorem coe_mul_coe (a b : ℝ) : (a : EReal) * (b : EReal) = ((a * b : ℝ) : EReal) := (EReal.coe_mul a b).symm

/-- The negation of a real's coercion is the coercion of its negation. -/
theorem neg_coe (a : ℝ) : -(a : EReal) = ((-a : ℝ) : EReal) := (EReal.coe_neg a).symm

/-- The maximum of two reals' coercions is the coercion of their maximum. -/
theorem max_coe_coe (a b : ℝ) : max (a : EReal) (b : EReal) = ((max a b : ℝ) : EReal) :=
  (EReal.coe_strictMono.monotone.map_max (a := a) (b := b)).symm

/-- The minimum of two reals' coercions is the coercion of their minimum. -/
theorem min_coe_coe (a b : ℝ) : min (a : EReal) (b : EReal) = ((min a b : ℝ) : EReal) :=
  (EReal.coe_strictMono.monotone.map_min (a := a) (b := b)).symm

/-- The instance's absolute value, `max x (-x)`, of a real's coercion is the coercion of `|a|`. -/
theorem max_neg_coe (a : ℝ) : max (a : EReal) (-(a : EReal)) = ((|a| : ℝ) : EReal) := by
  rw [neg_coe, max_coe_coe]; rfl

/-- The same, stated on the instance's field `absf` (`Ideal.absf_def` unfolds it to `max x (-x)`). -/
theorem absf_coe {φ : FTy} (a : ℝ) : FloatOps.absf (F := Ideal) (φ := φ) (a : EReal) = ((|a| : ℝ) : EReal) :=
  max_neg_coe a

/-- The instance's logarithm of a POSITIVE real's coercion is the coercion of its real logarithm. -/
theorem log_coe_of_pos {a : ℝ} (h : 0 < a) : Ideal.log (a : EReal) = ((Real.log a : ℝ) : EReal) := by
  rw [Ideal.log_coe, if_neg (not_le.mpr h)]

/-- The instance's division (`divf`, `hostDivf` and the scalar `divf` all unfold to `Ideal.div`) of a real's
    coercion by a NONZERO real's is the coercion of the quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal `Ideal.div 1 x` (the instance's `reciprocal`) of a nonzero real's coercion. -/
theorem div_one_coe {b : ℝ} (hb : b ≠ 0) : Ideal.div 1 (b : EReal) = ((1 / b : ℝ) : EReal) := by
  rw [← EReal.coe_one, div_coe_coe 1 hb]

/-! ### Comparisons and the select on them -/

/-- `cmpf ogt` on two reals' coercions is the bit of `b < a`. -/
theorem cmp_ogt_coe (a b : ℝ) : Ideal.cmp .ogt (a : EReal) (b : EReal) = BitVec.ofBool (decide (b < a)) := by
  simp only [Ideal.cmp, EReal.coe_lt_coe_iff]

/-- `cmpf olt` on two reals' coercions is the bit of `a < b`. -/
theorem cmp_olt_coe (a b : ℝ) : Ideal.cmp .olt (a : EReal) (b : EReal) = BitVec.ofBool (decide (a < b)) := by
  simp only [Ideal.cmp, EReal.coe_lt_coe_iff]

/-- `cmpf oge` on two reals' coercions is the bit of `b ≤ a`. -/
theorem cmp_oge_coe (a b : ℝ) : Ideal.cmp .oge (a : EReal) (b : EReal) = BitVec.ofBool (decide (b ≤ a)) := by
  simp only [Ideal.cmp, EReal.coe_le_coe_iff]

/-- `cmpf ole` on two reals' coercions is the bit of `a ≤ b`. -/
theorem cmp_ole_coe (a b : ℝ) : Ideal.cmp .ole (a : EReal) (b : EReal) = BitVec.ofBool (decide (a ≤ b)) := by
  simp only [Ideal.cmp, EReal.coe_le_coe_iff]

/-- `cmpf ogt` on two reals' coercions answers `1` exactly when `a > b`. -/
theorem cmp_ogt_coe_eq_one_iff (a b : ℝ) : Ideal.cmp .ogt (a : EReal) (b : EReal) = 1#1 ↔ b < a := by
  rw [cmp_ogt_coe]; by_cases h : b < a <;> simp [h]

/-- A select on a proposition's bit is the `if` on the proposition. -/
theorem select_ofBool_decide {α : Type} (p : Prop) [Decidable p] (x y : α) :
    Scalar.select (BitVec.ofBool (decide p)) x y = if p then x else y := by
  by_cases h : p <;> simp [Scalar.select, h]

/-- The select on `cmpf ogt` of two reals' coercions: the first branch exactly when `a > b`. -/
theorem select_cmp_ogt_coe {α : Type} (a b : ℝ) (x y : α) :
    Scalar.select (Ideal.cmp .ogt (a : EReal) (b : EReal)) x y = if b < a then x else y := by
  rw [cmp_ogt_coe, select_ofBool_decide]

/-- The select on `cmpf olt` of two reals' coercions: the first branch exactly when `a < b`. -/
theorem select_cmp_olt_coe {α : Type} (a b : ℝ) (x y : α) :
    Scalar.select (Ideal.cmp .olt (a : EReal) (b : EReal)) x y = if a < b then x else y := by
  rw [cmp_olt_coe, select_ofBool_decide]

/-- The select on `cmpf oge` of two reals' coercions: the first branch exactly when `a ≥ b`. -/
theorem select_cmp_oge_coe {α : Type} (a b : ℝ) (x y : α) :
    Scalar.select (Ideal.cmp .oge (a : EReal) (b : EReal)) x y = if b ≤ a then x else y := by
  rw [cmp_oge_coe, select_ofBool_decide]

/-- The select on `cmpf ole` of two reals' coercions: the first branch exactly when `a ≤ b`. -/
theorem select_cmp_ole_coe {α : Type} (a b : ℝ) (x y : α) :
    Scalar.select (Ideal.cmp .ole (a : EReal) (b : EReal)) x y = if a ≤ b then x else y := by
  rw [cmp_ole_coe, select_ofBool_decide]

/-- An `if` between two reals' coercions is the coercion of the `if`. -/
theorem ite_coe (p : Prop) [Decidable p] (a b : ℝ) :
    (if p then (a : EReal) else (b : EReal)) = ((if p then a else b : ℝ) : EReal) := by
  split <;> rfl

/-! ### The bottom element -/

/-- `⊥` minus a real's coercion is `⊥` (Mathlib's `EReal.bot_sub` at a coercion). -/
theorem bot_sub_coe (a : ℝ) : (⊥ : EReal) - (a : EReal) = ⊥ := EReal.bot_sub _

/-- `max ⊥ x = x` on the extended reals. -/
theorem max_bot_left' (x : EReal) : max ⊥ x = x := max_bot_left x

/-- `max x ⊥ = x` on the extended reals. -/
theorem max_bot_right' (x : EReal) : max x ⊥ = x := max_bot_right x

/-! ## Finite sums and maxima of coerced reals -/

section Big
variable {ι : Type*}

/-- A finite sum of reals' coercions is the coercion of the sum (over a `Finset`; a `Fintype`'s
    `∑ i, _` is the case `s = Finset.univ`). -/
theorem sum_coe (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same for a sum whose terms are KNOWN to be coercions: whatever `F i` is, if each equals
    the coercion of `f i` then the sum is the coercion of `∑ f`. -/
theorem sum_eq_coe_of_eq (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, sum_coe]

/-- The supremum over a nonempty finite set of reals' coercions is the coercion of their
    greatest (`Finset.sup'` on the reals). -/
theorem sup_coe (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun r : ℝ => (r : EReal)) (fun a b => (max_coe_coe a b).symm)).symm

/-- A fold of `max` from `⊥` is the finite supremum. -/
theorem fold_max_bot_eq_sup (s : Finset ι) (F : ι → EReal) : s.fold max (⊥ : EReal) F = s.sup F := rfl

/-- A fold of the instance's `maximumf` is a fold of `max` (what `Host.reduce_eq_fold_single FloatOps.maximumf`
    and `multiReduction_maximumf_eq_fold` leave). -/
theorem fold_maximumf_eq_fold_max {φ : FTy} (s : Finset ι) (b : Ideal φ) (F : ι → Ideal φ) :
    s.fold (FloatOps.maximumf (F := Ideal) (φ := φ)) b F = s.fold (max : EReal → EReal → EReal) b F := rfl

/-- A maximum-reduction of reals' coercions from the initial value `⊥` — the fold of `max` from `⊥` over a
    nonempty finite set, as `multiReduction_maximumf_single` leaves it — is the coercion of their greatest. -/
theorem fold_max_bot_coe (s : Finset ι) (hs : s.Nonempty) (f : ι → ℝ) :
    s.fold max (⊥ : EReal) (fun i => ((f i : ℝ) : EReal)) = ((s.sup' hs f : ℝ) : EReal) := by
  rw [fold_max_bot_eq_sup, sup_coe s hs]

/-- The same for a fold whose terms are KNOWN to be coercions. -/
theorem fold_max_bot_eq_coe_of_eq (s : Finset ι) (hs : s.Nonempty) (F : ι → EReal) (f : ι → ℝ)
    (h : ∀ i ∈ s, F i = ((f i : ℝ) : EReal)) :
    s.fold max (⊥ : EReal) F = ((s.sup' hs f : ℝ) : EReal) := by
  rw [Finset.fold_congr (g := fun i => ((f i : ℝ) : EReal)) h, fold_max_bot_coe s hs]

/-- A fold of `max` from a REAL initial value over reals' coercions is the coercion of the real fold
    (no nonemptiness needed). -/
theorem fold_max_coe (s : Finset ι) (b : ℝ) (f : ι → ℝ) :
    s.fold max ((b : ℝ) : EReal) (fun i => ((f i : ℝ) : EReal)) = ((s.fold max b f : ℝ) : EReal) :=
  Finset.fold_hom (op := (max : ℝ → ℝ → ℝ)) (op' := (max : EReal → EReal → EReal)) (m := fun r : ℝ => (r : EReal))
    (fun a b => (max_coe_coe a b).symm)

end Big

end Cert.LibIdealReal

end
-- ==== Proof.Math.lean ====
/-
  The two arrangements of the adaptive positional encoding agree on real inputs.

  On real inputs every quantity of the specification is a real number: the softmax weights are quotients of positive
  exponentials by their positive sum, so they add up to one, and then
  wsum * x + (T0 + p0 * (cw0 * pe - T0) + p1 * (cw1 * pos - T0)) = sum over k of (x + table k) * (p k * cw k),
  where T0 = cw2 * relm, once the banded matrix product relm is the mean of the clamped relative rows: for each
  position s the rows relIdx s j, j < 512, are row 0 taken max 0 (s - 409) times, the rows of the interior band once
  each, and row 818 taken max 0 (102 - s) times.
-/
import proofs.«144965_g11562051961505_week1_w4_918_31_alg».proof.Proof.Spec
import proofs.«144965_g11562051961505_week1_w4_918_31_alg».proof.Proof.LibIdealReal

noncomputable section

namespace Cert.Spec

open Idealize.ShloMosaic
open Cert.LibIdealReal
open scoped BigOperators

/-! ## The stages on real inputs -/

/-- The real mean over the 512 positions. -/
def meanR (x : Fin 512 → Fin 256 → ℝ) (d : Fin 256) : ℝ := (∑ s : Fin 512, x s d) * (1 / 512)

/-- The real hidden layer. -/
def hidR (x : Fin 512 → Fin 256 → ℝ) (W1 : Fin 128 → Fin 256 → ℝ) (b1 : Fin 128 → ℝ) (j : Fin 128) : ℝ :=
  max (∑ d : Fin 256, meanR x d * W1 j d + b1 j) 0

/-- The real logits. -/
def logitR (x : Fin 512 → Fin 256 → ℝ) (W1 : Fin 128 → Fin 256 → ℝ) (b1 : Fin 128 → ℝ)
    (W2 : Fin 3 → Fin 128 → ℝ) (b2 : Fin 3 → ℝ) (k : Fin 3) : ℝ :=
  ∑ j : Fin 128, hidR x W1 b1 j * W2 k j + b2 k

/-- The greatest real logit. -/
def lmaxR (x : Fin 512 → Fin 256 → ℝ) (W1 : Fin 128 → Fin 256 → ℝ) (b1 : Fin 128 → ℝ)
    (W2 : Fin 3 → Fin 128 → ℝ) (b2 : Fin 3 → ℝ) : ℝ :=
  (Finset.univ : Finset (Fin 3)).sup' Finset.univ_nonempty (logitR x W1 b1 W2 b2)

/-- The real shifted exponentials. -/
def exR (x : Fin 512 → Fin 256 → ℝ) (W1 : Fin 128 → Fin 256 → ℝ) (b1 : Fin 128 → ℝ)
    (W2 : Fin 3 → Fin 128 → ℝ) (b2 : Fin 3 → ℝ) (k : Fin 3) : ℝ :=
  Real.exp (logitR x W1 b1 W2 b2 k - lmaxR x W1 b1 W2 b2)

/-- The real softmax weights. -/
def probR (x : Fin 512 → Fin 256 → ℝ) (W1 : Fin 128 → Fin 256 → ℝ) (b1 : Fin 128 → ℝ)
    (W2 : Fin 3 → Fin 128 → ℝ) (b2 : Fin 3 → ℝ) (k : Fin 3) : ℝ :=
  exR x W1 b1 W2 b2 k / ∑ k' : Fin 3, exR x W1 b1 W2 b2 k'

section Stages
variable (x : Fin 512 → Fin 256 → ℝ) (W1 : Fin 128 → Fin 256 → ℝ) (b1 : Fin 128 → ℝ)
  (W2 : Fin 3 → Fin 128 → ℝ) (b2 : Fin 3 → ℝ)

theorem mean_coe (d : Fin 256) :
    mean (fun a b => ((x a b : ℝ) : EReal)) d = ((meanR x d : ℝ) : EReal) := by
  unfold mean meanR invS
  rw [sum_coe, coe_mul_coe]

theorem hid_coe (j : Fin 128) :
    hid (fun a b => ((x a b : ℝ) : EReal)) (fun a b => ((W1 a b : ℝ) : EReal)) (fun a => ((b1 a : ℝ) : EReal)) j
      = ((hidR x W1 b1 j : ℝ) : EReal) := by
  unfold hid hidR
  rw [sum_eq_coe_of_eq Finset.univ _ (fun d => meanR x d * W1 j d)
        (fun d _ => by rw [mean_coe, coe_mul_coe]),
    coe_add_coe, ← EReal.coe_zero, max_coe_coe]

theorem logit_coe (k : Fin 3) :
    logit (fun a b => ((x a b : ℝ) : EReal)) (fun a b => ((W1 a b : ℝ) : EReal)) (fun a => ((b1 a : ℝ) : EReal))
        (fun a b => ((W2 a b : ℝ) : EReal)) (fun a => ((b2 a : ℝ) : EReal)) k
      = ((logitR x W1 b1 W2 b2 k : ℝ) : EReal) := by
  unfold logit logitR
  rw [sum_eq_coe_of_eq Finset.univ _ (fun j => hidR x W1 b1 j * W2 k j)
        (fun j _ => by rw [hid_coe, coe_mul_coe]),
    coe_add_coe]

theorem lmax_coe :
    lmax (fun a b => ((x a b : ℝ) : EReal)) (fun a b => ((W1 a b : ℝ) : EReal)) (fun a => ((b1 a : ℝ) : EReal))
        (fun a b => ((W2 a b : ℝ) : EReal)) (fun a => ((b2 a : ℝ) : EReal))
      = ((lmaxR x W1 b1 W2 b2 : ℝ) : EReal) := by
  unfold lmax lmaxR
  exact fold_max_bot_eq_coe_of_eq Finset.univ Finset.univ_nonempty _ _ (fun k _ => logit_coe x W1 b1 W2 b2 k)

theorem ex_coe (k : Fin 3) :
    ex (fun a b => ((x a b : ℝ) : EReal)) (fun a b => ((W1 a b : ℝ) : EReal)) (fun a => ((b1 a : ℝ) : EReal))
        (fun a b => ((W2 a b : ℝ) : EReal)) (fun a => ((b2 a : ℝ) : EReal)) k
      = ((exR x W1 b1 W2 b2 k : ℝ) : EReal) := by
  unfold ex exR
  rw [logit_coe, lmax_coe, coe_sub_coe, Ideal.exp_coe]

theorem exR_pos (k : Fin 3) : 0 < exR x W1 b1 W2 b2 k := Real.exp_pos _

theorem sum_exR_pos : 0 < ∑ k : Fin 3, exR x W1 b1 W2 b2 k :=
  Finset.sum_pos (fun k _ => exR_pos x W1 b1 W2 b2 k) Finset.univ_nonempty

theorem prob_coe (k : Fin 3) :
    prob (fun a b => ((x a b : ℝ) : EReal)) (fun a b => ((W1 a b : ℝ) : EReal)) (fun a => ((b1 a : ℝ) : EReal))
        (fun a b => ((W2 a b : ℝ) : EReal)) (fun a => ((b2 a : ℝ) : EReal)) k
      = ((probR x W1 b1 W2 b2 k : ℝ) : EReal) := by
  unfold prob probR
  rw [sum_eq_coe_of_eq Finset.univ _ (exR x W1 b1 W2 b2) (fun k' _ => ex_coe x W1 b1 W2 b2 k'),
    ex_coe, div_coe_coe _ (sum_exR_pos x W1 b1 W2 b2).ne']

/-- The softmax weights add up to one. -/
theorem probR_sum : probR x W1 b1 W2 b2 0 + probR x W1 b1 W2 b2 1 + probR x W1 b1 W2 b2 2 = 1 := by
  unfold probR
  rw [← add_div, ← add_div, ← Fin.sum_univ_three (exR x W1 b1 W2 b2)]
  exact div_self (sum_exR_pos x W1 b1 W2 b2).ne'

end Stages

/-! ## The banded matrix counts the clamped offsets -/

/-- The clamped row as a natural number. -/
def relIdxN (S j : ℕ) : ℕ := if j + 409 < S then 0 else if S + 409 < j then 818 else j + 409 - S

theorem relIdx_val (s j : Fin 512) : (relIdx s j).val = relIdxN s.val j.val := rfl

/-- The entry of the banded matrix as a function of natural numbers. -/
def mcoefN (S k : ℕ) : ℝ :=
  (((if 409 - S ≤ k ∧ k ≤ min 818 (920 - S) then 1 else 0 : ℕ) : ℝ)
    + (if k = 0 then ((S - 409 : ℕ) : ℝ) else 0) + (if k = 818 then ((102 - S : ℕ) : ℝ) else 0)) * (1 / 512)

theorem mcoef_eq (s : Fin 512) (k : Fin 824) : mcoef s k = mcoefN s.val k.val := rfl

/-- The rows met by the offsets of position S: row 0 taken S - 409 times, the interior band once each,
    row 818 taken 102 - S times (truncated subtractions). -/
theorem sum_relIdxN (g : ℕ → ℝ) (S : ℕ) (hS : S < 512) :
    ∑ j ∈ Finset.range 512, g (relIdxN S j)
      = ((S - 409 : ℕ) : ℝ) * g 0 + ∑ k ∈ Finset.Ico (409 - S) (min 818 (920 - S) + 1), g k
        + ((102 - S : ℕ) : ℝ) * g 818 := by
  have h1 : ∑ j ∈ Finset.Ico 0 (S - 409), g (relIdxN S j) = ((S - 409 : ℕ) : ℝ) * g 0 := by
    rw [Finset.sum_congr rfl (g := fun _ => g 0), Finset.sum_const, Nat.card_Ico, nsmul_eq_mul, Nat.sub_zero]
    intro j hj
    rw [Finset.mem_Ico] at hj
    unfold relIdxN
    rw [if_pos (by omega)]
  have h3 : ∑ j ∈ Finset.Ico (min 512 (S + 410)) 512, g (relIdxN S j) = ((102 - S : ℕ) : ℝ) * g 818 := by
    rw [Finset.sum_congr rfl (g := fun _ => g 818), Finset.sum_const, Nat.card_Ico, nsmul_eq_mul]
    · congr 2; omega
    · intro j hj
      rw [Finset.mem_Ico] at hj
      unfold relIdxN
      rw [if_neg (by omega), if_pos (by omega)]
  have h2 : ∑ j ∈ Finset.Ico (S - 409) (min 512 (S + 410)), g (relIdxN S j)
      = ∑ k ∈ Finset.Ico (409 - S) (min 818 (920 - S) + 1), g k := by
    refine Finset.sum_nbij' (fun j => j + 409 - S) (fun k => k + S - 409) ?_ ?_ ?_ ?_ ?_
    · intro j hj; rw [Finset.mem_Ico] at hj ⊢; omega
    · intro k hk; rw [Finset.mem_Ico] at hk ⊢; omega
    · intro j hj; rw [Finset.mem_Ico] at hj; show j + 409 - S + S - 409 = j; omega
    · intro k hk; rw [Finset.mem_Ico] at hk; show k + S - 409 + 409 - S = k; omega
    · intro j hj
      rw [Finset.mem_Ico] at hj
      unfold relIdxN
      rw [if_neg (by omega), if_neg (by omega)]
  rw [Finset.range_eq_Ico, ← Finset.sum_Ico_consecutive _ (Nat.zero_le (S - 409)) (by omega : S - 409 ≤ 512),
    ← Finset.sum_Ico_consecutive _ (by omega : S - 409 ≤ min 512 (S + 410)) (by omega : min 512 (S + 410) ≤ 512),
    h1, h2, h3, add_assoc]

/-- A row of the banded matrix against g: the same three groups, divided by 512. -/
theorem sum_mcoefN (g : ℕ → ℝ) (S : ℕ) :
    ∑ k ∈ Finset.range 824, mcoefN S k * g k
      = (((S - 409 : ℕ) : ℝ) * g 0 + ∑ k ∈ Finset.Ico (409 - S) (min 818 (920 - S) + 1), g k
        + ((102 - S : ℕ) : ℝ) * g 818) * (1 / 512) := by
  have hfilter : (Finset.range 824).filter (fun k => 409 - S ≤ k ∧ k ≤ min 818 (920 - S))
      = Finset.Ico (409 - S) (min 818 (920 - S) + 1) := by
    ext k
    rw [Finset.mem_filter, Finset.mem_range, Finset.mem_Ico]
    omega
  have hA : ∑ k ∈ Finset.range 824, ((if 409 - S ≤ k ∧ k ≤ min 818 (920 - S) then 1 else 0 : ℕ) : ℝ) * g k
      = ∑ k ∈ Finset.Ico (409 - S) (min 818 (920 - S) + 1), g k := by
    rw [← hfilter, Finset.sum_filter]
    refine Finset.sum_congr rfl (fun k _ => ?_)
    split_ifs
    · rw [Nat.cast_one, one_mul]
    · rw [Nat.cast_zero, zero_mul]
  have hB : ∑ k ∈ Finset.range 824, (if k = 0 then ((S - 409 : ℕ) : ℝ) else 0) * g k
      = ((S - 409 : ℕ) : ℝ) * g 0 := by
    rw [Finset.sum_eq_single_of_mem 0 (Finset.mem_range.mpr (by norm_num))]
    · rw [if_pos rfl]
    · intro k _ hk; rw [if_neg hk, zero_mul]
  have hC : ∑ k ∈ Finset.range 824, (if k = 818 then ((102 - S : ℕ) : ℝ) else 0) * g k
      = ((102 - S : ℕ) : ℝ) * g 818 := by
    rw [Finset.sum_eq_single_of_mem 818 (Finset.mem_range.mpr (by norm_num))]
    · rw [if_pos rfl]
    · intro k _ hk; rw [if_neg hk, zero_mul]
  calc ∑ k ∈ Finset.range 824, mcoefN S k * g k
      = ∑ k ∈ Finset.range 824,
          (((if 409 - S ≤ k ∧ k ≤ min 818 (920 - S) then 1 else 0 : ℕ) : ℝ) * g k
            + (if k = 0 then ((S - 409 : ℕ) : ℝ) else 0) * g k
            + (if k = 818 then ((102 - S : ℕ) : ℝ) else 0) * g k) * (1 / 512) := by
        refine Finset.sum_congr rfl (fun k _ => ?_)
        unfold mcoefN
        ring
    _ = _ := by
        rw [← Finset.sum_mul, Finset.sum_add_distrib, Finset.sum_add_distrib, hA, hB, hC]
        ring

/-- A table of 819 rows read at a natural number, zero from row 819 on. -/
def padN (f : Fin 819 → ℝ) (n : ℕ) : ℝ := if h : n < 819 then f ⟨n, h⟩ else 0

/-- The banded matrix times the zero-padded table is the mean of the clamped rows. -/
theorem band_eq_mean (f : Fin 819 → ℝ) (s : Fin 512) :
    ∑ k : Fin 824, mcoef s k * (if h : k.val < 819 then f ⟨k.val, h⟩ else 0)
      = (∑ j : Fin 512, f (relIdx s j)) * (1 / 512) := by
  have hL : ∑ k : Fin 824, mcoef s k * (if h : k.val < 819 then f ⟨k.val, h⟩ else 0)
      = ∑ k ∈ Finset.range 824, mcoefN s.val k * padN f k :=
    Fin.sum_univ_eq_sum_range (fun k => mcoefN s.val k * padN f k) 824
  have hR : ∑ j : Fin 512, f (relIdx s j) = ∑ j ∈ Finset.range 512, padN f (relIdxN s.val j) := by
    rw [← Fin.sum_univ_eq_sum_range (fun j => padN f (relIdxN s.val j)) 512]
    refine Finset.sum_congr rfl (fun j _ => ?_)
    show f (relIdx s j) = if h : (relIdx s j).val < 819 then f ⟨(relIdx s j).val, h⟩ else 0
    rw [dif_pos (relIdx s j).isLt]
  rw [hL, hR, sum_mcoefN, sum_relIdxN _ _ s.isLt]

/-! ## The relative table's two readings agree -/

/-- The real mean of the clamped relative rows. -/
def relMeanR (rel : Fin 819 → Fin 256 → ℝ) (s : Fin 512) (d : Fin 256) : ℝ :=
  (∑ j : Fin 512, rel (relIdx s j) d) * (1 / 512)

theorem relMean_coe (rel : Fin 819 → Fin 256 → ℝ) (s : Fin 512) (d : Fin 256) :
    relMean (fun a b => ((rel a b : ℝ) : EReal)) s d = ((relMeanR rel s d : ℝ) : EReal) := by
  unfold relMean relMeanR invS
  rw [sum_coe, coe_mul_coe]

theorem relPad_coe (rel : Fin 819 → Fin 256 → ℝ) (k : Fin 824) (d : Fin 256) :
    relPad (fun a b => ((rel a b : ℝ) : EReal)) k d
      = (((if h : k.val < 819 then rel ⟨k.val, h⟩ d else 0 : ℝ)) : EReal) := by
  unfold relPad
  by_cases h : k.val < 819
  · rw [dif_pos h, dif_pos h]
  · rw [dif_neg h, dif_neg h, EReal.coe_zero]

theorem relm_coe (rel : Fin 819 → Fin 256 → ℝ) (s : Fin 512) (d : Fin 256) :
    relm (fun a b => ((rel a b : ℝ) : EReal)) s d = ((relMeanR rel s d : ℝ) : EReal) := by
  unfold relm relMeanR
  rw [sum_eq_coe_of_eq Finset.univ _
        (fun k : Fin 824 => mcoef s k * (if h : k.val < 819 then rel ⟨k.val, h⟩ d else 0))
        (fun k _ => by rw [relPad_coe, coe_mul_coe]),
    band_eq_mean (fun r => rel r d) s]

/-! ## The three tables -/

theorem tab_zero (pos : Fin 4096 → Fin 256 → EReal) (rel : Fin 819 → Fin 256 → EReal) (pe : Fin 4096 → Fin 256 → EReal)
    (s : Fin 512) (d : Fin 256) : tab pos rel pe 0 s d = pe (row4096 s) d := rfl

theorem tab_one (pos : Fin 4096 → Fin 256 → EReal) (rel : Fin 819 → Fin 256 → EReal) (pe : Fin 4096 → Fin 256 → EReal)
    (s : Fin 512) (d : Fin 256) : tab pos rel pe 1 s d = pos (row4096 s) d := rfl

theorem tab_two (pos : Fin 4096 → Fin 256 → EReal) (rel : Fin 819 → Fin 256 → EReal) (pe : Fin 4096 → Fin 256 → EReal)
    (s : Fin 512) (d : Fin 256) : tab pos rel pe 2 s d = relMean rel s d := rfl

/-! ## The two arrangements -/

/-- On real inputs the kernel's arrangement equals the reference's, entry by entry. -/
theorem kerOut_eq_refOut (x : Fin 16 → Fin 512 → Fin 256 → ℝ) (pos : Fin 4096 → Fin 256 → ℝ) (rel : Fin 819 → Fin 256 → ℝ)
    (W1 : Fin 128 → Fin 256 → ℝ) (b1 : Fin 128 → ℝ) (W2 : Fin 3 → Fin 128 → ℝ) (b2 : Fin 3 → ℝ) (cw : Fin 3 → ℝ)
    (pe : Fin 4096 → Fin 256 → ℝ) (b : Fin 16) (s : Fin 512) (d : Fin 256) :
    kerOut (fun a b c => ((x a b c : ℝ) : EReal)) (fun a b => ((pos a b : ℝ) : EReal)) (fun a b => ((rel a b : ℝ) : EReal))
        (fun a b => ((W1 a b : ℝ) : EReal)) (fun a => ((b1 a : ℝ) : EReal)) (fun a b => ((W2 a b : ℝ) : EReal))
        (fun a => ((b2 a : ℝ) : EReal)) (fun a => ((cw a : ℝ) : EReal)) (fun a b => ((pe a b : ℝ) : EReal)) b s d
      = refOut (fun a b c => ((x a b c : ℝ) : EReal)) (fun a b => ((pos a b : ℝ) : EReal)) (fun a b => ((rel a b : ℝ) : EReal))
        (fun a b => ((W1 a b : ℝ) : EReal)) (fun a => ((b1 a : ℝ) : EReal)) (fun a b => ((W2 a b : ℝ) : EReal))
        (fun a => ((b2 a : ℝ) : EReal)) (fun a => ((cw a : ℝ) : EReal)) (fun a b => ((pe a b : ℝ) : EReal)) b s d := by
  have hp := probR_sum (x b) W1 b1 W2 b2
  unfold kerOut refOut wsum T1 T2 T0
  rw [Fin.sum_univ_three, Fin.sum_univ_three, tab_zero, tab_one, tab_two, relMean_coe, relm_coe,
    prob_coe (x b) W1 b1 W2 b2 0, prob_coe (x b) W1 b1 W2 b2 1, prob_coe (x b) W1 b1 W2 b2 2]
  simp only [coe_mul_coe, coe_add_coe, coe_sub_coe]
  rw [EReal.coe_eq_coe_iff]
  linear_combination (-(cw 2 * relMeanR rel s d)) * hp

end Cert.Spec

end
-- ==== Proof.Finite.lean ====
/-
  Finite inputs are real numbers.

  The precondition says of each of the nine input arrays that every entry's absolute value is below +∞. On the extended
  reals that leaves exactly the real numbers.
-/
import proofs.«144965_g11562051961505_week1_w4_918_31_alg».proof.Pre_finite_inputs
import proofs.«144965_g11562051961505_week1_w4_918_31_alg».proof.Proof.Gen.Pre_finite_inputs
import Idealize.ShloMosaic.Lib.ReduceAll
import Idealize.ShloMosaic.Lib.ValueIdx
import Idealize.ShloMosaic.PureOps.Ideal.Laws

noncomputable section

namespace Cert.Finite

open Cert.Pre_finite_inputs Idealize.ShloMosaic Idealize.ShloMosaic.ValueIdx

/-- The f32 word 0x7F800000 denotes +∞. -/
theorem inf_word : Ideal.ofBits .f32 0x7F800000#32 = (⊤ : EReal) := by
  simp [Ideal.ofBits, Ideal.ieee]

/-- An extended real whose absolute value max x (-x) lies strictly below +∞ is a real number: at -∞ and at +∞ the
    absolute value is +∞ itself. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The shape of rank zero has one index. -/
instance : Subsingleton S_.Idx := ⟨fun a b => funext fun d => d.elim0⟩

/-- One array of any shape: if the reduction by and, over all axes, of the entrywise test |x| < +∞ is 1, then every
    entry is a real number. -/
theorem entries_real {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi (cmpf .olt (Host.absf x) (broadcastInDim S ![] hb (constant S_ .f32 0x7F800000#32)))
      (constantI S_ 1 1#1) hr hu j = 1#1) (i : S.Idx) : ∃ r : ℝ, x i = (r : EReal) := by
  -- every entry of the reduced array of bits is 1
  have hi := Host.reduce_andi_all _ _ hr hu j e i
  -- at entry i that bit is the comparison of max (x i) (-(x i)) with the word for +∞
  refine real_of_abs_lt_top (x i) ?_
  rw [← inf_word]
  exact hi

/-- If the finiteness predicate of the nine arrays is all ones, every entry of every array is a real number. -/
theorem real_of_fn [Cert.Pre_finite_inputs.Facts] (a0 : FVec Ideal S16x512x256 .f32) (a1 : FVec Ideal S4096x256 .f32) (a2 : FVec Ideal S819x256 .f32)
    (a3 : FVec Ideal S128x256 .f32) (a4 : FVec Ideal S128 .f32) (a5 : FVec Ideal S3x128 .f32) (a6 : FVec Ideal S3 .f32)
    (a7 : FVec Ideal S3 .f32) (a8 : FVec Ideal S4096x256 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  -- the predicate at its one index: nine all-axes reductions joined by and
  have e := congrFun h ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨e0, e1⟩, e2⟩, e3⟩, e4⟩, e5⟩, e6⟩, e7⟩, e8⟩ := e
  exact ⟨entries_real a0 _ _ _ _ e0, entries_real a1 _ _ _ _ e1, entries_real a2 _ _ _ _ e2, entries_real a3 _ _ _ _ e3,
    entries_real a4 _ _ _ _ e4, entries_real a5 _ _ _ _ e5, entries_real a6 _ _ _ _ e6, entries_real a7 _ _ _ _ e7,
    entries_real a8 _ _ _ _ e8⟩

end Cert.Finite

end
-- ==== Proof.RefRun.lean ====
import proofs.«144965_g11562051961505_week1_w4_918_31_alg».proof.Proof.Gen.ReferenceIdeal
import Idealize.ShloMosaic.Lib.StableHlo.Run

/-! The reference program's run, as one straight line of host operations.

The reference's `@main` calls four module-local functions (a row lookup with index wrapping and a validity
mask, twice; a clamp between two scalars; a maximum against zero), and the two lookups each call an
elementwise choice. Substituting every callee's body at its call site, over that call's own record of
buffers, turns `@main` into a list of 122 operations, each writing one buffer that no other operation
writes. From any launch memory every fair execution then terminates with each buffer holding the left fold
of the operations' results over the launch contents, and the nine argument buffers, which nothing writes,
are unchanged. -/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- `@main`'s 122 operations in program order, each callee's operations in place of its call. -/
abbrev ops : List (HloOp τ sig (Elt F)) :=
  [ unary main_arg8 main_v0 ((extractStridedSlice S512x256 ![0, 0] · slices_S4096x256_S512x256_0_0) : (⟨S4096x256, .f32⟩ : BufTy).Contents (Elt F) → (⟨S512x256, .f32⟩ : BufTy).Contents (Elt F)),
    unary main_v0 main_v1 (broadcastInDim S1x512x256 ![1, 2] bcast_S512x256_S1x512x256_1_2 : (⟨S512x256, .f32⟩ : BufTy).Contents (Elt F) → (⟨S1x512x256, .f32⟩ : BufTy).Contents (Elt F)),
    unary main_v1 main_v2 (broadcastInDim S16x512x256 ![0, 1, 2] bcast_S1x512x256_S16x512x256_0_1_2 : (⟨S1x512x256, .f32⟩ : BufTy).Contents (Elt F) → (⟨S16x512x256, .f32⟩ : BufTy).Contents (Elt F)),
    binary main_arg0 main_v2 main_v3 (addf : (⟨S16x512x256, .f32⟩ : BufTy).Contents (Elt F) → (⟨S16x512x256, .f32⟩ : BufTy).Contents (Elt F) → (⟨S16x512x256, .f32⟩ : BufTy).Contents (Elt F)),
    nullary main_v4 (iotaInDim S512 32 0),
    TRef.nullary main_call0.c (constantI S_ 32 0#32),
    TRef.unary main_call0.c main_call0.v0 (broadcastInDim S512 ![] bcast_S_S512),
    TRef.binary (.of main_v4 : TRef sig ⟨S512, .i32⟩) main_call0.v0 main_call0.v1 (cmpi .slt),
    TRef.nullary main_call0.c_0 (constantI S_ 32 4096#32),
    TRef.unary main_call0.c_0 main_call0.v2 (broadcastInDim S512 ![] bcast_S_S512),
    TRef.binary (.of main_v4 : TRef sig ⟨S512, .i32⟩) main_call0.v2 main_call0.v3 addi,
    TRef.ternary main_call0.v1 main_call0.v3 (.of main_v4 : TRef sig ⟨S512, .i32⟩) main_call0.call0.v0 select,
    TRef.unary main_call0.call0.v0 main_call0.v5 (broadcastInDim S512x1 ![0] bcast_S512_S512x1_0),
    TRef.nullary main_call0.c_1 (constantI S1 32 4095#32),
    TRef.nullary main_call0.c_2 (constantI S_ 32 0#32),
    TRef.unary main_call0.c_2 main_call0.v6 (broadcastInDim S512x1 ![] bcast_S_S512x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S512x1 ![0, 1] bcast_S1x1_S512x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S512x1_S512_d1 h_S_),
    TRef.binary (.of main_arg1 : TRef sig ⟨S4096x256, .f32⟩) main_call0.v5 main_call0.v13 (fun x i => Host.gather gather_S4096x256_S512x1_S512x256_1_0_n_n_0_1_1256 x i),
    TRef.unary main_call0.v12 main_call0.v14 (broadcastInDim S512x256 ![0] bcast_S512_S512x256_0),
    TRef.nullary main_call0.cst (constant S_ .f32 0x7FC00000#32),
    TRef.unary main_call0.cst main_call0.v15 (broadcastInDim S512x256 ![] bcast_S_S512x256),
    TRef.ternary main_call0.v14 main_call0.v13 main_call0.v15 main_call0.v16 select,
    unary main_v5 main_v6 (broadcastInDim S1x512x256 ![1, 2] bcast_S512x256_S1x512x256_1_2 : (⟨S512x256, .f32⟩ : BufTy).Contents (Elt F) → (⟨S1x512x256, .f32⟩ : BufTy).Contents (Elt F)),
    unary main_v6 main_v7 (broadcastInDim S16x512x256 ![0, 1, 2] bcast_S1x512x256_S16x512x256_0_1_2 : (⟨S1x512x256, .f32⟩ : BufTy).Contents (Elt F) → (⟨S16x512x256, .f32⟩ : BufTy).Contents (Elt F)),
    binary main_arg0 main_v7 main_v8 (addf : (⟨S16x512x256, .f32⟩ : BufTy).Contents (Elt F) → (⟨S16x512x256, .f32⟩ : BufTy).Contents (Elt F) → (⟨S16x512x256, .f32⟩ : BufTy).Contents (Elt F)),
    unary main_v4 main_v9 (broadcastInDim S1x512 ![1] bcast_S512_S1x512_1 : (⟨S512, .i32⟩ : BufTy).Contents (Elt F) → (⟨S1x512, .i32⟩ : BufTy).Contents (Elt F)),
    unary main_v4 main_v10 (broadcastInDim S512x1 ![0] bcast_S512_S512x1_0 : (⟨S512, .i32⟩ : BufTy).Contents (Elt F) → (⟨S512x1, .i32⟩ : BufTy).Contents (Elt F)),
    unary main_v9 main_v11 (broadcastInDim S512x512 ![0, 1] bcast_S1x512_S512x512_0_1 : (⟨S1x512, .i32⟩ : BufTy).Contents (Elt F) → (⟨S512x512, .i32⟩ : BufTy).Contents (Elt F)),
    unary main_v10 main_v12 (broadcastInDim S512x512 ![0, 1] bcast_S512x1_S512x512_0_1 : (⟨S512x1, .i32⟩ : BufTy).Contents (Elt F) → (⟨S512x512, .i32⟩ : BufTy).Contents (Elt F)),
    binary main_v11 main_v12 main_v13 (subi : (⟨S512x512, .i32⟩ : BufTy).Contents (Elt F) → (⟨S512x512, .i32⟩ : BufTy).Contents (Elt F) → (⟨S512x512, .i32⟩ : BufTy).Contents (Elt F)),
    nullary main_c (constantI S_ 32 4294966887#32),
    nullary main_c_0 (constantI S_ 32 409#32),
    TRef.unary (.of main_c : TRef sig ⟨S_, .i32⟩) main_call1.v0 id,
    TRef.unary main_call1.v0 main_call1.v1 (broadcastInDim S512x512 ![] bcast_S_S512x512),
    TRef.binary main_call1.v1 (.of main_v13 : TRef sig ⟨S512x512, .i32⟩) main_call1.v2 maxsi,
    TRef.unary (.of main_c_0 : TRef sig ⟨S_, .i32⟩) main_call1.v3 id,
    TRef.unary main_call1.v3 main_call1.v4 (broadcastInDim S512x512 ![] bcast_S_S512x512),
    TRef.binary main_call1.v4 main_call1.v2 main_call1.v5 minsi,
    nullary main_c_1 (constantI S_ 32 409#32),
    unary main_c_1 main_v15 (broadcastInDim S512x512 ![] bcast_S_S512x512 : (⟨S_, .i32⟩ : BufTy).Contents (Elt F) → (⟨S512x512, .i32⟩ : BufTy).Contents (Elt F)),
    binary main_v14 main_v15 main_v16 (addi : (⟨S512x512, .i32⟩ : BufTy).Contents (Elt F) → (⟨S512x512, .i32⟩ : BufTy).Contents (Elt F) → (⟨S512x512, .i32⟩ : BufTy).Contents (Elt F)),
    TRef.nullary main_call2.c (constantI S_ 32 0#32),
    TRef.unary main_call2.c main_call2.v0 (broadcastInDim S512x512 ![] bcast_S_S512x512),
    TRef.binary (.of main_v16 : TRef sig ⟨S512x512, .i32⟩) main_call2.v0 main_call2.v1 (cmpi .slt),
    TRef.nullary main_call2.c_0 (constantI S_ 32 819#32),
    TRef.unary main_call2.c_0 main_call2.v2 (broadcastInDim S512x512 ![] bcast_S_S512x512),
    TRef.binary (.of main_v16 : TRef sig ⟨S512x512, .i32⟩) main_call2.v2 main_call2.v3 addi,
    TRef.ternary main_call2.v1 main_call2.v3 (.of main_v16 : TRef sig ⟨S512x512, .i32⟩) main_call2.call0.v0 select,
    TRef.unary main_call2.call0.v0 main_call2.v5 (broadcastInDim S512x512x1 ![0, 1] bcast_S512x512_S512x512x1_0_1),
    TRef.nullary main_call2.c_1 (constantI S1 32 818#32),
    TRef.nullary main_call2.c_2 (constantI S_ 32 0#32),
    TRef.unary main_call2.c_2 main_call2.v6 (broadcastInDim S512x512x1 ![] bcast_S_S512x512x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S512x512x1 ![0, 1, 2] bcast_S1x1x1_S512x512x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S512x512x1_S512x512_d2 h_S_),
    TRef.binary (.of main_arg2 : TRef sig ⟨S819x256, .f32⟩) main_call2.v5 main_call2.v13 (fun x i => Host.gather gather_S819x256_S512x512x1_S512x512x256_2_0_n_n_0_2_1256 x i),
    TRef.unary main_call2.v12 main_call2.v14 (broadcastInDim S512x512x256 ![0, 1] bcast_S512x512_S512x512x256_0_1),
    TRef.nullary main_call2.cst (constant S_ .f32 0x7FC00000#32),
    TRef.unary main_call2.cst main_call2.v15 (broadcastInDim S512x512x256 ![] bcast_S_S512x512x256),
    TRef.ternary main_call2.v14 main_call2.v13 main_call2.v15 main_call2.v16 select,
    nullary main_cst (constant S_ .f32 0x00000000#32),
    binary main_v17 main_cst main_v18 ((fun x v => Host.reduceAdd x v reducesTo_S512x512x256_S512x256_d1 h_S_) : (⟨S512x512x256, .f32⟩ : BufTy).Contents (Elt F) → (⟨S_, .f32⟩ : BufTy).Contents (Elt F) → (⟨S512x256, .f32⟩ : BufTy).Contents (Elt F)),
    nullary main_cst_2 (constant S_ .f32 0x44000000#32),
    unary main_cst_2 main_v19 (broadcastInDim S512x256 ![] bcast_S_S512x256 : (⟨S_, .f32⟩ : BufTy).Contents (Elt F) → (⟨S512x256, .f32⟩ : BufTy).Contents (Elt F)),
    binary main_v18 main_v19 main_v20 (Host.divf : (⟨S512x256, .f32⟩ : BufTy).Contents (Elt F) → (⟨S512x256, .f32⟩ : BufTy).Contents (Elt F) → (⟨S512x256, .f32⟩ : BufTy).Contents (Elt F)),
    unary main_v20 main_v21 (broadcastInDim S1x512x256 ![1, 2] bcast_S512x256_S1x512x256_1_2 : (⟨S512x256, .f32⟩ : BufTy).Contents (Elt F) → (⟨S1x512x256, .f32⟩ : BufTy).Contents (Elt F)),
    unary main_v21 main_v22 (broadcastInDim S16x512x256 ![0, 1, 2] bcast_S1x512x256_S16x512x256_0_1_2 : (⟨S1x512x256, .f32⟩ : BufTy).Contents (Elt F) → (⟨S16x512x256, .f32⟩ : BufTy).Contents (Elt F)),
    binary main_arg0 main_v22 main_v23 (addf : (⟨S16x512x256, .f32⟩ : BufTy).Contents (Elt F) → (⟨S16x512x256, .f32⟩ : BufTy).Contents (Elt F) → (⟨S16x512x256, .f32⟩ : BufTy).Contents (Elt F)),
    unary main_v3 main_v24 (broadcastInDim S16x512x256x1 ![0, 1, 2] bcast_S16x512x256_S16x512x256x1_0_1_2 : (⟨S16x512x256, .f32⟩ : BufTy).Contents (Elt F) → (⟨S16x512x256x1, .f32⟩ : BufTy).Contents (Elt F)),
    unary main_v8 main_v25 (broadcastInDim S16x512x256x1 ![0, 1, 2] bcast_S16x512x256_S16x512x256x1_0_1_2 : (⟨S16x512x256, .f32⟩ : BufTy).Contents (Elt F) → (⟨S16x512x256x1, .f32⟩ : BufTy).Contents (Elt F)),
    unary main_v23 main_v26 (broadcastInDim S16x512x256x1 ![0, 1, 2] bcast_S16x512x256_S16x512x256x1_0_1_2 : (⟨S16x512x256, .f32⟩ : BufTy).Contents (Elt F) → (⟨S16x512x256x1, .f32⟩ : BufTy).Contents (Elt F)),
    nary ![main_v24, main_v25, main_v26] main_v27 (fun u => concatenate S16x512x256x3 3 [⟨S16x512x256x1, u 0⟩, ⟨S16x512x256x1, u 1⟩, ⟨S16x512x256x1, u 2⟩] concatenates_S16x512x256x1_S16x512x256x1_S16x512x256x1_S16x512x256x3_d3),
    nullary main_cst_3 (constant S_ .f32 0x00000000#32),
    binary main_arg0 main_cst_3 main_v28 ((fun x v => Host.reduceAdd x v reducesTo_S16x512x256_S16x256_d1 h_S_) : (⟨S16x512x256, .f32⟩ : BufTy).Contents (Elt F) → (⟨S_, .f32⟩ : BufTy).Contents (Elt F) → (⟨S16x256, .f32⟩ : BufTy).Contents (Elt F)),
    nullary main_cst_4 (constant S_ .f32 0x44000000#32),
    unary main_cst_4 main_v29 (broadcastInDim S16x256 ![] bcast_S_S16x256 : (⟨S_, .f32⟩ : BufTy).Contents (Elt F) → (⟨S16x256, .f32⟩ : BufTy).Contents (Elt F)),
    binary main_v28 main_v29 main_v30 (Host.divf : (⟨S16x256, .f32⟩ : BufTy).Contents (Elt F) → (⟨S16x256, .f32⟩ : BufTy).Contents (Elt F) → (⟨S16x256, .f32⟩ : BufTy).Contents (Elt F)),
    unary main_arg3 main_v31 ((transpose S256x128 [1, 0] · transposes_S128x256_S256x128_1_0) : (⟨S128x256, .f32⟩ : BufTy).Contents (Elt F) → (⟨S256x128, .f32⟩ : BufTy).Contents (Elt F)),
    binary main_v30 main_v31 main_v32 ((fun l r => Host.dotGeneral dot_S16x256_S256x128_S16x128_1_0_0_1_n_n none l r) : (⟨S16x256, .f32⟩ : BufTy).Contents (Elt F) → (⟨S256x128, .f32⟩ : BufTy).Contents (Elt F) → (⟨S16x128, .f32⟩ : BufTy).Contents (Elt F)),
    unary main_arg4 main_v33 (broadcastInDim S1x128 ![1] bcast_S128_S1x128_1 : (⟨S128, .f32⟩ : BufTy).Contents (Elt F) → (⟨S1x128, .f32⟩ : BufTy).Contents (Elt F)),
    unary main_v33 main_v34 (broadcastInDim S16x128 ![0, 1] bcast_S1x128_S16x128_0_1 : (⟨S1x128, .f32⟩ : BufTy).Contents (Elt F) → (⟨S16x128, .f32⟩ : BufTy).Contents (Elt F)),
    binary main_v32 main_v34 main_v35 (addf : (⟨S16x128, .f32⟩ : BufTy).Contents (Elt F) → (⟨S16x128, .f32⟩ : BufTy).Contents (Elt F) → (⟨S16x128, .f32⟩ : BufTy).Contents (Elt F)),
    TRef.nullary main_call3.cst (constant S_ .f32 0x00000000#32),
    TRef.unary main_call3.cst main_call3.v0 (broadcastInDim S16x128 ![] bcast_S_S16x128),
    TRef.binary (.of main_v35 : TRef sig ⟨S16x128, .f32⟩) main_call3.v0 main_call3.v1 maximumf,
    unary main_arg5 main_v37 ((transpose S128x3 [1, 0] · transposes_S3x128_S128x3_1_0) : (⟨S3x128, .f32⟩ : BufTy).Contents (Elt F) → (⟨S128x3, .f32⟩ : BufTy).Contents (Elt F)),
    binary main_v36 main_v37 main_v38 ((fun l r => Host.dotGeneral dot_S16x128_S128x3_S16x3_1_0_0_1_n_n none l r) : (⟨S16x128, .f32⟩ : BufTy).Contents (Elt F) → (⟨S128x3, .f32⟩ : BufTy).Contents (Elt F) → (⟨S16x3, .f32⟩ : BufTy).Contents (Elt F)),
    unary main_arg6 main_v39 (broadcastInDim S1x3 ![1] bcast_S3_S1x3_1 : (⟨S3, .f32⟩ : BufTy).Contents (Elt F) → (⟨S1x3, .f32⟩ : BufTy).Contents (Elt F)),
    unary main_v39 main_v40 (broadcastInDim S16x3 ![0, 1] bcast_S1x3_S16x3_0_1 : (⟨S1x3, .f32⟩ : BufTy).Contents (Elt F) → (⟨S16x3, .f32⟩ : BufTy).Contents (Elt F)),
    binary main_v38 main_v40 main_v41 (addf : (⟨S16x3, .f32⟩ : BufTy).Contents (Elt F) → (⟨S16x3, .f32⟩ : BufTy).Contents (Elt F) → (⟨S16x3, .f32⟩ : BufTy).Contents (Elt F)),
    nullary main_cst_5 (constant S_ .f32 0xFF800000#32),
    binary main_v41 main_cst_5 main_v42 ((fun x v => Host.reduce FloatOps.maximumf x v reducesTo_S16x3_S16_d1 h_S_) : (⟨S16x3, .f32⟩ : BufTy).Contents (Elt F) → (⟨S_, .f32⟩ : BufTy).Contents (Elt F) → (⟨S16, .f32⟩ : BufTy).Contents (Elt F)),
    nullary main_cst_6 (constant S_ .f32 0xFF800000#32),
    unary main_cst_6 main_v43 (broadcastInDim S16 ![] bcast_S_S16 : (⟨S_, .f32⟩ : BufTy).Contents (Elt F) → (⟨S16, .f32⟩ : BufTy).Contents (Elt F)),
    binary main_v43 main_v42 main_v44 (maximumf : (⟨S16, .f32⟩ : BufTy).Contents (Elt F) → (⟨S16, .f32⟩ : BufTy).Contents (Elt F) → (⟨S16, .f32⟩ : BufTy).Contents (Elt F)),
    unary main_v44 main_v45 (broadcastInDim S16x1 ![0] bcast_S16_S16x1_0 : (⟨S16, .f32⟩ : BufTy).Contents (Elt F) → (⟨S16x1, .f32⟩ : BufTy).Contents (Elt F)),
    unary main_v45 main_v46 (broadcastInDim S16x3 ![0, 1] bcast_S16x1_S16x3_0_1 : (⟨S16x1, .f32⟩ : BufTy).Contents (Elt F) → (⟨S16x3, .f32⟩ : BufTy).Contents (Elt F)),
    binary main_v41 main_v46 main_v47 (subf : (⟨S16x3, .f32⟩ : BufTy).Contents (Elt F) → (⟨S16x3, .f32⟩ : BufTy).Contents (Elt F) → (⟨S16x3, .f32⟩ : BufTy).Contents (Elt F)),
    unary main_v47 main_v48 (Host.exp : (⟨S16x3, .f32⟩ : BufTy).Contents (Elt F) → (⟨S16x3, .f32⟩ : BufTy).Contents (Elt F)),
    nullary main_cst_7 (constant S_ .f32 0x00000000#32),
    binary main_v48 main_cst_7 main_v49 ((fun x v => Host.reduceAdd x v reducesTo_S16x3_S16_d1 h_S_) : (⟨S16x3, .f32⟩ : BufTy).Contents (Elt F) → (⟨S_, .f32⟩ : BufTy).Contents (Elt F) → (⟨S16, .f32⟩ : BufTy).Contents (Elt F)),
    unary main_v49 main_v50 (broadcastInDim S16x1 ![0] bcast_S16_S16x1_0 : (⟨S16, .f32⟩ : BufTy).Contents (Elt F) → (⟨S16x1, .f32⟩ : BufTy).Contents (Elt F)),
    unary main_v50 main_v51 (broadcastInDim S16x3 ![0, 1] bcast_S16x1_S16x3_0_1 : (⟨S16x1, .f32⟩ : BufTy).Contents (Elt F) → (⟨S16x3, .f32⟩ : BufTy).Contents (Elt F)),
    binary main_v48 main_v51 main_v52 (Host.divf : (⟨S16x3, .f32⟩ : BufTy).Contents (Elt F) → (⟨S16x3, .f32⟩ : BufTy).Contents (Elt F) → (⟨S16x3, .f32⟩ : BufTy).Contents (Elt F)),
    unary main_v52 main_v53 (broadcastInDim S16x1x1x3 ![0, 3] bcast_S16x3_S16x1x1x3_0_3 : (⟨S16x3, .f32⟩ : BufTy).Contents (Elt F) → (⟨S16x1x1x3, .f32⟩ : BufTy).Contents (Elt F)),
    unary main_arg7 main_v54 (broadcastInDim S1x1x1x3 ![3] bcast_S3_S1x1x1x3_3 : (⟨S3, .f32⟩ : BufTy).Contents (Elt F) → (⟨S1x1x1x3, .f32⟩ : BufTy).Contents (Elt F)),
    unary main_v54 main_v55 (broadcastInDim S16x1x1x3 ![0, 1, 2, 3] bcast_S1x1x1x3_S16x1x1x3_0_1_2_3 : (⟨S1x1x1x3, .f32⟩ : BufTy).Contents (Elt F) → (⟨S16x1x1x3, .f32⟩ : BufTy).Contents (Elt F)),
    binary main_v53 main_v55 main_v56 (mulf : (⟨S16x1x1x3, .f32⟩ : BufTy).Contents (Elt F) → (⟨S16x1x1x3, .f32⟩ : BufTy).Contents (Elt F) → (⟨S16x1x1x3, .f32⟩ : BufTy).Contents (Elt F)),
    unary main_v56 main_v57 (broadcastInDim S16x512x256x3 ![0, 1, 2, 3] bcast_S16x1x1x3_S16x512x256x3_0_1_2_3 : (⟨S16x1x1x3, .f32⟩ : BufTy).Contents (Elt F) → (⟨S16x512x256x3, .f32⟩ : BufTy).Contents (Elt F)),
    binary main_v27 main_v57 main_v58 (mulf : (⟨S16x512x256x3, .f32⟩ : BufTy).Contents (Elt F) → (⟨S16x512x256x3, .f32⟩ : BufTy).Contents (Elt F) → (⟨S16x512x256x3, .f32⟩ : BufTy).Contents (Elt F)),
    nullary main_cst_8 (constant S_ .f32 0x00000000#32),
    binary main_v58 main_cst_8 main_v59 ((fun x v => Host.reduceAdd x v reducesTo_S16x512x256x3_S16x512x256_d3 h_S_) : (⟨S16x512x256x3, .f32⟩ : BufTy).Contents (Elt F) → (⟨S_, .f32⟩ : BufTy).Contents (Elt F) → (⟨S16x512x256, .f32⟩ : BufTy).Contents (Elt F)) ]

-- a chain of 122 sequenced steps, re-associated one step at a time: the recursion is as deep as the chain
set_option maxRecDepth 8192 in
set_option maxHeartbeats 4000000 in
/-- `@main` is that line: its two windows and the callees' definitions unfolded, the records read at their
    fields, and sequencing re-associated, both sides are one chain of steps. -/
theorem main_eq (c : Dev nD) : main (F := F) c = seq ops := by
  simp only [main, main_part0, main_part1, fn_take.body, fn_where.body, fn_clip.body, fn_take_0.body, fn_where_1.body,
    fn_relu.body, seq, bind_assoc, pure_bind]

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., unary_bufs_sub .., unary_bufs_sub .., binary_bufs_sub .., nullary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., unary_bufs_sub .., unary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., unary_bufs_sub .., unary_bufs_sub .., nary_bufs_sub .., nullary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., binary_bufs_sub ..⟩

/-- From any memory with zero counters, every weakly fair execution of `@main` terminates, and every final
    state has each buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ### The arguments are kept

Each operation writes exactly one buffer, the one named as its result, and the nine argument buffers are
results of none: reading the fold at an argument, every operation's result passes it through. -/

set_option maxRecDepth 8192 in
set_option maxHeartbeats 4000000 in
/-- Argument 0 is written by no operation: the fold leaves it as it was. -/
theorem arg0_kept (V : Valuation τ sig (Elt F)) :
    after ops V (main_arg0 : DevRef τ sig) = V (main_arg0 : DevRef τ sig) := by
  after_results_simp

set_option maxRecDepth 8192 in
set_option maxHeartbeats 4000000 in
/-- Argument 1 is written by no operation: the fold leaves it as it was. -/
theorem arg1_kept (V : Valuation τ sig (Elt F)) :
    after ops V (main_arg1 : DevRef τ sig) = V (main_arg1 : DevRef τ sig) := by
  after_results_simp

set_option maxRecDepth 8192 in
set_option maxHeartbeats 4000000 in
/-- Argument 2 is written by no operation: the fold leaves it as it was. -/
theorem arg2_kept (V : Valuation τ sig (Elt F)) :
    after ops V (main_arg2 : DevRef τ sig) = V (main_arg2 : DevRef τ sig) := by
  after_results_simp

set_option maxRecDepth 8192 in
set_option maxHeartbeats 4000000 in
/-- Argument 3 is written by no operation: the fold leaves it as it was. -/
theorem arg3_kept (V : Valuation τ sig (Elt F)) :
    after ops V (main_arg3 : DevRef τ sig) = V (main_arg3 : DevRef τ sig) := by
  after_results_simp

set_option maxRecDepth 8192 in
set_option maxHeartbeats 4000000 in
/-- Argument 4 is written by no operation: the fold leaves it as it was. -/
theorem arg4_kept (V : Valuation τ sig (Elt F)) :
    after ops V (main_arg4 : DevRef τ sig) = V (main_arg4 : DevRef τ sig) := by
  after_results_simp

set_option maxRecDepth 8192 in
set_option maxHeartbeats 4000000 in
/-- Argument 5 is written by no operation: the fold leaves it as it was. -/
theorem arg5_kept (V : Valuation τ sig (Elt F)) :
    after ops V (main_arg5 : DevRef τ sig) = V (main_arg5 : DevRef τ sig) := by
  after_results_simp

set_option maxRecDepth 8192 in
set_option maxHeartbeats 4000000 in
/-- Argument 6 is written by no operation: the fold leaves it as it was. -/
theorem arg6_kept (V : Valuation τ sig (Elt F)) :
    after ops V (main_arg6 : DevRef τ sig) = V (main_arg6 : DevRef τ sig) := by
  after_results_simp

set_option maxRecDepth 8192 in
set_option maxHeartbeats 4000000 in
/-- Argument 7 is written by no operation: the fold leaves it as it was. -/
theorem arg7_kept (V : Valuation τ sig (Elt F)) :
    after ops V (main_arg7 : DevRef τ sig) = V (main_arg7 : DevRef τ sig) := by
  after_results_simp

set_option maxRecDepth 8192 in
set_option maxHeartbeats 4000000 in
/-- Argument 8 is written by no operation: the fold leaves it as it was. -/
theorem arg8_kept (V : Valuation τ sig (Elt F)) :
    after ops V (main_arg8 : DevRef τ sig) = V (main_arg8 : DevRef τ sig) := by
  after_results_simp

end Cert.ReferenceIdeal.Run

end
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.RefProb.lean ====
/-
  The reference's strategy weights, read entry by entry.

  The reference computes, for each sequence b, the mean of x[b] over its 512 positions (a sum divided by 512), a hidden
  layer relu (mean · W1ᵀ + b1), three logits hid · W2ᵀ + b2, and their softmax: the exponentials of the logits shifted
  by the greatest one, divided by their sum. Entry (b, k) of the result is the specification's prob of row b at k.
-/
import proofs.«144965_g11562051961505_week1_w4_918_31_alg».proof.Proof.Gen.ReferenceIdeal
import proofs.«144965_g11562051961505_week1_w4_918_31_alg».proof.Proof.Spec
import proofs.«144965_g11562051961505_week1_w4_918_31_alg».proof.Proof.LibIdealReal
import proofs.«144965_g11562051961505_week1_w4_918_31_alg».proof.Proof.LibIndexWords
import Idealize.ShloMosaic.Lib.ValueIdx
import Idealize.ShloMosaic.Lib.ValueLayout
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.RefProb

open Cert.ReferenceIdeal Cert.ReferenceIdeal.Gen Idealize.ShloMosaic Idealize.ShloMosaic.TcCoe Idealize.ShloMosaic.ValueIdx

variable {F : FTy → Type} [FloatOps F]

/-- The mean over positions: the sum over axis 1 divided by 512. -/
def meanVec (x : FVec F S16x512x256 .f32) : FVec F S16x256 .f32 :=
  Host.divf (Host.reduceAdd x (constant S_ .f32 0x00000000#32) reducesTo_S16x512x256_S16x256_d1 h_S_)
    (broadcastInDim S16x256 ![] bcast_S_S16x256 (constant S_ .f32 0x44000000#32))

/-- The hidden layer: relu (mean · W1ᵀ + b1). -/
def hidVec (x : FVec F S16x512x256 .f32) (W1 : FVec F S128x256 .f32) (b1 : FVec F S128 .f32) : FVec F S16x128 .f32 :=
  maximumf
    (addf (Host.dotGeneral dot_S16x256_S256x128_S16x128_1_0_0_1_n_n none (meanVec x)
        (transpose S256x128 [1, 0] W1 transposes_S128x256_S256x128_1_0))
      (broadcastInDim S16x128 ![0, 1] bcast_S1x128_S16x128_0_1 (broadcastInDim S1x128 ![1] bcast_S128_S1x128_1 b1)))
    (broadcastInDim S16x128 ![] bcast_S_S16x128 (constant S_ .f32 0x00000000#32))

/-- The logits: hid · W2ᵀ + b2. -/
def logitVec (x : FVec F S16x512x256 .f32) (W1 : FVec F S128x256 .f32) (b1 : FVec F S128 .f32) (W2 : FVec F S3x128 .f32)
    (b2 : FVec F S3 .f32) : FVec F S16x3 .f32 :=
  addf (Host.dotGeneral dot_S16x128_S128x3_S16x3_1_0_0_1_n_n none (hidVec x W1 b1)
      (transpose S128x3 [1, 0] W2 transposes_S3x128_S128x3_1_0))
    (broadcastInDim S16x3 ![0, 1] bcast_S1x3_S16x3_0_1 (broadcastInDim S1x3 ![1] bcast_S3_S1x3_1 b2))

/-- The exponentials of the logits shifted by each row's greatest. -/
def expVec (x : FVec F S16x512x256 .f32) (W1 : FVec F S128x256 .f32) (b1 : FVec F S128 .f32) (W2 : FVec F S3x128 .f32)
    (b2 : FVec F S3 .f32) : FVec F S16x3 .f32 :=
  Host.exp (subf (logitVec x W1 b1 W2 b2)
    (broadcastInDim S16x3 ![0, 1] bcast_S16x1_S16x3_0_1 (broadcastInDim S16x1 ![0] bcast_S16_S16x1_0
      (maximumf (broadcastInDim S16 ![] bcast_S_S16 (constant S_ .f32 0xFF800000#32))
        (Host.reduce FloatOps.maximumf (logitVec x W1 b1 W2 b2) (constant S_ .f32 0xFF800000#32) reducesTo_S16x3_S16_d1 h_S_)))))

/-- The softmax weights. -/
def probVec (x : FVec F S16x512x256 .f32) (W1 : FVec F S128x256 .f32) (b1 : FVec F S128 .f32) (W2 : FVec F S3x128 .f32)
    (b2 : FVec F S3 .f32) : FVec F S16x3 .f32 :=
  Host.divf (expVec x W1 b1 W2 b2)
    (broadcastInDim S16x3 ![0, 1] bcast_S16x1_S16x3_0_1 (broadcastInDim S16x1 ![0] bcast_S16_S16x1_0
      (Host.reduceAdd (expVec x W1 b1 W2 b2) (constant S_ .f32 0x00000000#32) reducesTo_S16x3_S16_d1 h_S_)))

/-! ## The stages read at an entry -/

/-- The word 0x44000000 denotes the real 512. -/
theorem ofBits_512_f32 : Ideal.ofBits .f32 0x44000000#32 = ((512 : ℝ) : EReal) := by
  simp [Ideal.ofBits, Ideal.ieee, -EReal.coe_mul]; norm_num

/-- The index (b, d) of a [16, 256] array with position s put back on axis 1 is (b, s, d). -/
theorem lift_pos (h : S16x512x256.Reduces [1] S16x256) (b : Fin 16) (d : Fin 256) (s : Fin (S16x512x256.size 1)) :
    h.lift (ix2 b d) s = ix3 b (⟨s.val, s.isLt⟩ : Fin 512) d := by
  funext c; apply Fin.ext
  fin_cases c <;> rfl

/-- Entry (b, d) of the mean over positions is the specification's mean of sequence b at feature d. -/
theorem meanVec_apply (x : FVec Ideal S16x512x256 .f32) (b : Fin 16) (d : Fin 256) :
    meanVec x (ix2 b d) = Cert.Spec.mean (Cert.Spec.a3 x b) d := by
  have h : S16x512x256.Reduces [1] S16x256 := by decide
  show Ideal.div (Ideal.hostReduceAdd reducesTo_S16x512x256_S16x256_d1 x
      (constant (F := Ideal) S_ .f32 0x00000000#32 (Shape.Idx.first h_S_)) (ix2 b d))
    (broadcastInDim S16x256 ![] bcast_S_S16x256 (constant (F := Ideal) S_ .f32 0x44000000#32) (ix2 b d)) = _
  rw [Ideal.hostReduceAdd_single reducesTo_S16x512x256_S16x256_d1 h, broadcastInDim_scalar_apply, constant_apply, constant_apply,
    Ideal.ofBits_zero_f32, zero_add, ofBits_512_f32, Ideal.div_coe (by norm_num)]
  unfold Cert.Spec.mean Cert.Spec.invS
  refine congrArg (· * _) (Finset.sum_congr rfl fun s _ => ?_)
  rw [lift_pos h b d s]
  rfl

/-- The first contraction is the plain product of a [16, 256] by a [256, 128] matrix. -/
theorem dot1_eq : dot_S16x256_S256x128_S16x128_1_0_0_1_n_n = DotDims.plain 16 256 128 := rfl

/-- The second contraction is the plain product of a [16, 128] by a [128, 3] matrix. -/
theorem dot2_eq : dot_S16x128_S128x3_S16x3_1_0_0_1_n_n = DotDims.plain 16 128 3 := rfl

/-- A vector laid as one row and the row repeated down the rows reads, at (r, c), the vector at c. -/
theorem bias_apply {α : Type} {m n : ℕ} (hn : n ≠ 1) (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (c : Fin n) :
    broadcastInDim ⟨2, ![m, n]⟩ ![0, 1] h2 (broadcastInDim ⟨2, ![1, n]⟩ ![1] h1 v) (ix2 r c) = v (ix1 c) := by
  rw [broadcastInDim_apply ![0, 1] h2 _ (ix2 r c) (ix2 (0 : Fin 1) c) (by
    intro a
    match a with
    | ⟨0, _⟩ => rfl
    | ⟨1, _⟩ => exact (if_neg hn).symm)]
  exact broadcastInDim_apply ![1] h1 v (ix2 (0 : Fin 1) c) (ix1 c) (by
    intro a
    match a with
    | ⟨0, _⟩ => exact (if_neg hn).symm)

/-- Entry (b, j) of the hidden layer is the specification's hidden unit j of sequence b. -/
theorem hidVec_apply (x : FVec Ideal S16x512x256 .f32) (W1 : FVec Ideal S128x256 .f32) (b1 : FVec Ideal S128 .f32)
    (b : Fin 16) (j : Fin 128) :
    hidVec x W1 b1 (ix2 b j) = Cert.Spec.hid (Cert.Spec.a3 x b) (Cert.Spec.a2 W1) (Cert.Spec.a1 b1) j := by
  unfold hidVec
  rw [maximumf_apply, addf_apply, dot1_eq, StackMember.dotGeneral_plain_apply, bias_apply (by norm_num),
    broadcastInDim_scalar_apply, constant_apply, Ideal.ofBits_zero_f32]
  unfold Cert.Spec.hid
  refine congrArg (fun t => max (t + _) 0) (Finset.sum_congr rfl fun d _ => ?_)
  rw [meanVec_apply, transpose_ix2_apply]

/-- Entry (b, k) of the logits is the specification's logit k of sequence b. -/
theorem logitVec_apply (x : FVec Ideal S16x512x256 .f32) (W1 : FVec Ideal S128x256 .f32) (b1 : FVec Ideal S128 .f32)
    (W2 : FVec Ideal S3x128 .f32) (b2 : FVec Ideal S3 .f32) (b : Fin 16) (k : Fin 3) :
    logitVec x W1 b1 W2 b2 (ix2 b k)
      = Cert.Spec.logit (Cert.Spec.a3 x b) (Cert.Spec.a2 W1) (Cert.Spec.a1 b1) (Cert.Spec.a2 W2) (Cert.Spec.a1 b2) k := by
  unfold logitVec
  rw [addf_apply, dot2_eq, StackMember.dotGeneral_plain_apply, bias_apply (by norm_num)]
  unfold Cert.Spec.logit
  refine congrArg (fun t => t + _) (Finset.sum_congr rfl fun j _ => ?_)
  rw [hidVec_apply, transpose_ix2_apply]

/-- The index b of a 16-vector with strategy k put back on axis 1 is (b, k). -/
theorem lift_strategy (h : S16x3.Reduces [1] S16) (b : Fin 16) (k : Fin (S16x3.size 1)) :
    h.lift (ix1 b) k = ix2 b (⟨k.val, k.isLt⟩ : Fin 3) := by
  funext c; apply Fin.ext
  fin_cases c <;> rfl

/-- A vector laid as one column and the column repeated along the rows reads, at (r, c), the vector at r. -/
theorem column_apply {α : Type} {m n : ℕ} (hm : m ≠ 1) (h1 : (⟨1, ![m]⟩ : Shape).BroadcastsInDim ⟨2, ![m, 1]⟩ ![0])
    (h2 : (⟨2, ![m, 1]⟩ : Shape).BroadcastsInDim ⟨2, ![m, n]⟩ ![0, 1]) (v : (⟨1, ![m]⟩ : Shape).Idx → α) (r : Fin m) (c : Fin n) :
    broadcastInDim ⟨2, ![m, n]⟩ ![0, 1] h2 (broadcastInDim ⟨2, ![m, 1]⟩ ![0] h1 v) (ix2 r c) = v (ix1 r) := by
  rw [broadcastInDim_apply ![0, 1] h2 _ (ix2 r c) (ix2 r (0 : Fin 1)) (by
    intro a
    match a with
    | ⟨0, _⟩ => exact (if_neg hm).symm
    | ⟨1, _⟩ => rfl)]
  exact Cert.LibIndexWords.broadcastInDim_col_apply h1 v r 0

/-- The greatest logit of row b: the reduction by the maximum from -∞, then the maximum against -∞. -/
theorem rowMax_apply (x : FVec Ideal S16x512x256 .f32) (W1 : FVec Ideal S128x256 .f32) (b1 : FVec Ideal S128 .f32)
    (W2 : FVec Ideal S3x128 .f32) (b2 : FVec Ideal S3 .f32) (b : Fin 16) :
    maximumf (broadcastInDim S16 ![] bcast_S_S16 (constant (F := Ideal) S_ .f32 0xFF800000#32))
        (Host.reduce FloatOps.maximumf (logitVec x W1 b1 W2 b2) (constant (F := Ideal) S_ .f32 0xFF800000#32)
          reducesTo_S16x3_S16_d1 h_S_) (ix1 b)
      = Cert.Spec.lmax (Cert.Spec.a3 x b) (Cert.Spec.a2 W1) (Cert.Spec.a1 b1) (Cert.Spec.a2 W2) (Cert.Spec.a1 b2) := by
  have h : S16x3.Reduces [1] S16 := by decide
  rw [maximumf_apply, broadcastInDim_scalar_apply, constant_apply, Cert.LibIdealReal.ofBits_neg_inf_f32, max_bot_left,
    Host.reduce_eq_fold_single FloatOps.maximumf _ _ reducesTo_S16x3_S16_d1 h h_S_, constant_apply,
    Cert.LibIdealReal.ofBits_neg_inf_f32, Cert.LibIdealReal.fold_maximumf_eq_fold_max]
  unfold Cert.Spec.lmax
  refine Finset.fold_congr fun k _ => ?_
  show logitVec x W1 b1 W2 b2 (h.lift (ix1 b) k) = _
  rw [lift_strategy h b k, logitVec_apply]
  rfl

/-- Entry (b, k) of the shifted exponentials is the specification's. -/
theorem expVec_apply (x : FVec Ideal S16x512x256 .f32) (W1 : FVec Ideal S128x256 .f32) (b1 : FVec Ideal S128 .f32)
    (W2 : FVec Ideal S3x128 .f32) (b2 : FVec Ideal S3 .f32) (b : Fin 16) (k : Fin 3) :
    expVec x W1 b1 W2 b2 (ix2 b k)
      = Cert.Spec.ex (Cert.Spec.a3 x b) (Cert.Spec.a2 W1) (Cert.Spec.a1 b1) (Cert.Spec.a2 W2) (Cert.Spec.a1 b2) k := by
  show Ideal.exp (subf (logitVec x W1 b1 W2 b2) _ (ix2 b k)) = _
  rw [subf_apply, column_apply (by norm_num), rowMax_apply, logitVec_apply]
  rfl

/-- Entry (b, k) of the reference's softmax weights is the specification's weight of sequence b for strategy k. -/
theorem probVec_apply (x : FVec Ideal S16x512x256 .f32) (W1 : FVec Ideal S128x256 .f32) (b1 : FVec Ideal S128 .f32)
    (W2 : FVec Ideal S3x128 .f32) (b2 : FVec Ideal S3 .f32) (b : Fin 16) (k : Fin 3) :
    probVec x W1 b1 W2 b2 (ix2 b k)
      = Cert.Spec.prob (Cert.Spec.a3 x b) (Cert.Spec.a2 W1) (Cert.Spec.a1 b1) (Cert.Spec.a2 W2) (Cert.Spec.a1 b2) k := by
  have h : S16x3.Reduces [1] S16 := by decide
  unfold probVec
  rw [hostDivf_apply, column_apply (by norm_num), hostReduceAdd_apply, Ideal.hostReduceAdd_single reducesTo_S16x3_S16_d1 h,
    constant_apply, Ideal.ofBits_zero_f32, zero_add, expVec_apply]
  unfold Cert.Spec.prob
  refine congrArg (Ideal.div _) (Finset.sum_congr rfl fun k' _ => ?_)
  rw [lift_strategy h b k', expVec_apply]
  rfl

end Cert.ReferenceIdeal.RefProb

end
-- ==== Proof.LibTakeMask.lean ====
/-
  A row gather guarded by a validity mask ("take, filling what is out of range").

  Such a take wraps negative indices (a word that is negative as a signed number has the axis's extent added), tests
  the wrapped word against the bounds 0 and extent − 1, gathers, and keeps the gathered row only where the test passed,
  putting a fill value elsewhere. When every index word is a row number already, the wrap is the identity, every test
  passes, and the take is the plain gather. The lemmas here are the pieces of that argument: words in range compare
  as expected, an "and"-reduction of all-ones is one, and a selection under an all-ones mask is its first branch.
-/
import Idealize.ShloMosaic.Lib.ReduceAll
import Idealize.ShloMosaic.Lib.StableHlo.Predicate
import Idealize.ShloMosaic.Lib.Pipeline.Value
import Idealize.ShloMosaic.Lib.ValueIdx

noncomputable section

namespace Cert.TakeMask

open Idealize.ShloMosaic Idealize.ShloMosaic.ValueIdx

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) fun n hn => hl n (List.mem_cons_of_mem _ hn)

/-- An "and"-reduction whose operand is all ones, started from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun n _ => hx n

/-- A selection under a mask that is one everywhere is its first branch. -/
theorem select_of_all {s : Shape} {α : Type} (c : IVec s 1) (a b : s.Idx → α) (hc : ∀ i, c i = 1#1) : select c a b = a := by
  funext i
  show Scalar.select (c i) (a i) (b i) = a i
  rw [hc i]; rfl

/-- A word that is, signed, at least 0 and below a bound `N` is the number it spells, below `N`. -/
theorem toNat_lt_of_cmp (N : ℕ) (hN : N < 2 ^ 31) (w : BitVec 32) (h0 : IntOp.cmpi .sge w 0#32 = 1#1)
    (h1 : IntOp.cmpi .slt w (BitVec.ofNat 32 N) = 1#1) : w.toNat < N := by
  have e0 : BitVec.ofBool ((0#32).sle w) = 1#1 := h0
  have e0' : (0#32).sle w = true := (StableHlo.Predicate.ofBool_eq_one_iff _).1 e0
  have hw : w.toNat < 2 ^ 31 := by
    have e : (0#32).toInt ≤ w.toInt := by simpa [BitVec.sle] using e0'
    have z : (0#32).toInt = 0 := rfl
    rw [z, BitVec.toInt_eq_msb_cond] at e
    cases hm : w.msb with
    | false => have := BitVec.msb_eq_false_iff_two_mul_lt.mp hm; omega
    | true => rw [hm] at e; simp at e; have := w.isLt; omega
  have hN' : N % 2 ^ 32 = N := Nat.mod_eq_of_lt (by omega)
  have hb : (BitVec.ofNat 32 N).toNat < 2 ^ 31 := by rw [BitVec.toNat_ofNat, hN']; exact hN
  have := (StableHlo.Predicate.slt_iff_toNat hw hb).1 h1
  rw [BitVec.toNat_ofNat, hN'] at this
  exact this

/-- A word below `N` passes the take's two tests: signed, it is at least 0 and at most `N − 1`. -/
theorem cmp_of_toNat_lt (N : ℕ) (hN : N < 2 ^ 31) (w : BitVec 32) (h : w.toNat < N) :
    IntOp.cmpi .sge w 0#32 = 1#1 ∧ IntOp.cmpi .sle w (BitVec.ofNat 32 (N - 1)) = 1#1 := by
  have hw : w.toNat < 2 ^ 31 := by omega
  have hN' : (N - 1) % 2 ^ 32 = N - 1 := Nat.mod_eq_of_lt (by omega)
  have hb : (BitVec.ofNat 32 (N - 1)).toNat < 2 ^ 31 := by rw [BitVec.toNat_ofNat, hN']; omega
  refine ⟨(StableHlo.Predicate.sge_iff_toNat hw (by decide)).2 (Nat.zero_le _), (StableHlo.Predicate.sle_iff_toNat hw hb).2 ?_⟩
  rw [BitVec.toNat_ofNat, hN']; omega

/-- On a word that is not negative the wrap of negative indices does nothing, whatever would have been added. -/
theorem wrap_of_nonneg (w K : BitVec 32) (h : w.toNat < 2 ^ 31) :
    Scalar.select (IntOp.cmpi .slt w 0#32) (IntOp.addi w K) w = w := by
  have hlt : ¬ IntOp.cmpi .slt w 0#32 = 1#1 := fun hc => by
    have := (StableHlo.Predicate.slt_iff_toNat h (by decide)).1 hc
    simp at this
  exact if_neg hlt

/-- Entry `p` of the vector of the first `n` numbers is the word of `p`. -/
theorem iota_toNat {n : ℕ} (hn : n ≤ 2 ^ 32) (p : Fin n) : (iotaInDim (⟨1, ![n]⟩ : Shape) 32 0 (ix1 p)).toNat = p.val := by
  show (BitVec.ofNat 32 p.val).toNat = p.val
  rw [BitVec.toNat_ofNat]; exact Nat.mod_eq_of_lt (by have := p.isLt; omega)

/-- A vector of index words followed by the numbers 0, 1, …, n₂ − 1 (a list of edges' endpoints followed by every
    node's own number): if every word of the first part spells a number below `N` and `n₂ ≤ N`, so does every entry. -/
theorem concat_iota_toNat_lt {n₁ n₂ n : ℕ} (x : IVec ⟨1, ![n₁]⟩ 32) (N : ℕ) (hN : n₂ ≤ N) (hn₂ : n₂ ≤ 2 ^ 32)
    (hx : ∀ i, (x i).toNat < N) (h : Shape.Concatenates [(⟨1, ![n₁]⟩ : Shape), ⟨1, ![n₂]⟩] ⟨1, ![n]⟩ 0)
    (j : (⟨1, ![n]⟩ : Shape).Idx) :
    (concatenate ⟨1, ![n]⟩ 0 [⟨⟨1, ![n₁]⟩, x⟩, ⟨⟨1, ![n₂]⟩, iotaInDim (⟨1, ![n₂]⟩ : Shape) 32 0⟩] h j).toNat < N := by
  have hsum : n₁ + n₂ = n := by
    have e := h.2.2
    simpa using e
  by_cases hj : (j 0).val < n₁
  · rw [concatenate_pair_apply_left (0 : Fin 1) x (iotaInDim (⟨1, ![n₂]⟩ : Shape) 32 0) h j rfl (ix1 (⟨(j 0).val, hj⟩ : Fin n₁)) (fun b => by
      have hb : b = 0 := Subsingleton.elim _ _
      subst hb; rfl)]
    exact hx _
  · have hq : (j 0).val - n₁ < n₂ := by have := (j 0).isLt; simp at this; omega
    rw [concatenate_pair_apply_right (0 : Fin 1) x (iotaInDim (⟨1, ![n₂]⟩ : Shape) 32 0) h j rfl rfl (ix1 (⟨(j 0).val - n₁, hq⟩ : Fin n₂))
      (fun b hb => absurd (Subsingleton.elim _ _) hb) (by
        show (j 0).val - n₁ + n₁ = (j 0).val
        omega)]
    rw [iota_toNat hn₂]
    show (j 0).val - n₁ < N
    omega

end Cert.TakeMask

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.RefTables.lean ====
/-
  The reference's two gathered tables, read entry by entry.

  The learned table is taken at the positions 0 … 511 (a row gather guarded by a validity mask that is true everywhere
  here: every index is a row number below 4096). The relative table is taken at the 512 x 512 matrix of clamped offsets
  clip (j - s, -409, 409) + 409 (again every index is a row number, below 819), summed over j and divided by 512.
-/
import proofs.«144965_g11562051961505_week1_w4_918_31_alg».proof.Proof.Gen.ReferenceIdeal
import proofs.«144965_g11562051961505_week1_w4_918_31_alg».proof.Proof.Spec
import Idealize.ShloMosaic.Lib.ValueIdx
import Idealize.ShloMosaic.Lib.Pipeline.Value
import Idealize.ShloMosaic.PureOps.Ideal.Laws
import proofs.«144965_g11562051961505_week1_w4_918_31_alg».proof.Proof.LibTakeMask
import proofs.«144965_g11562051961505_week1_w4_918_31_alg».proof.Proof.LibGatherRows
import proofs.«144965_g11562051961505_week1_w4_918_31_alg».proof.Proof.LibIndexWords
import Idealize.ShloMosaic.Lib.StableHlo.Predicate

noncomputable section

namespace Cert.ReferenceIdeal.RefTables

open Cert.ReferenceIdeal Cert.ReferenceIdeal.Gen Idealize.ShloMosaic Idealize.ShloMosaic.TcCoe Idealize.ShloMosaic.ValueIdx

variable {F : FTy → Type} [FloatOps F]

/-- The positions 0 … 511. -/
def iota512 : IVec S512 32 := iotaInDim S512 32 0

/-- The positions as a column of start indices, negative ones wrapped (none is). -/
def posIdx : IVec S512x1 32 :=
  broadcastInDim S512x1 ![0] bcast_S512_S512x1_0
    (select (cmpi .slt iota512 (broadcastInDim S512 ![] bcast_S_S512 (constantI S_ 32 0#32)))
      (addi iota512 (broadcastInDim S512 ![] bcast_S_S512 (constantI S_ 32 4096#32))) iota512)

/-- Which positions are rows of the 4096-row table (all). -/
def posMask : IVec S512 1 :=
  Host.reduce IntOp.andi
    (andi (cmpi .sge posIdx (broadcastInDim S512x1 ![] bcast_S_S512x1 (constantI S_ 32 0#32)))
      (cmpi .sle posIdx (broadcastInDim S512x1 ![0, 1] bcast_S1x1_S512x1_0_1
        (broadcastInDim S1x1 ![1] bcast_S1_S1x1_1 (constantI S1 32 4095#32)))))
    (constantI S_ 1 1#1) reducesTo_S512x1_S512_d1 h_S_

/-- The first 512 rows of a 4096-row table, taken by a guarded gather. -/
def posRows (pos : FVec F S4096x256 .f32) : FVec F S512x256 .f32 :=
  select (broadcastInDim S512x256 ![0] bcast_S512_S512x256_0 posMask)
    (Host.gather gather_S4096x256_S512x1_S512x256_1_0_n_n_0_1_1256 pos posIdx)
    (broadcastInDim S512x256 ![] bcast_S_S512x256 (constant S_ .f32 0x7FC00000#32))

/-- The offsets j - s. -/
def offVec : IVec S512x512 32 :=
  subi (broadcastInDim S512x512 ![0, 1] bcast_S1x512_S512x512_0_1 (broadcastInDim S1x512 ![1] bcast_S512_S1x512_1 iota512))
    (broadcastInDim S512x512 ![0, 1] bcast_S512x1_S512x512_0_1 (broadcastInDim S512x1 ![0] bcast_S512_S512x1_0 iota512))

/-- The clamped offsets shifted into row numbers: clip (j - s, -409, 409) + 409. -/
def relIdxVec : IVec S512x512 32 :=
  addi (minsi (broadcastInDim S512x512 ![] bcast_S_S512x512 (id (constantI S_ 32 409#32)))
      (maxsi (broadcastInDim S512x512 ![] bcast_S_S512x512 (id (constantI S_ 32 4294966887#32))) offVec))
    (broadcastInDim S512x512 ![] bcast_S_S512x512 (constantI S_ 32 409#32))

/-- The row numbers as start indices, negative ones wrapped (none is). -/
def relIdx3 : IVec S512x512x1 32 :=
  broadcastInDim S512x512x1 ![0, 1] bcast_S512x512_S512x512x1_0_1
    (select (cmpi .slt relIdxVec (broadcastInDim S512x512 ![] bcast_S_S512x512 (constantI S_ 32 0#32)))
      (addi relIdxVec (broadcastInDim S512x512 ![] bcast_S_S512x512 (constantI S_ 32 819#32))) relIdxVec)

/-- Which row numbers are rows of the 819-row table (all). -/
def relMask : IVec S512x512 1 :=
  Host.reduce IntOp.andi
    (andi (cmpi .sge relIdx3 (broadcastInDim S512x512x1 ![] bcast_S_S512x512x1 (constantI S_ 32 0#32)))
      (cmpi .sle relIdx3 (broadcastInDim S512x512x1 ![0, 1, 2] bcast_S1x1x1_S512x512x1_0_1_2
        (broadcastInDim S1x1x1 ![2] bcast_S1_S1x1x1_2 (constantI S1 32 818#32)))))
    (constantI S_ 1 1#1) reducesTo_S512x512x1_S512x512_d2 h_S_

/-- The relative rows of every pair (s, j), taken by a guarded gather. -/
def relRows (rel : FVec F S819x256 .f32) : FVec F S512x512x256 .f32 :=
  select (broadcastInDim S512x512x256 ![0, 1] bcast_S512x512_S512x512x256_0_1 relMask)
    (Host.gather gather_S819x256_S512x512x1_S512x512x256_2_0_n_n_0_2_1256 rel relIdx3)
    (broadcastInDim S512x512x256 ![] bcast_S_S512x512x256 (constant S_ .f32 0x7FC00000#32))

/-- The mean over j of the relative rows. -/
def relTab (rel : FVec F S819x256 .f32) : FVec F S512x256 .f32 :=
  Host.divf (Host.reduceAdd (relRows rel) (constant S_ .f32 0x00000000#32) reducesTo_S512x512x256_S512x256_d1 h_S_)
    (broadcastInDim S512x256 ![] bcast_S_S512x256 (constant S_ .f32 0x44000000#32))

/-! ## The learned table's rows -/

/-- Entry p of the positions is the word of p. -/
theorem iota512_apply (p : Fin 512) : iota512 (ix1 p) = BitVec.ofNat 32 p.val := rfl

/-- … and that word spells p. -/
theorem iota512_toNat (p : Fin 512) : (iota512 (ix1 p)).toNat = p.val :=
  Cert.TakeMask.iota_toNat (by norm_num) p

/-- Row p of the column of start indices holds the word of p: no position is negative, so the wrap does nothing. -/
theorem posIdx_apply (p : Fin 512) (q : Fin 1) : posIdx (ix2 p q) = iota512 (ix1 p) := by
  unfold posIdx
  rw [Cert.LibIndexWords.broadcastInDim_col_apply]
  exact Cert.LibIndexWords.wrapIndex_apply bcast_S_S512 4096#32 iota512 (ix1 p) (by rw [iota512_toNat]; have := p.isLt; omega)

/-- … a word that spells p. -/
theorem posIdx_toNat (p : Fin 512) (q : Fin 1) : (posIdx (ix2 p q)).toNat = p.val := by
  rw [posIdx_apply, iota512_toNat]

/-- Every position is a row of the 4096-row table. -/
theorem posMask_apply (j : S512.Idx) : posMask j = 1#1 := by
  unfold posMask
  refine Cert.TakeMask.reduce_andi_of_all _ _ reducesTo_S512x1_S512_d1 h_S_ rfl ?_ j
  intro i
  rw [eq_ix2 i]
  have hlt : (posIdx (ix2 (i 0) (i 1))).toNat < 4096 :=
    lt_of_eq_of_lt (posIdx_toNat (i 0) (i 1)) (lt_trans (idx2_lt0 i) (by norm_num))
  obtain ⟨h0, h1⟩ := Cert.TakeMask.cmp_of_toNat_lt 4096 (by norm_num) _ hlt
  exact IntOp.andi_eq_one.2 ⟨h0, h1⟩

/-- The mask laid along the rows of the [512, 256] result is one everywhere. -/
theorem posMaskB_apply (i : S512x256.Idx) : broadcastInDim S512x256 ![0] bcast_S512_S512x256_0 posMask i = 1#1 := by
  unfold broadcastInDim
  exact posMask_apply _

/-- Entry (s, d) of the taken learned rows is the table's row s. -/
theorem posRows_apply (pos : FVec Ideal S4096x256 .f32) (s : Fin 512) (d : Fin 256) :
    posRows pos (ix2 s d) = pos (ix2 (Cert.Spec.row4096 s) d) := by
  have hrow : (⟨min (posIdx (ix2 s ⟨0, Nat.one_pos⟩)).toInt.toNat (4096 - 1), by omega⟩ : Fin 4096) = Cert.Spec.row4096 s := by
    refine Fin.ext ?_
    show min (posIdx (ix2 s ⟨0, Nat.one_pos⟩)).toInt.toNat (4096 - 1) = s.val
    have hn := posIdx_toNat s ⟨0, Nat.one_pos⟩
    have hs := s.isLt
    have hi : (posIdx (ix2 s ⟨0, Nat.one_pos⟩)).toInt = (s.val : Int) := by
      rw [BitVec.toInt_eq_toNat_of_lt (by rw [hn]; omega), hn]
    rw [hi]
    omega
  have hg := Idealize.ShloMosaic.GatherRows.gather_rows_apply (N := 4096) (C := 256) (n := 512) (by norm_num)
    gather_S4096x256_S512x1_S512x256_1_0_n_n_0_1_1256_wf pos posIdx s d
  rw [hrow] at hg
  unfold posRows
  rw [select_apply, posMaskB_apply, select_one]
  exact hg

/-! ## The relative table's rows -/

open Idealize.ShloMosaic.StableHlo.Predicate in
/-- A word whose signed value z lies within (-512, 512), clamped into [-409, 409] and shifted by 409, spells the
    number clamp z + 409. -/
theorem clampWord_toNat (o : BitVec 32) (z : Int) (ho : o.toInt = z) (hz : -512 < z ∧ z < 512) :
    (IntOp.addi (IntOp.minsi 409#32 (IntOp.maxsi 4294966887#32 o)) 409#32).toNat = (max (-409) (min 409 z) + 409).toNat := by
  have hc : (4294966887#32 : BitVec 32).toInt = -409 := by decide
  have hp : (409#32 : BitVec 32).toInt = 409 := by decide
  by_cases h1 : z < -409
  · have e1 : IntOp.maxsi 4294966887#32 o = 4294966887#32 := by
      unfold IntOp.maxsi; rw [BitVec.slt_eq_decide, ho, hc, if_pos (decide_eq_true h1)]
    have e2 : IntOp.addi (IntOp.minsi 409#32 4294966887#32) 409#32 = 0#32 := by decide
    rw [e1, e2]
    show (0 : ℕ) = _
    omega
  · have e1 : IntOp.maxsi 4294966887#32 o = o := by
      unfold IntOp.maxsi; rw [BitVec.slt_eq_decide, ho, hc, if_neg (by simpa using h1)]
    rw [e1]
    by_cases h2 : 409 < z
    · have e2 : IntOp.minsi 409#32 o = 409#32 := by
        unfold IntOp.minsi; rw [BitVec.slt_eq_decide, ho, hp, if_pos (decide_eq_true h2)]
      have e3 : IntOp.addi 409#32 409#32 = 818#32 := by decide
      rw [e2, e3]
      show (818 : ℕ) = _
      omega
    · have e2 : IntOp.minsi 409#32 o = o := by
        unfold IntOp.minsi; rw [BitVec.slt_eq_decide, ho, hp, if_neg (by simpa using h2)]
      rw [e2]
      unfold IntOp.addi
      rw [BitVec.toNat_add]
      have hcond := BitVec.toInt_eq_toNat_cond o
      rw [ho] at hcond
      have hlt := o.isLt
      show (o.toNat + 409) % 2 ^ 32 = _
      split at hcond <;> omega

open Idealize.ShloMosaic.StableHlo.Predicate in
/-- The difference of the words of two positions below 512 is, signed, the difference of the positions. -/
theorem subWord_toInt (s j : ℕ) (hs : s < 512) (hj : j < 512) :
    (IntOp.subi (BitVec.ofNat 32 j) (BitVec.ofNat 32 s)).toInt = (j : Int) - s := by
  unfold IntOp.subi
  rw [BitVec.toInt_sub, toInt_ofNat_small _ (by omega), toInt_ofNat_small _ (by omega)]
  exact Int.bmod_eq_of_le (by norm_num; omega) (by norm_num; omega)

/-- Entry (s, j) of the offsets is the word of j minus the word of s. -/
theorem offVec_apply (s j : Fin 512) : offVec (ix2 s j) = IntOp.subi (BitVec.ofNat 32 j.val) (BitVec.ofNat 32 s.val) := rfl

/-- Entry (s, j) of the row numbers: the offset clamped below by -409 (the word 4294966887), above by 409, plus 409. -/
theorem relIdxVec_apply (s j : Fin 512) :
    relIdxVec (ix2 s j) = IntOp.addi (IntOp.minsi 409#32 (IntOp.maxsi 4294966887#32 (offVec (ix2 s j)))) 409#32 := rfl

/-- Entry (s, j) of the matrix of row numbers spells the specification's clamped offset. -/
theorem relIdxVec_toNat (s j : Fin 512) : (relIdxVec (ix2 s j)).toNat = (Cert.Spec.relIdx s j).val := by
  have hs := s.isLt
  have hj := j.isLt
  rw [relIdxVec_apply, offVec_apply,
    clampWord_toNat _ _ (subWord_toInt s.val j.val hs hj) (by omega)]
  show _ = if j.val + 409 < s.val then 0 else if s.val + 409 < j.val then 818 else j.val + 409 - s.val
  split_ifs <;> omega

/-- The start index of the pair (s, j) is its row number: no row number is negative, so the wrap does nothing. -/
theorem relIdx3_apply (s j : Fin 512) (q : Fin 1) : relIdx3 (ix3 s j q) = relIdxVec (ix2 s j) := by
  unfold relIdx3
  rw [broadcastInDim_apply ![0, 1] bcast_S512x512_S512x512x1_0_1 _ (ix3 s j q) (ix2 s j) (fun a => by
    match a with
    | ⟨0, _⟩ => rfl
    | ⟨1, _⟩ => rfl)]
  exact Cert.LibIndexWords.wrapIndex_apply bcast_S_S512x512 819#32 relIdxVec (ix2 s j)
    (by rw [relIdxVec_toNat]; have := (Cert.Spec.relIdx s j).isLt; omega)

/-- … a word that spells the specification's clamped offset. -/
theorem relIdx3_toNat (s j : Fin 512) (q : Fin 1) : (relIdx3 (ix3 s j q)).toNat = (Cert.Spec.relIdx s j).val := by
  rw [relIdx3_apply, relIdxVec_toNat]

/-- Every row number is a row of the 819-row table. -/
theorem relMask_apply (i : S512x512.Idx) : relMask i = 1#1 := by
  unfold relMask
  refine Cert.TakeMask.reduce_andi_of_all _ _ reducesTo_S512x512x1_S512x512_d2 h_S_ rfl ?_ i
  intro k
  rw [eq_ix3 k]
  have hlt : (relIdx3 (ix3 (k 0) (k 1) (k 2))).toNat < 819 :=
    lt_of_eq_of_lt (relIdx3_toNat (k 0) (k 1) (k 2)) (Cert.Spec.relIdx _ _).isLt
  obtain ⟨h0, h1⟩ := Cert.TakeMask.cmp_of_toNat_lt 819 (by norm_num) _ hlt
  exact IntOp.andi_eq_one.2 ⟨h0, h1⟩

/-! ## A gather of whole rows by a matrix of row numbers -/

section Gather3
variable {α : Type}

/-- The dimension numbers of a row-take from an [N, C] table by an [n, m] matrix of row numbers laid out as
    [n, m, 1] start indices: offset axis 2, collapsed axis 0, start index map [0], index vector along axis 2. -/
abbrev rowDims3 (N C n m : Nat)
    (wf : GatherDims.WF ⟨2, ![N, C]⟩ ⟨3, ![n, m, 1]⟩ ⟨3, ![n, m, C]⟩ [2] [0] [] [0] [] 2 ![1, C]) :
    GatherDims ⟨2, ![N, C]⟩ ⟨3, ![n, m, 1]⟩ ⟨3, ![n, m, C]⟩ where
  offsetDims := [2]
  collapsedSliceDims := [0]
  operandBatchingDims := []
  startIndicesBatchingDims := []
  startIndexMap := [0]
  indexVectorDim := 2
  sliceSizes := ![1, C]
  wf := wf

/-- That row-take read at (p, r, q): the table at row idx[p, r, 0] (signed, clamped into [0, N − 1]), column q. On the
    row axis the operand coordinate is the clamped start (a collapsed axis has no offset, and nothing is batched); on the
    column axis no start index applies and the offset is the result's own last coordinate. -/
theorem gather_rows3_apply {N C n m w : Nat} (hN : 0 < N)
    (wf : GatherDims.WF ⟨2, ![N, C]⟩ ⟨3, ![n, m, 1]⟩ ⟨3, ![n, m, C]⟩ [2] [0] [] [0] [] 2 ![1, C])
    (x : (⟨2, ![N, C]⟩ : Shape).Idx → α) (idx : IVec ⟨3, ![n, m, 1]⟩ w) (p : Fin n) (r : Fin m) (q : Fin C) :
    Host.gather (rowDims3 N C n m wf) x idx (ix3 p r q)
      = x (ix2 ⟨min (idx (ix3 p r ⟨0, Nat.one_pos⟩)).toInt.toNat (N - 1), by omega⟩ q) := by
  unfold Host.gather
  congr 1
  funext a
  refine Fin.ext ?_
  show (rowDims3 N C n m wf).start (ix3 p r q) idx a + (rowDims3 N C n m wf).batchCoord (ix3 p r q) a
    + (rowDims3 N C n m wf).offCoord (ix3 p r q) a = _
  rw [GatherDims.batchCoord_eq_zero _ _ _ List.not_mem_nil, Nat.add_zero]
  match a with
  | ⟨0, _⟩ =>
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims3 N C n m wf).startIndexMap from List.mem_singleton.mpr rfl)]
    have hsi : (rowDims3 N C n m wf).siIdx (ix3 p r q)
        ⟨List.idxOf (⟨0, by decide⟩ : Fin 2) (rowDims3 N C n m wf).startIndexMap,
          List.idxOf_lt_length_iff.2 (List.mem_singleton.mpr rfl)⟩ = ix3 p r ⟨0, Nat.one_pos⟩ := by
      funext b; refine Fin.ext ?_
      match b with
      | ⟨0, _⟩ => rfl
      | ⟨1, _⟩ => rfl
      | ⟨2, _⟩ => rfl
    rw [hsi]
    rfl
  | ⟨1, _⟩ =>
    have hs : (rowDims3 N C n m wf).start (ix3 p r q) idx (⟨1, Nat.one_lt_two⟩ : Fin 2) = 0 := by
      unfold GatherDims.start
      rw [dif_neg (fun h => by have := congrArg Fin.val (List.mem_singleton.mp h); simp at this)]
    rw [hs, Nat.zero_add]
    rfl

end Gather3

/-- The mask laid along the first two axes of the [512, 512, 256] result is one everywhere. -/
theorem relMaskB_apply (i : S512x512x256.Idx) :
    broadcastInDim S512x512x256 ![0, 1] bcast_S512x512_S512x512x256_0_1 relMask i = 1#1 := by
  unfold broadcastInDim
  exact relMask_apply _

/-- Entry (s, j, d) of the taken relative rows is the table's row clip (j - s, -409, 409) + 409. -/
theorem relRows_apply (rel : FVec Ideal S819x256 .f32) (s j : Fin 512) (d : Fin 256) :
    relRows rel (ix3 s j d) = rel (ix2 (Cert.Spec.relIdx s j) d) := by
  have hrow : (⟨min (relIdx3 (ix3 s j ⟨0, Nat.one_pos⟩)).toInt.toNat (819 - 1), by omega⟩ : Fin 819) = Cert.Spec.relIdx s j := by
    refine Fin.ext ?_
    show min (relIdx3 (ix3 s j ⟨0, Nat.one_pos⟩)).toInt.toNat (819 - 1) = (Cert.Spec.relIdx s j).val
    have hn := relIdx3_toNat s j ⟨0, Nat.one_pos⟩
    have hlt := (Cert.Spec.relIdx s j).isLt
    have hi : (relIdx3 (ix3 s j ⟨0, Nat.one_pos⟩)).toInt = ((Cert.Spec.relIdx s j).val : Int) := by
      rw [BitVec.toInt_eq_toNat_of_lt (by rw [hn]; omega), hn]
    rw [hi]
    omega
  have hg := gather_rows3_apply (N := 819) (C := 256) (n := 512) (m := 512) (by norm_num)
    gather_S819x256_S512x512x1_S512x512x256_2_0_n_n_0_2_1256_wf rel relIdx3 s j d
  rw [hrow] at hg
  unfold relRows
  rw [select_apply, relMaskB_apply, select_one]
  exact hg

/-- The f32 word 0x44000000 denotes 512. -/
theorem ofBits_512_f32 : Ideal.ofBits .f32 0x44000000#32 = ((512 : ℝ) : EReal) := by
  simp [Ideal.ofBits, Ideal.ieee, -EReal.coe_mul]; norm_num

/-- Entry (s, d) of the relative mean is the specification's. -/
theorem relTab_apply (rel : FVec Ideal S819x256 .f32) (s : Fin 512) (d : Fin 256) :
    relTab rel (ix2 s d) = Cert.Spec.relMean (Cert.Spec.a2 rel) s d := by
  have hR : S512x512x256.Reduces [1] S512x256 := by decide
  have hsum : Host.reduceAdd (relRows rel) (constant S_ .f32 0x00000000#32) reducesTo_S512x512x256_S512x256_d1 h_S_ (ix2 s d)
      = ∑ j : Fin 512, rel (ix2 (Cert.Spec.relIdx s j) d) := by
    show Ideal.hostReduceAdd reducesTo_S512x512x256_S512x256_d1 (relRows rel) (Ideal.ofBits .f32 0x00000000#32) (ix2 s d) = _
    rw [Ideal.hostReduceAdd_single reducesTo_S512x512x256_S512x256_d1 hR, Ideal.ofBits_zero_f32, zero_add]
    show ∑ j : Fin 512, relRows rel (hR.lift (ix2 s d) j) = _
    refine Finset.sum_congr rfl fun j _ => ?_
    have hl : hR.lift (ix2 s d) j = ix3 s j d := by
      funext a
      refine Fin.ext ?_
      match a with
      | ⟨0, _⟩ => rfl
      | ⟨1, _⟩ => rfl
      | ⟨2, _⟩ => rfl
    rw [hl, relRows_apply]
  unfold relTab
  show Ideal.div (Host.reduceAdd (relRows rel) (constant S_ .f32 0x00000000#32) reducesTo_S512x512x256_S512x256_d1 h_S_ (ix2 s d))
    (Ideal.ofBits .f32 0x44000000#32) = _
  rw [hsum, ofBits_512_f32, Ideal.div_coe (by norm_num)]
  rfl

end Cert.ReferenceIdeal.RefTables

end
-- ==== Proof.RefCombine.lean ====
/-
  The reference's result, read entry by entry, and its run.

  The three encodings x + table are stacked along a new last axis, multiplied by the strategy weights times the mixing
  weights (broadcast over positions and features), and summed over that axis: entry (b, s, d) is the specification's
  reference arrangement. The program's operations, run in order from any contents, leave that array in the result buffer.
-/
import proofs.«144965_g11562051961505_week1_w4_918_31_alg».proof.Proof.Gen.ReferenceIdeal
import proofs.«144965_g11562051961505_week1_w4_918_31_alg».proof.Proof.Spec
import Idealize.ShloMosaic.Lib.ValueIdx
import Idealize.ShloMosaic.Lib.Pipeline.Value
import Idealize.ShloMosaic.PureOps.Ideal.Laws
import proofs.«144965_g11562051961505_week1_w4_918_31_alg».proof.Proof.RefProb
import proofs.«144965_g11562051961505_week1_w4_918_31_alg».proof.Proof.RefTables
import proofs.«144965_g11562051961505_week1_w4_918_31_alg».proof.Proof.RefRun

noncomputable section

namespace Cert.ReferenceIdeal.RefCombine

open Cert.ReferenceIdeal Cert.ReferenceIdeal.Gen Idealize.ShloMosaic Idealize.ShloMosaic.TcCoe Idealize.ShloMosaic.ValueIdx
open Idealize.SL.Sem Idealize.ShloMosaic.StableHlo

variable {F : FTy → Type} [FloatOps F]

/-- A 512 x 256 table broadcast over the batch. -/
def bcB (t : FVec F S512x256 .f32) : FVec F S16x512x256 .f32 :=
  broadcastInDim S16x512x256 ![0, 1, 2] bcast_S1x512x256_S16x512x256_0_1_2
    (broadcastInDim S1x512x256 ![1, 2] bcast_S512x256_S1x512x256_1_2 t)

/-- An encoding with a trailing unit axis. -/
def unit4 (e : FVec F S16x512x256 .f32) : FVec F S16x512x256x1 .f32 :=
  broadcastInDim S16x512x256x1 ![0, 1, 2] bcast_S16x512x256_S16x512x256x1_0_1_2 e

/-- The three encodings stacked along the last axis: sinusoidal, learned, relative. -/
def encVec (x : FVec F S16x512x256 .f32) (pos : FVec F S4096x256 .f32) (rel : FVec F S819x256 .f32)
    (pe : FVec F S4096x256 .f32) : FVec F S16x512x256x3 .f32 :=
  concatenate S16x512x256x3 3
    [⟨S16x512x256x1, unit4 (addf x (bcB (extractStridedSlice S512x256 ![0, 0] pe slices_S4096x256_S512x256_0_0)))⟩,
     ⟨S16x512x256x1, unit4 (addf x (bcB (RefTables.posRows pos)))⟩,
     ⟨S16x512x256x1, unit4 (addf x (bcB (RefTables.relTab rel)))⟩]
    concatenates_S16x512x256x1_S16x512x256x1_S16x512x256x1_S16x512x256x3_d3

/-- The strategy weights times the mixing weights, broadcast over positions and features. -/
def wVec (x : FVec F S16x512x256 .f32) (W1 : FVec F S128x256 .f32) (b1 : FVec F S128 .f32) (W2 : FVec F S3x128 .f32)
    (b2 : FVec F S3 .f32) (cw : FVec F S3 .f32) : FVec F S16x512x256x3 .f32 :=
  broadcastInDim S16x512x256x3 ![0, 1, 2, 3] bcast_S16x1x1x3_S16x512x256x3_0_1_2_3
    (mulf (broadcastInDim S16x1x1x3 ![0, 3] bcast_S16x3_S16x1x1x3_0_3 (RefProb.probVec x W1 b1 W2 b2))
      (broadcastInDim S16x1x1x3 ![0, 1, 2, 3] bcast_S1x1x1x3_S16x1x1x3_0_1_2_3
        (broadcastInDim S1x1x1x3 ![3] bcast_S3_S1x1x1x3_3 cw)))

/-- The reference's result as one term of its nine arguments. -/
def refVec (x : FVec F S16x512x256 .f32) (pos : FVec F S4096x256 .f32) (rel : FVec F S819x256 .f32)
    (W1 : FVec F S128x256 .f32) (b1 : FVec F S128 .f32) (W2 : FVec F S3x128 .f32) (b2 : FVec F S3 .f32)
    (cw : FVec F S3 .f32) (pe : FVec F S4096x256 .f32) : FVec F S16x512x256 .f32 :=
  Host.reduceAdd (mulf (encVec x pos rel pe) (wVec x W1 b1 W2 b2 cw)) (constant S_ .f32 0x00000000#32)
    reducesTo_S16x512x256x3_S16x512x256_d3 h_S_

/-! ## Reading the pieces at an entry -/

/-- A table broadcast over the batch reads, at (b, s, d), the table at (s, d). -/
theorem bcB_apply (t : FVec Ideal S512x256 .f32) (b : Fin 16) (s : Fin 512) (d : Fin 256) :
    bcB t (ix3 b s d) = t (ix2 s d) := by
  unfold bcB
  refine (broadcastInDim_apply _ _ _ (ix3 b s d) (ix3 (0 : Fin 1) s d) ?_).trans ?_
  · intro a
    match a with
    | ⟨0, _⟩ => rfl
    | ⟨1, _⟩ => rfl
    | ⟨2, _⟩ => rfl
  · refine broadcastInDim_apply _ _ _ (ix3 (0 : Fin 1) s d) (ix2 s d) ?_
    intro a
    match a with
    | ⟨0, _⟩ => rfl
    | ⟨1, _⟩ => rfl

/-- An encoding with a trailing unit axis reads, at (b, s, d, 0), the encoding at (b, s, d). -/
theorem unit4_apply (e : FVec Ideal S16x512x256 .f32) (b : Fin 16) (s : Fin 512) (d : Fin 256) (z : Fin 1) :
    unit4 e (ix4 b s d z) = e (ix3 b s d) := by
  unfold unit4
  refine broadcastInDim_apply _ _ _ (ix4 b s d z) (ix3 b s d) ?_
  intro a
  match a with
  | ⟨0, _⟩ => rfl
  | ⟨1, _⟩ => rfl
  | ⟨2, _⟩ => rfl

/-- The first 512 rows of a 4096-row table: row s of the slice is row s of the table. -/
theorem peRows_apply (pe : FVec Ideal S4096x256 .f32) (s : Fin 512) (d : Fin 256) :
    extractStridedSlice S512x256 ![0, 0] pe slices_S4096x256_S512x256_0_0 (ix2 s d) = pe (ix2 (Cert.Spec.row4096 s) d) := by
  refine extractStridedSlice_apply _ _ _ (ix2 s d) (ix2 (Cert.Spec.row4096 s) d) ?_
  intro a
  match a with
  | ⟨0, _⟩ => exact (Nat.zero_add _).symm
  | ⟨1, _⟩ => exact (Nat.zero_add _).symm

/-- Three arrays with a trailing unit axis stacked along that axis: at last coordinate k the stack reads piece k. -/
theorem stack3_apply (e0 e1 e2 : FVec Ideal S16x512x256x1 .f32) (b : Fin 16) (s : Fin 512) (d : Fin 256) (k : Fin 3) :
    concatenate S16x512x256x3 3 [⟨S16x512x256x1, e0⟩, ⟨S16x512x256x1, e1⟩, ⟨S16x512x256x1, e2⟩]
        concatenates_S16x512x256x1_S16x512x256x1_S16x512x256x1_S16x512x256x3_d3 (ix4 b s d k)
      = (match k with | ⟨0, _⟩ => e0 | ⟨1, _⟩ => e1 | ⟨2, _⟩ => e2) (ix4 b s d (0 : Fin 1)) := by
  have hi : ∀ (k : Fin 3) (c : Fin S16x512x256x1.rank), c.cast (rfl : S16x512x256x1.rank = S16x512x256x3.rank) ≠ (3 : Fin 4) →
      ((ix4 b s d (0 : Fin 1) : S16x512x256x1.Idx) c).val = ((ix4 b s d k : S16x512x256x3.Idx) (c.cast rfl)).val := by
    intro k c hc
    match c with
    | ⟨0, _⟩ => rfl
    | ⟨1, _⟩ => rfl
    | ⟨2, _⟩ => rfl
    | ⟨3, _⟩ => exact absurd rfl hc
  match k with
  | ⟨0, h0⟩ =>
    exact concatenate_apply_piece (t := S16x512x256x3) (3 : Fin 4) [⟨S16x512x256x1, e0⟩, ⟨S16x512x256x1, e1⟩, ⟨S16x512x256x1, e2⟩]
      concatenates_S16x512x256x1_S16x512x256x1_S16x512x256x1_S16x512x256x3_d3 (ix4 b s d (⟨0, h0⟩ : Fin 3)) 0 (by show (0 : ℕ) < 3; omega) S16x512x256x1 e0 rfl rfl 0 rfl
      (ix4 b s d (0 : Fin 1)) (hi _) rfl
  | ⟨1, h1⟩ =>
    exact concatenate_apply_piece (t := S16x512x256x3) (3 : Fin 4) [⟨S16x512x256x1, e0⟩, ⟨S16x512x256x1, e1⟩, ⟨S16x512x256x1, e2⟩]
      concatenates_S16x512x256x1_S16x512x256x1_S16x512x256x1_S16x512x256x3_d3 (ix4 b s d (⟨1, h1⟩ : Fin 3)) 1 (by show (1 : ℕ) < 3; omega) S16x512x256x1 e1 rfl rfl 1 rfl
      (ix4 b s d (0 : Fin 1)) (hi _) rfl
  | ⟨2, h2⟩ =>
    exact concatenate_apply_piece (t := S16x512x256x3) (3 : Fin 4) [⟨S16x512x256x1, e0⟩, ⟨S16x512x256x1, e1⟩, ⟨S16x512x256x1, e2⟩]
      concatenates_S16x512x256x1_S16x512x256x1_S16x512x256x1_S16x512x256x3_d3 (ix4 b s d (⟨2, h2⟩ : Fin 3)) 2 (by show (2 : ℕ) < 3; omega) S16x512x256x1 e2 rfl rfl 2 rfl
      (ix4 b s d (0 : Fin 1)) (hi _) rfl

/-- The stacked encodings at (b, s, d, k): x plus table k. -/
theorem encVec_apply (x : FVec Ideal S16x512x256 .f32) (pos : FVec Ideal S4096x256 .f32) (rel : FVec Ideal S819x256 .f32)
    (pe : FVec Ideal S4096x256 .f32) (b : Fin 16) (s : Fin 512) (d : Fin 256) (k : Fin 3) :
    encVec x pos rel pe (ix4 b s d k)
      = x (ix3 b s d) + Cert.Spec.tab (Cert.Spec.a2 pos) (Cert.Spec.a2 rel) (Cert.Spec.a2 pe) k s d := by
  unfold encVec
  rw [stack3_apply]
  match k with
  | ⟨0, _⟩ =>
    show unit4 _ (ix4 b s d (0 : Fin 1)) = _
    rw [unit4_apply, addf_apply, bcB_apply, peRows_apply]
    rfl
  | ⟨1, _⟩ =>
    show unit4 _ (ix4 b s d (0 : Fin 1)) = _
    rw [unit4_apply, addf_apply, bcB_apply, RefTables.posRows_apply]
    rfl
  | ⟨2, _⟩ =>
    show unit4 _ (ix4 b s d (0 : Fin 1)) = _
    rw [unit4_apply, addf_apply, bcB_apply, RefTables.relTab_apply]
    rfl

/-- The broadcast weights at (b, s, d, k): the strategy weight of sequence b for k times the mixing weight k. -/
theorem wVec_apply (x : FVec Ideal S16x512x256 .f32) (W1 : FVec Ideal S128x256 .f32) (b1 : FVec Ideal S128 .f32)
    (W2 : FVec Ideal S3x128 .f32) (b2 : FVec Ideal S3 .f32) (cw : FVec Ideal S3 .f32)
    (b : Fin 16) (s : Fin 512) (d : Fin 256) (k : Fin 3) :
    wVec x W1 b1 W2 b2 cw (ix4 b s d k) = RefProb.probVec x W1 b1 W2 b2 (ix2 b k) * cw (ix1 k) := by
  unfold wVec
  refine (broadcastInDim_apply _ _ _ (ix4 b s d k) (ix4 b (0 : Fin 1) (0 : Fin 1) k) ?_).trans ?_
  · intro a
    match a with
    | ⟨0, _⟩ => rfl
    | ⟨1, _⟩ => rfl
    | ⟨2, _⟩ => rfl
    | ⟨3, _⟩ => rfl
  rw [mulf_apply]
  have e1 : broadcastInDim S16x1x1x3 ![0, 3] bcast_S16x3_S16x1x1x3_0_3 (RefProb.probVec x W1 b1 W2 b2)
      (ix4 b (0 : Fin 1) (0 : Fin 1) k) = RefProb.probVec x W1 b1 W2 b2 (ix2 b k) := by
    refine broadcastInDim_apply _ _ _ (ix4 b (0 : Fin 1) (0 : Fin 1) k) (ix2 b k) ?_
    intro a
    match a with
    | ⟨0, _⟩ => rfl
    | ⟨1, _⟩ => rfl
  have e2 : broadcastInDim S16x1x1x3 ![0, 1, 2, 3] bcast_S1x1x1x3_S16x1x1x3_0_1_2_3
      (broadcastInDim S1x1x1x3 ![3] bcast_S3_S1x1x1x3_3 cw) (ix4 b (0 : Fin 1) (0 : Fin 1) k) = cw (ix1 k) := by
    refine (broadcastInDim_apply _ _ _ (ix4 b (0 : Fin 1) (0 : Fin 1) k) (ix4 (0 : Fin 1) (0 : Fin 1) (0 : Fin 1) k) ?_).trans ?_
    · intro a
      match a with
      | ⟨0, _⟩ => rfl
      | ⟨1, _⟩ => rfl
      | ⟨2, _⟩ => rfl
      | ⟨3, _⟩ => rfl
    · refine broadcastInDim_apply _ _ _ (ix4 (0 : Fin 1) (0 : Fin 1) (0 : Fin 1) k) (ix1 k) ?_
      intro a
      match a with
      | ⟨0, _⟩ => rfl
  rw [e1, e2]

/-- A sum over the last axis of a 16 x 512 x 256 x 3 array from the zero word: the sum of its three last-axis entries. -/
theorem sum3_apply (v : FVec Ideal S16x512x256x3 .f32) (b : Fin 16) (s : Fin 512) (d : Fin 256) :
    Host.reduceAdd v (constant S_ .f32 0x00000000#32) reducesTo_S16x512x256x3_S16x512x256_d3 h_S_ (ix3 b s d)
      = ∑ k : Fin 3, v (ix4 b s d k) := by
  have h : S16x512x256x3.Reduces [3] S16x512x256 := by decide
  show Ideal.hostReduceAdd reducesTo_S16x512x256x3_S16x512x256_d3 v (Ideal.ofBits .f32 0x00000000#32) (ix3 b s d) = _
  rw [Ideal.hostReduceAdd_single reducesTo_S16x512x256x3_S16x512x256_d3 h, Ideal.ofBits_zero_f32, zero_add]
  refine Finset.sum_congr rfl fun k _ => congrArg v ?_
  funext a
  match a with
  | ⟨0, _⟩ => exact Fin.ext rfl
  | ⟨1, _⟩ => exact Fin.ext rfl
  | ⟨2, _⟩ => exact Fin.ext rfl
  | ⟨3, _⟩ => exact Fin.ext rfl

/-- Entry (b, s, d) of the reference's result is the specification's reference arrangement. -/
theorem refVec_apply (x : FVec Ideal S16x512x256 .f32) (pos : FVec Ideal S4096x256 .f32) (rel : FVec Ideal S819x256 .f32)
    (W1 : FVec Ideal S128x256 .f32) (b1 : FVec Ideal S128 .f32) (W2 : FVec Ideal S3x128 .f32) (b2 : FVec Ideal S3 .f32)
    (cw : FVec Ideal S3 .f32) (pe : FVec Ideal S4096x256 .f32) (b : Fin 16) (s : Fin 512) (d : Fin 256) :
    refVec x pos rel W1 b1 W2 b2 cw pe (ix3 b s d)
      = Cert.Spec.refOut (Cert.Spec.a3 x) (Cert.Spec.a2 pos) (Cert.Spec.a2 rel) (Cert.Spec.a2 W1) (Cert.Spec.a1 b1)
          (Cert.Spec.a2 W2) (Cert.Spec.a1 b2) (Cert.Spec.a1 cw) (Cert.Spec.a2 pe) b s d := by
  unfold refVec Cert.Spec.refOut
  rw [sum3_apply]
  refine Finset.sum_congr rfl fun k _ => ?_
  rw [mulf_apply, encVec_apply, wVec_apply, RefProb.probVec_apply]

/-! ## The run

Each operation leaves its function's value at its own result buffer and every other buffer as it was, so the fold of the
operations, read at the result buffer, unwinds to one term over the nine arguments' contents. The operations that came from
the outlined functions read and write their buffers through transports along a type equation that is the identity at these
buffers; with those removed the term is refVec's, definition by definition. -/

/-- Three arrays with a trailing unit axis stacked along that axis. -/
def stack3 (e0 e1 e2 : FVec F S16x512x256x1 .f32) : FVec F S16x512x256x3 .f32 :=
  concatenate S16x512x256x3 3 [⟨S16x512x256x1, e0⟩, ⟨S16x512x256x1, e1⟩, ⟨S16x512x256x1, e2⟩]
    concatenates_S16x512x256x1_S16x512x256x1_S16x512x256x1_S16x512x256x3_d3

/-- The stacking operation leaves, at its result buffer, the stack of its three operands' contents, each read at its own
    buffer. -/
theorem v27_result (hxs hy) (G : Valuation τ sig (Elt F)) :
    (nary (τ := τ) ![main_v24, main_v25, main_v26] main_v27
        (fun u => concatenate S16x512x256x3 3 [⟨S16x512x256x1, u 0⟩, ⟨S16x512x256x1, u 1⟩, ⟨S16x512x256x1, u 2⟩]
          concatenates_S16x512x256x1_S16x512x256x1_S16x512x256x1_S16x512x256x3_d3) hxs hy).result G
        (no_index (Proc.devRef .tc main_v27))
      = stack3 (G (main_v24 : DevRef τ sig)) (G (main_v25 : DevRef τ sig)) (G (main_v26 : DevRef τ sig)) := by
  rw [nary_result]; rfl

-- the fold is 122 operations deep, and the unwound term is compared with refVec's through twenty definitions
set_option maxRecDepth 16384 in
set_option maxHeartbeats 4000000 in
/-- The operations, run in order from contents V, leave the result buffer at refVec of the arguments' contents. -/
theorem after_v59 (V : Valuation τ sig (Elt F)) :
    after Run.ops V (main_v59 : DevRef τ sig)
      = refVec (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  -- every operation's result, at its own buffer and at any other
  simp (disch := decide) only [after_cons, after_nil,
      nullary_result', unary_result', binary_result', ternary_result', v27_result,
      nullary_result_ne', unary_result_ne', binary_result_ne', ternary_result_ne', nary_result_ne']
  -- the outlined functions' transports are the identity
  simp only [TRef.ofBuf, TRef.toBuf, cast_eq]
  rfl

end Cert.ReferenceIdeal.RefCombine

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KerTables.lean ====
/-
  The three derived tables the kernel keeps between grid points, read entry by entry.

  At the first grid point the body builds a 512 x 824 matrix from two iotas: entry (s, k) is one when row k is an
  interior offset of position s, plus the clamped multiplicities in columns 0 and 818, all times 1/512. It multiplies the
  matrix (in two halves of 256 rows) with the zero-padded relative table, scales by the third mixing weight, and stores
  that base table and the excesses of the two scaled absolute tables over it.
-/
import proofs.«144965_g11562051961505_week1_w4_918_31_alg».proof.Proof.Gen.KernelIdeal.Skeleton
import proofs.«144965_g11562051961505_week1_w4_918_31_alg».proof.Proof.Spec
import proofs.«144965_g11562051961505_week1_w4_918_31_alg».proof.Proof.LibPlainMatmul
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.KerTables

open Cert.KernelIdeal Cert.KernelIdeal.Gen Idealize.ShloMosaic Idealize.ShloMosaic.TcCoe Idealize.ShloMosaic.ValueIdx

/-- The banded matrix times the staged (padded) relative table, at (s, d). -/
def band (relb : Vec Ideal S824x256 .f32) (s : Fin 512) (d : Fin 256) : EReal :=
  ∑ k : Fin 824, ((Cert.Spec.mcoef s k : ℝ) : EReal) * relb (ix2 k d)

/-! ## Signed 32-bit words of small integers

  Every word the matrix is built from spells an integer between -511 and 920, so subtraction never wraps and the signed
  comparisons, maxima and minima are those of the integers. -/

/-- The word of a natural below 2³¹ reads, signed, as that natural. -/
theorem toInt_ofNat_lt (n : ℕ) (h : n < 2 ^ 31) : (BitVec.ofNat 32 n).toInt = (n : ℤ) := by
  rw [BitVec.toInt_ofNat']
  exact Int.bmod_eq_of_le_mul_two (by omega) (by omega)

/-- The difference of two words whose signed values lie in [-2³⁰, 2³⁰) does not wrap. -/
theorem toInt_subi (a b : BitVec 32) (ha : -2 ^ 30 ≤ a.toInt ∧ a.toInt < 2 ^ 30) (hb : -2 ^ 30 ≤ b.toInt ∧ b.toInt < 2 ^ 30) :
    (IntOp.subi a b).toInt = a.toInt - b.toInt := by
  unfold IntOp.subi
  rw [BitVec.toInt_sub]
  exact Int.bmod_eq_of_le_mul_two (by omega) (by omega)

/-- The signed maximum of two words spells the maximum of their signed values. -/
theorem toInt_maxsi (x y : BitVec 32) : (IntOp.maxsi x y).toInt = max x.toInt y.toInt := by
  unfold IntOp.maxsi
  rw [BitVec.slt_eq_decide]
  by_cases h : y.toInt < x.toInt
  · simp [h]; omega
  · simp [h]; omega

/-- The signed minimum of two words spells the minimum of their signed values. -/
theorem toInt_minsi (x y : BitVec 32) : (IntOp.minsi x y).toInt = min x.toInt y.toInt := by
  unfold IntOp.minsi
  rw [BitVec.slt_eq_decide]
  by_cases h : x.toInt < y.toInt
  · simp [h]; omega
  · simp [h]; omega

/-- The signed test a ≥ b is the bit of b ≤ a on the signed values. -/
theorem cmpi_sge (a b : BitVec 32) : IntOp.cmpi .sge a b = BitVec.ofBool (decide (b.toInt ≤ a.toInt)) := rfl

/-- The signed test a ≤ b is the bit of a ≤ b on the signed values. -/
theorem cmpi_sle (a b : BitVec 32) : IntOp.cmpi .sle a b = BitVec.ofBool (decide (a.toInt ≤ b.toInt)) := rfl

/-- The conjunction of two bits. -/
theorem andi_ofBool (p q : Bool) : IntOp.andi (BitVec.ofBool p) (BitVec.ofBool q) = BitVec.ofBool (p && q) := by
  cases p <;> cases q <;> rfl

/-- A bit widened with zeros to 32 bits spells 1 or 0. -/
theorem toInt_setWidth_ofBool (p : Bool) : ((BitVec.ofBool p).setWidth 32).toInt = if p then 1 else 0 := by
  cases p <;> rfl

/-- A choice on the equality of the words of two naturals below 2³² is the choice on the naturals' equality. -/
theorem select_eq_ofNat {α : Type} (k c : ℕ) (hk : k < 2 ^ 32) (hc : c < 2 ^ 32) (x y : α) :
    Scalar.select (IntOp.cmpi .eq (BitVec.ofNat 32 k) (BitVec.ofNat 32 c)) x y = if k = c then x else y := by
  have key : IntOp.cmpi .eq (BitVec.ofNat 32 k) (BitVec.ofNat 32 c) = 1#1 ↔ k = c := by
    rw [StableHlo.Predicate.cmpi_eq_iff]
    constructor
    · intro e
      have := congrArg BitVec.toNat e
      rwa [BitVec.toNat_ofNat, BitVec.toNat_ofNat, Nat.mod_eq_of_lt hk, Nat.mod_eq_of_lt hc] at this
    · intro e; rw [e]
  by_cases h : k = c
  · rw [if_pos h]; exact if_pos (key.2 h)
  · rw [if_neg h]; exact if_neg (fun e => h (key.1 e))

/-! ## The three integer ingredients of an entry -/

/-- The interior bit: max 0 (409 - s) ≤ k ≤ min 818 (920 - s), computed on words, is the specification's indicator. -/
theorem interior_word (s : Fin 512) (k : Fin 824) :
    ((IntOp.andi (IntOp.cmpi .sge (BitVec.ofNat 32 k.val) (IntOp.maxsi 0#32 (IntOp.subi 409#32 (BitVec.ofNat 32 s.val))))
        (IntOp.cmpi .sle (BitVec.ofNat 32 k.val) (IntOp.minsi 818#32 (IntOp.subi 920#32 (BitVec.ofNat 32 s.val))))).setWidth 32).toInt
      = ((Cert.Spec.interior s k : ℕ) : ℤ) := by
  have hs := s.isLt
  have hk := k.isLt
  have eI : (BitVec.ofNat 32 s.val).toInt = (s.val : ℤ) := toInt_ofNat_lt _ (by omega)
  have eK : (BitVec.ofNat 32 k.val).toInt = (k.val : ℤ) := toInt_ofNat_lt _ (by omega)
  have e409 : (409#32).toInt = 409 := by decide
  have e920 : (920#32).toInt = 920 := by decide
  have e818 : (818#32).toInt = 818 := by decide
  have e0 : (0#32).toInt = 0 := by decide
  rw [cmpi_sge, cmpi_sle, andi_ofBool, toInt_setWidth_ofBool, toInt_maxsi, toInt_minsi,
    toInt_subi _ _ (by rw [e409]; omega) (by rw [eI]; omega), toInt_subi _ _ (by rw [e920]; omega) (by rw [eI]; omega),
    eI, eK, e409, e920, e818, e0]
  unfold Cert.Spec.interior
  by_cases h : 409 - s.val ≤ k.val ∧ k.val ≤ min 818 (920 - s.val)
  · rw [if_pos h, if_pos]
    · rfl
    · simp only [Bool.and_eq_true, decide_eq_true_eq]; omega
  · rw [if_neg h, if_neg]
    · rfl
    · simp only [Bool.and_eq_true, decide_eq_true_eq]; omega

/-- The lowest row's extra multiplicity: max 0 (s - 409) in column 0 and nothing elsewhere. -/
theorem clo_word (s : Fin 512) (k : Fin 824) :
    (Scalar.select (IntOp.cmpi .eq (BitVec.ofNat 32 k.val) 0#32) (IntOp.maxsi 0#32 (IntOp.subi (BitVec.ofNat 32 s.val) 409#32)) 0#32).toInt
      = if k.val = 0 then ((Cert.Spec.clo s : ℕ) : ℤ) else 0 := by
  have hs := s.isLt
  have hk := k.isLt
  have eI : (BitVec.ofNat 32 s.val).toInt = (s.val : ℤ) := toInt_ofNat_lt _ (by omega)
  have e409 : (409#32).toInt = 409 := by decide
  rw [show (0#32 : BitVec 32) = BitVec.ofNat 32 0 from rfl, select_eq_ofNat _ _ (by omega) (by omega)]
  split
  · rw [toInt_maxsi, toInt_subi _ _ (by rw [eI]; omega) (by rw [e409]; omega), eI, e409]
    unfold Cert.Spec.clo
    show max (BitVec.ofNat 32 0).toInt _ = _
    rw [show (BitVec.ofNat 32 0).toInt = 0 from by decide]
    omega
  · decide

/-- The highest row's extra multiplicity: max 0 (102 - s) in column 818 and nothing elsewhere. -/
theorem chi_word (s : Fin 512) (k : Fin 824) :
    (Scalar.select (IntOp.cmpi .eq (BitVec.ofNat 32 k.val) 818#32) (IntOp.maxsi 0#32 (IntOp.subi 102#32 (BitVec.ofNat 32 s.val))) 0#32).toInt
      = if k.val = 818 then ((Cert.Spec.chi s : ℕ) : ℤ) else 0 := by
  have hs := s.isLt
  have hk := k.isLt
  have eI : (BitVec.ofNat 32 s.val).toInt = (s.val : ℤ) := toInt_ofNat_lt _ (by omega)
  have e102 : (102#32).toInt = 102 := by decide
  have e0 : (0#32).toInt = 0 := by decide
  rw [show (818#32 : BitVec 32) = BitVec.ofNat 32 818 from rfl, select_eq_ofNat _ _ (by omega) (by omega)]
  split
  · rw [toInt_maxsi, toInt_subi _ _ (by rw [e102]; omega) (by rw [eI]; omega), eI, e102, e0]
    unfold Cert.Spec.chi
    omega
  · decide

/-! ## The banded matrix, entry by entry -/

/-- The bf16 word 0x3B00 denotes 1/512. -/
theorem ofBits_bf16_inv512 : Ideal.ofBits .bf16 0x3B00#16 = ((1 / 512 : ℝ) : EReal) := by
  simp [Ideal.ofBits, Ideal.ieee, -EReal.coe_mul]; norm_num

/-- An entry as a function of the position's word I and the column's word K: the interior bit, plus the clamped
    multiplicities in columns 0 and 818, each read as a signed integer, the total times 1/512. -/
def entryWord (I K : BitVec 32) : EReal :=
  ((((((IntOp.andi (IntOp.cmpi .sge K (IntOp.maxsi 0#32 (IntOp.subi 409#32 I)))
          (IntOp.cmpi .sle K (IntOp.minsi 818#32 (IntOp.subi 920#32 I)))).setWidth 32).toInt : ℝ) : EReal)
      + (((Scalar.select (IntOp.cmpi .eq K 0#32) (IntOp.maxsi 0#32 (IntOp.subi I 409#32)) 0#32).toInt : ℝ) : EReal))
      + (((Scalar.select (IntOp.cmpi .eq K 818#32) (IntOp.maxsi 0#32 (IntOp.subi 102#32 I)) 0#32).toInt : ℝ) : EReal))
    * Ideal.ofBits .bf16 0x3B00#16

/-- The matrix at an index is that function of the two coordinate words there. -/
theorem pay2_words (j : S512x824.Idx) :
    k0_pay2 (F := Ideal) j
      = entryWord (iota .tc S512x824 32 [0] iota_S512x824_d0_w32 j) (iota .tc S512x824 32 [1] iota_S512x824_d1_w32 j) := rfl

/-- Entry (s, k) of the matrix is the multiplicity coefficient of the specification. -/
theorem pay2_apply (s : Fin 512) (k : Fin 824) :
    k0_pay2 (F := Ideal) (ix2 s k) = ((Cert.Spec.mcoef s k : ℝ) : EReal) := by
  rw [pay2_words, iota_single_apply, iota_single_apply]
  show entryWord (BitVec.ofNat 32 s.val) (BitVec.ofNat 32 k.val) = _
  unfold entryWord
  rw [interior_word, clo_word, chi_word, ofBits_bf16_inv512, ← EReal.coe_add, ← EReal.coe_add, ← EReal.coe_mul]
  congr 1
  unfold Cert.Spec.mcoef
  push_cast
  rfl

/-! ## The product with the staged relative table -/

/-- The staged relative table passes through the narrowing unchanged. -/
theorem pay3_apply (relb : Vec Ideal S824x256 .f32) (k : Fin 824) (d : Fin 256) :
    k0_pay3 (F := Ideal) relb (ix2 k d) = relb (ix2 k d) := by
  unfold k0_pay3
  show shapeCast S824x256 relb shapeCasts_S824x256_S824x256 (ix2 k d) = relb (ix2 k d)
  rw [shapeCast_self]

/-- The kernel's dimension numbers are the plain ones. -/
theorem dot_eq_plain : dot_S256x824_S824x256_S256x256_1_0_0_1_n_n = DotDims.plain 256 824 256 := rfl

/-- The product of 256 rows of the matrix with the table, into the zero accumulator, at an entry. -/
theorem half_matmul_apply (a : FVec Ideal S256x824 .bf16) (b : FVec Ideal S824x256 .bf16) (r c : Fin 256) :
    FloatOps.matmul dot_S256x824_S824x256_S256x256_1_0_0_1_n_n none a b (constant S256x256 .f32 0x00000000#32) (ix2 r c)
      = ∑ k : Fin 824, a (ix2 r k) * b (ix2 k c) := by
  rw [dot_eq_plain]
  exact Cert.PlainMatmul.apply none a b r c

/-- The first 256 rows of the matrix. -/
theorem lowRows_apply (r : Fin 256) (k : Fin 824) :
    extractStridedSlice S256x824 ![0, 0] (k0_pay2 (F := Ideal)) slices_S512x824_o0_0_S256x824 (ix2 r k)
      = k0_pay2 (F := Ideal) (ix2 (⟨r.val, by have := r.isLt; omega⟩ : Fin 512) k) := by
  refine extractStridedSlice_apply _ _ _ (ix2 r k) (ix2 (⟨r.val, by have := r.isLt; omega⟩ : Fin 512) k) ?_
  intro a
  match a with
  | ⟨0, _⟩ => show r.val = 0 + r.val; omega
  | ⟨1, _⟩ => show k.val = 0 + k.val; omega

/-- The last 256 rows of the matrix. -/
theorem pay5_apply (r : Fin 256) (k : Fin 824) :
    k0_pay5 (F := Ideal) (ix2 r k) = k0_pay2 (F := Ideal) (ix2 (⟨256 + r.val, by have := r.isLt; omega⟩ : Fin 512) k) := by
  unfold k0_pay5
  refine extractStridedSlice_apply _ _ _ (ix2 r k) (ix2 (⟨256 + r.val, by have := r.isLt; omega⟩ : Fin 512) k) ?_
  intro a
  match a with
  | ⟨0, _⟩ => rfl
  | ⟨1, _⟩ => show k.val = 0 + k.val; omega

/-- The first half of the banded product. -/
theorem pay4_apply (relb : Vec Ideal S824x256 .f32) (r c : Fin 256) :
    k0_pay4 (F := Ideal) relb (ix2 r c) = band relb (⟨r.val, by have := r.isLt; omega⟩ : Fin 512) c := by
  unfold k0_pay4
  show FloatOps.matmul dot_S256x824_S824x256_S256x256_1_0_0_1_n_n none
      (extractStridedSlice S256x824 ![0, 0] (k0_pay2 (F := Ideal)) slices_S512x824_o0_0_S256x824) (k0_pay3 relb)
      (constant S256x256 .f32 0x00000000#32) (ix2 r c) = _
  rw [half_matmul_apply]
  unfold band
  refine Finset.sum_congr rfl fun k _ => ?_
  rw [lowRows_apply, pay2_apply, pay3_apply]

/-- The second half of the banded product. -/
theorem hiHalf_apply (relb : Vec Ideal S824x256 .f32) (r c : Fin 256) :
    FloatOps.matmul dot_S256x824_S824x256_S256x256_1_0_0_1_n_n none (k0_pay5 (F := Ideal)) (k0_pay3 relb)
      (constant S256x256 .f32 0x00000000#32) (ix2 r c) = band relb (⟨256 + r.val, by have := r.isLt; omega⟩ : Fin 512) c := by
  rw [half_matmul_apply]
  unfold band
  refine Finset.sum_congr rfl fun k _ => ?_
  rw [pay5_apply, pay2_apply, pay3_apply]

/-- The one entry of a 1 x 1 array. -/
theorem extractAt_one (cw : Vec Ideal S1x1 .f32) : extractAt ![0, 0] cw inpos_S1x1_p0_0 = cw (ix2 0 0) := by
  unfold extractAt
  congr 1
  funext a
  match a with
  | ⟨0, _⟩ => rfl
  | ⟨1, _⟩ => rfl

/-- The two products laid one over the other are the banded product at every position. -/
theorem concat_apply (relb : Vec Ideal S824x256 .f32) (s : Fin 512) (d : Fin 256) :
    concatenate S512x256 0 [⟨S256x256, k0_pay4 (F := Ideal) relb⟩,
        ⟨S256x256, FloatOps.matmul dot_S256x824_S824x256_S256x256_1_0_0_1_n_n none (k0_pay5 (F := Ideal)) (k0_pay3 relb)
          (constant S256x256 .f32 0x00000000#32)⟩] concatenates_S256x256_S256x256_S512x256_d0 (ix2 s d)
      = band relb s d := by
  by_cases hs : s.val < 256
  · rw [concatenate_pair_apply_left (t := S512x256) (s₁ := S256x256) (s₂ := S256x256) (0 : Fin 2) _ _ concatenates_S256x256_S256x256_S512x256_d0 (ix2 s d) rfl
      (ix2 (⟨s.val, hs⟩ : Fin 256) d) (fun b => by
        match b with
        | ⟨0, _⟩ => rfl
        | ⟨1, _⟩ => rfl)]
    rw [pay4_apply]
  · have hq : s.val - 256 < 256 := by have := s.isLt; omega
    rw [concatenate_pair_apply_right (t := S512x256) (s₁ := S256x256) (s₂ := S256x256) (0 : Fin 2) _ _ concatenates_S256x256_S256x256_S512x256_d0 (ix2 s d) rfl rfl
      (ix2 (⟨s.val - 256, hq⟩ : Fin 256) d) (fun b hb => by
        match b with
        | ⟨0, _⟩ => exact absurd rfl hb
        | ⟨1, _⟩ => rfl) (by
        show s.val - 256 + 256 = s.val
        omega)]
    rw [hiHalf_apply]
    congr 1
    exact Fin.ext (by show 256 + (s.val - 256) = s.val; omega)

/-- The scaled banded product. -/
theorem pay16_apply (relb : Vec Ideal S824x256 .f32) (cw2 : Vec Ideal S1x1 .f32) (s : Fin 512) (d : Fin 256) :
    k0_pay16 (F := Ideal) (k0_pay3 relb) (k0_pay4 relb) k0_pay5 cw2 (ix2 s d) = cw2 (ix2 0 0) * band relb s d := by
  unfold k0_pay16
  show extractAt ![0, 0] cw2 inpos_S1x1_p0_0 * concatenate S512x256 0 [⟨S256x256, k0_pay4 (F := Ideal) relb⟩,
        ⟨S256x256, FloatOps.matmul dot_S256x824_S824x256_S256x256_1_0_0_1_n_n none (k0_pay5 (F := Ideal)) (k0_pay3 relb)
          (constant S256x256 .f32 0x00000000#32)⟩] concatenates_S256x256_S256x256_S512x256_d0 (ix2 s d) = _
  rw [extractAt_one, concat_apply]

/-- A [512, 256] array stored as a [1, 512, 256] block, read at (0, s, d). -/
theorem addUnit_apply {α : Type} (v : S512x256.Idx → α) (s : Fin 512) (d : Fin 256) :
    shapeCast S1x512x256 v shapeCasts_S512x256_S1x512x256 (ix3 0 s d) = v (ix2 s d) := by
  refine shapeCast_apply v _ (ix3 0 s d) (ix2 s d) ?_
  rw [Shape.rowMajor_val_two, Shape.rowMajor_val_three]
  show s.val * 256 + d.val = (0 * 512 + s.val) * 256 + d.val
  omega

/-! ## The three stored tables -/

/-- The base table: the third mixing weight times the banded product. -/
theorem pay17_apply (relb : Vec Ideal S824x256 .f32) (cw2 : Vec Ideal S1x1 .f32) (s : Fin 512) (d : Fin 256) :
    k0_pay17 (F := Ideal) (k0_pay3 relb) (k0_pay4 relb) k0_pay5 cw2 (ix3 0 s d) = cw2 (ix2 0 0) * band relb s d := by
  unfold k0_pay17
  refine (addUnit_apply _ s d).trans ?_
  show k0_pay16 (F := Ideal) (k0_pay3 relb) (k0_pay4 relb) k0_pay5 cw2 (ix2 s d) = _
  exact pay16_apply relb cw2 s d

/-- The first excess: the first mixing weight times the sinusoidal block, minus the base table. -/
theorem pay18_apply (relb : Vec Ideal S824x256 .f32) (cw2 cw0 : Vec Ideal S1x1 .f32) (peb : Vec Ideal S512x256 .f32)
    (s : Fin 512) (d : Fin 256) :
    k0_pay18 (F := Ideal) (k0_pay3 relb) (k0_pay4 relb) k0_pay5 cw2 cw0 peb (ix3 0 s d)
      = cw0 (ix2 0 0) * peb (ix2 s d) - cw2 (ix2 0 0) * band relb s d := by
  unfold k0_pay18
  refine (addUnit_apply _ s d).trans ?_
  show extractAt ![0, 0] cw0 inpos_S1x1_p0_0 * shapeCast S512x256 peb shapeCasts_S512x256_S512x256 (ix2 s d)
      - k0_pay16 (F := Ideal) (k0_pay3 relb) (k0_pay4 relb) k0_pay5 cw2 (ix2 s d) = _
  rw [extractAt_one, shapeCast_self, pay16_apply]

/-- The second excess: the second mixing weight times the learned block, minus the base table. -/
theorem pay19_apply (relb : Vec Ideal S824x256 .f32) (cw2 cw1 : Vec Ideal S1x1 .f32) (posb : Vec Ideal S512x256 .f32)
    (s : Fin 512) (d : Fin 256) :
    k0_pay19 (F := Ideal) (k0_pay3 relb) (k0_pay4 relb) k0_pay5 cw2 cw1 posb (ix3 0 s d)
      = cw1 (ix2 0 0) * posb (ix2 s d) - cw2 (ix2 0 0) * band relb s d := by
  unfold k0_pay19
  refine (addUnit_apply _ s d).trans ?_
  show extractAt ![0, 0] cw1 inpos_S1x1_p0_0 * shapeCast S512x256 posb shapeCasts_S512x256_S512x256 (ix2 s d)
      - k0_pay16 (F := Ideal) (k0_pay3 relb) (k0_pay4 relb) k0_pay5 cw2 (ix2 s d) = _
  rw [extractAt_one, shapeCast_self, pay16_apply]

end Cert.KernelIdeal.KerTables

end
-- ==== Proof.KerPieces.lean ====
/-
  What one grid point's body leaves in its buffers, read entry by entry.

  The shared vocabulary of the three readings: the c-th sequence of a staged batch block, the first row of a [1, n]
  block, and the three kept tables as one function of (table, position, feature) of the staged inputs.
-/
import proofs.«144965_g11562051961505_week1_w4_918_31_alg».proof.Proof.Gen.KernelIdeal.Frame
import proofs.«144965_g11562051961505_week1_w4_918_31_alg».proof.Proof.Spec
import proofs.«144965_g11562051961505_week1_w4_918_31_alg».proof.Proof.KerTables

noncomputable section

namespace Cert.KernelIdeal.KerPieces

open Cert.KernelIdeal Cert.KernelIdeal.Gen Idealize.ShloMosaic Idealize.ShloMosaic.TcCoe Idealize.ShloMosaic.ValueIdx

/-- Sequence c of a staged batch block. -/
def xrow (x0 : Vec Ideal S8x512x256 .f32) (c : Fin 8) : Fin 512 → Fin 256 → EReal := fun s d => x0 (ix3 c s d)

/-- The one row of a [1, n] block. -/
def row0 {n : ℕ} (v : (⟨2, ![1, n]⟩ : Shape).Idx → EReal) : Fin n → EReal := fun j => v (ix2 0 j)

/-- The three kept tables of the staged inputs: the base cw₂ * band, and the excesses of cw₀ * pe and cw₁ * pos over it. -/
def tabF (x1 x2 : Vec Ideal S512x256 .f32) (x3 : Vec Ideal S824x256 .f32) (x8 : Vec Ideal S1x3 .f32) (r : Fin 3)
    (s : Fin 512) (d : Fin 256) : EReal :=
  match r with
  | ⟨0, _⟩ => x8 (ix2 0 2) * KerTables.band x3 s d
  | ⟨1, _⟩ => x8 (ix2 0 0) * x1 (ix2 s d) - x8 (ix2 0 2) * KerTables.band x3 s d
  | ⟨_ + 2, _⟩ => x8 (ix2 0 1) * x2 (ix2 s d) - x8 (ix2 0 2) * KerTables.band x3 s d

/-- One output entry: wsum * x + (t0 + p0 * t1 + p1 * t2) for the c-th sequence of the block. -/
def outF (x0 : Vec Ideal S8x512x256 .f32) (x4 : Vec Ideal S128x256 .f32) (x5 : Vec Ideal S1x128 .f32)
    (x6 : Vec Ideal S3x128 .f32) (x7 x8 : Vec Ideal S1x3 .f32) (t : Fin 3 → Fin 512 → Fin 256 → EReal)
    (c : Fin 8) (s : Fin 512) (d : Fin 256) : EReal :=
  Cert.Spec.wsum (xrow x0 c) (Cert.Spec.a2 x4) (row0 x5) (Cert.Spec.a2 x6) (row0 x7) (row0 x8) * x0 (ix3 c s d)
    + (t 0 s d + Cert.Spec.prob (xrow x0 c) (Cert.Spec.a2 x4) (row0 x5) (Cert.Spec.a2 x6) (row0 x7) 0 * t 1 s d
      + Cert.Spec.prob (xrow x0 c) (Cert.Spec.a2 x4) (row0 x5) (Cert.Spec.a2 x6) (row0 x7) 1 * t 2 s d)

end Cert.KernelIdeal.KerPieces

end
-- ==== Proof.KerProb.lean ====
/-
  The kernel's strategy weights, read entry by entry.

  At a grid point the body loads the eight sequences of its batch block one by one, sums each over its 512 positions,
  stacks the eight sums, scales by 1/512, and runs the perceptron and the softmax on the stack. Entry (c, k) of the
  weights is the specification's prob of the c-th loaded sequence at k; entry (c, 0) of the total is its wsum.
-/
import proofs.«144965_g11562051961505_week1_w4_918_31_alg».proof.Proof.Gen.KernelIdeal.Skeleton
import proofs.«144965_g11562051961505_week1_w4_918_31_alg».proof.Proof.Spec
import proofs.«144965_g11562051961505_week1_w4_918_31_alg».proof.Proof.LibIdealReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerProb

open Cert.KernelIdeal Cert.KernelIdeal.Gen Idealize.ShloMosaic Idealize.ShloMosaic.TcCoe Idealize.ShloMosaic.ValueIdx
open scoped BigOperators

/-- Sequence c among eight loaded rows, as a function of position and feature. -/
def rowsel (r0 r1 r2 r3 r4 r5 r6 r7 : Vec Ideal S1x512x256 .f32) (c : Fin 8) : Fin 512 → Fin 256 → EReal :=
  fun s d =>
    (match c with
      | ⟨0, _⟩ => r0 | ⟨1, _⟩ => r1 | ⟨2, _⟩ => r2 | ⟨3, _⟩ => r3
      | ⟨4, _⟩ => r4 | ⟨5, _⟩ => r5 | ⟨6, _⟩ => r6 | ⟨_ + 7, _⟩ => r7) (ix3 0 s d)

/-! ## Layout operations of a column, read at an index -/

section Layout
variable {α : Type}

/-- A vector read as a one-column array holds, at row i, the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A one-column array broadcast along its rows reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions of a matrix along one axis, read at an index -/

/-- The sum of an [a, b] array over its rows, at column d. -/
theorem sum_axis0_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (d : Fin b) :
    multiReduction .add [0] ⟨1, ![b]⟩ x 0x00000000#32 h hφ hacc (ix1 d) = ∑ s : Fin a, x (ix2 s d) := by
  refine (Ideal.multiReduction_add_single x _ h hφ hacc (ix1 d)).trans ?_
  show ∑ s : Fin a, x (h.lift (ix1 d) s) = _
  refine Finset.sum_congr rfl fun s _ => congrArg x (funext fun ax => Fin.ext ?_)
  match ax with
  | ⟨0, _⟩ => rfl
  | ⟨1, _⟩ => rfl

/-- The sum of an [a, b] array over its columns, at row p. -/
theorem sum_axis1_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x _ h hφ hacc (ix1 p)).trans ?_
  show ∑ k : Fin b, x (h.lift (ix1 p) k) = _
  refine Finset.sum_congr rfl fun k _ => congrArg x (funext fun ax => Fin.ext ?_)
  match ax with
  | ⟨0, _⟩ => rfl
  | ⟨1, _⟩ => rfl

/-- The maximum of an [a, b] array over its columns from -∞, at row p: the fold of max from ⊥. -/
theorem max_axis1_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ x 0xFF800000#32 h hφ hacc (ix1 p)
      = (Finset.univ : Finset (Fin b)).fold max ⊥ (fun k => x (ix2 p k)) := by
  refine (Ideal.multiReduction_maximumf_single x _ h hφ hacc (ix1 p)).trans ?_
  show (Finset.univ : Finset (Fin b)).fold max (Ideal.ofBits .f32 0xFF800000#32) (fun k => x (h.lift (ix1 p) k)) = _
  rw [Cert.LibIdealReal.ofBits_neg_inf_f32]
  refine Finset.fold_congr fun k _ => congrArg x (funext fun ax => Fin.ext ?_)
  match ax with
  | ⟨0, _⟩ => rfl
  | ⟨1, _⟩ => rfl

/-! ## A product with both operands contracted on their second axis, read at an entry -/

section ABt
variable {M K N : ℕ}

/-- The left operand's row coordinate is the output's row. -/
theorem abt_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row coordinate is the output's column. -/
theorem abt_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (r, c) of the product of an [M, K] array with the transpose of an [N, K] array, into the zero accumulator, is
    the sum over k of a (r, k) * b (c, k). -/
theorem matmul_abt_apply (prec : Option ContractPrecision) {φ₁ φ₂ : FTy} (a : FVec Ideal ⟨2, ![M, K]⟩ φ₁)
    (b : FVec Ideal ⟨2, ![N, K]⟩ φ₂) (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun x => Fin.ext (by
      match x with
      | ⟨0, _⟩ => exact abt_lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun x => Fin.ext (by
      match x with
      | ⟨0, _⟩ => exact abt_rhs_row _ _
      | ⟨1, _⟩ => exact ((DotDims.transposedRhs M K N).rhsIdx_val_of_single rfl _ _).trans hk)
  rw [el, er]

end ABt

/-! ## Constants -/

/-- The word of 0.001953125 denotes the real 1/512. -/
theorem ofBits_inv512_f32 : Ideal.ofBits .f32 0x3B000000#32 = ((1 / 512 : ℝ) : EReal) := by
  simp [Ideal.ofBits, Ideal.ieee, -EReal.coe_mul]; norm_num

/-! ## The eight summed sequences, stacked -/

/-- A loaded sequence summed over its positions and laid as one row: at column d, the sum over s of the sequence at (s, d). -/
theorem rowsum_apply (r : Vec Ideal S1x512x256 .f32) (u : Fin 1) (d : Fin 256) :
    shapeCast S1x256 (multiReduction (F := Ideal) (φ := .f32) .add [0] S256 (shapeCast S512x256 r shapeCasts_S1x512x256_S512x256) 0x00000000#32
        reduces_S512x256_S256 (.inl rfl) rfl) shapeCasts_S256_S1x256 (ix2 u d) = ∑ s : Fin 512, r (ix3 0 s d) := by
  refine (shapeCast_a_1a_apply _ _ u d).trans ?_
  refine (sum_axis0_apply _ _ _ _ d).trans ?_
  exact Finset.sum_congr rfl fun s _ => shapeCast_1ab_ab_apply r _ s d

/-- Row c of the stack holds the sums of the c-th loaded sequence. -/
theorem stack_apply (r0 r1 r2 r3 r4 r5 r6 r7 : Vec Ideal S1x512x256 .f32) (c : Fin 8) (d : Fin 256) :
    concatenate S8x256 0 [⟨S1x256, k0_pay11 r0⟩, ⟨S1x256, k0_pay12 r1⟩, ⟨S1x256, k0_pay13 r2⟩,
        ⟨S1x256, shapeCast S1x256 (k0_pay6 r3) shapeCasts_S256_S1x256⟩, ⟨S1x256, shapeCast S1x256 (k0_pay7 r4) shapeCasts_S256_S1x256⟩,
        ⟨S1x256, shapeCast S1x256 (k0_pay8 r5) shapeCasts_S256_S1x256⟩, ⟨S1x256, shapeCast S1x256 (k0_pay9 r6) shapeCasts_S256_S1x256⟩,
        ⟨S1x256, shapeCast S1x256 (k0_pay10 r7) shapeCasts_S256_S1x256⟩]
        concatenates_S1x256_S1x256_S1x256_S1x256_S1x256_S1x256_S1x256_S1x256_S8x256_d0 (ix2 c d)
      = ∑ s : Fin 512, rowsel r0 r1 r2 r3 r4 r5 r6 r7 c s d := by
  have hi : ∀ (c : Fin 8) (b : Fin S1x256.rank), b.cast (rfl : S1x256.rank = S8x256.rank) ≠ (0 : Fin S8x256.rank) →
      (ix2 (0 : Fin 1) d b).val = (ix2 c d (b.cast (rfl : S1x256.rank = S8x256.rank))).val := fun c b hb =>
    match b, hb with
    | ⟨0, _⟩, hb => absurd rfl hb
    | ⟨1, _⟩, _ => rfl
  match c with
  | ⟨0, h⟩ =>
    exact (concatenate_apply_piece (0 : Fin S8x256.rank) _ _ (ix2 ⟨0, h⟩ d) 0 (by show (0 : ℕ) < 8; decide) S1x256 _ rfl rfl 0 rfl
      (ix2 (0 : Fin 1) d) (hi _) rfl).trans (rowsum_apply r0 0 d)
  | ⟨1, h⟩ =>
    exact (concatenate_apply_piece (0 : Fin S8x256.rank) _ _ (ix2 ⟨1, h⟩ d) 1 (by show (1 : ℕ) < 8; decide) S1x256 _ rfl rfl 1 rfl
      (ix2 (0 : Fin 1) d) (hi _) rfl).trans (rowsum_apply r1 0 d)
  | ⟨2, h⟩ =>
    exact (concatenate_apply_piece (0 : Fin S8x256.rank) _ _ (ix2 ⟨2, h⟩ d) 2 (by show (2 : ℕ) < 8; decide) S1x256 _ rfl rfl 2 rfl
      (ix2 (0 : Fin 1) d) (hi _) rfl).trans (rowsum_apply r2 0 d)
  | ⟨3, h⟩ =>
    exact (concatenate_apply_piece (0 : Fin S8x256.rank) _ _ (ix2 ⟨3, h⟩ d) 3 (by show (3 : ℕ) < 8; decide) S1x256 _ rfl rfl 3 rfl
      (ix2 (0 : Fin 1) d) (hi _) rfl).trans (rowsum_apply r3 0 d)
  | ⟨4, h⟩ =>
    exact (concatenate_apply_piece (0 : Fin S8x256.rank) _ _ (ix2 ⟨4, h⟩ d) 4 (by show (4 : ℕ) < 8; decide) S1x256 _ rfl rfl 4 rfl
      (ix2 (0 : Fin 1) d) (hi _) rfl).trans (rowsum_apply r4 0 d)
  | ⟨5, h⟩ =>
    exact (concatenate_apply_piece (0 : Fin S8x256.rank) _ _ (ix2 ⟨5, h⟩ d) 5 (by show (5 : ℕ) < 8; decide) S1x256 _ rfl rfl 5 rfl
      (ix2 (0 : Fin 1) d) (hi _) rfl).trans (rowsum_apply r5 0 d)
  | ⟨6, h⟩ =>
    exact (concatenate_apply_piece (0 : Fin S8x256.rank) _ _ (ix2 ⟨6, h⟩ d) 6 (by show (6 : ℕ) < 8; decide) S1x256 _ rfl rfl 6 rfl
      (ix2 (0 : Fin 1) d) (hi _) rfl).trans (rowsum_apply r6 0 d)
  | ⟨7, h⟩ =>
    exact (concatenate_apply_piece (0 : Fin S8x256.rank) _ _ (ix2 ⟨7, h⟩ d) 7 (by show (7 : ℕ) < 8; decide) S1x256 _ rfl rfl 7 rfl
      (ix2 (0 : Fin 1) d) (hi _) rfl).trans (rowsum_apply r7 0 d)

/-! ## The perceptron and the softmax on the stack, stage by stage

  Each stage of the block's computation is named as a function of the stage before it, and read at an entry. -/

/-- The stack of the eight summed sequences. -/
def stackK (r0 r1 r2 r3 r4 r5 r6 r7 : Vec Ideal S1x512x256 .f32) : FVec Ideal S8x256 .f32 :=
  concatenate S8x256 0 [⟨S1x256, k0_pay11 r0⟩, ⟨S1x256, k0_pay12 r1⟩, ⟨S1x256, k0_pay13 r2⟩,
    ⟨S1x256, shapeCast S1x256 (k0_pay6 r3) shapeCasts_S256_S1x256⟩, ⟨S1x256, shapeCast S1x256 (k0_pay7 r4) shapeCasts_S256_S1x256⟩,
    ⟨S1x256, shapeCast S1x256 (k0_pay8 r5) shapeCasts_S256_S1x256⟩, ⟨S1x256, shapeCast S1x256 (k0_pay9 r6) shapeCasts_S256_S1x256⟩,
    ⟨S1x256, shapeCast S1x256 (k0_pay10 r7) shapeCasts_S256_S1x256⟩]
    concatenates_S1x256_S1x256_S1x256_S1x256_S1x256_S1x256_S1x256_S1x256_S8x256_d0

/-- The stack scaled by the word of 1/512. -/
def scaledK (X : FVec Ideal S8x256 .f32) : FVec Ideal S8x256 .f32 :=
  mulf X (broadcast S8x256 (Scalar.ofBits .f32 0x3B000000#32))

/-- The hidden layer: the product with W1 transposed, the bias row added, clipped below at zero. -/
def hiddenK (Y : FVec Ideal S8x256 .f32) (W1b : Vec Ideal S128x256 .f32) (b1b : Vec Ideal S1x128 .f32) : FVec Ideal S8x128 .f32 :=
  maximumf (addf (matmul (φ₂ := .f32) dot_S8x256_S128x256_S8x128_1_1_0_0_n_n none Y W1b (constant S8x128 .f32 0x00000000#32))
      (broadcastTo S8x128 (shapeCast S1x128 b1b shapeCasts_S1x128_S1x128) broadcasts_S1x128_S8x128))
    (broadcast S8x128 (Scalar.ofBits .f32 0x00000000#32))

/-- The logits: the product with W2 transposed, the bias row added. -/
def logitK (H : FVec Ideal S8x128 .f32) (W2b : Vec Ideal S3x128 .f32) (b2b : Vec Ideal S1x3 .f32) : FVec Ideal S8x3 .f32 :=
  addf (matmul (φ₂ := .f32) dot_S8x128_S3x128_S8x3_1_1_0_0_n_n none H W2b (constant S8x3 .f32 0x00000000#32))
    (broadcastTo S8x3 (shapeCast S1x3 b2b shapeCasts_S1x3_S1x3) broadcasts_S1x3_S8x3)

/-- The exponentials of the logits less their row's maximum. -/
def expK (L : FVec Ideal S8x3 .f32) : FVec Ideal S8x3 .f32 :=
  exp (subf L (broadcastTo S8x3 (shapeCast S8x1 (multiReduction .maximumf [1] S8 L 0xFF800000#32 reduces_S8x3_S8 (.inl rfl) rfl)
    shapeCasts_S8_S8x1) broadcasts_S8x1_S8x3))

/-- Each entry divided by its row's sum. -/
def normK (E : FVec Ideal S8x3 .f32) : FVec Ideal S8x3 .f32 :=
  divf E (broadcastTo S8x3 (shapeCast S8x1 (multiReduction .add [1] S8 E 0x00000000#32 reduces_S8x3_S8 (.inl rfl) rfl)
    shapeCasts_S8_S8x1) broadcasts_S8x1_S8x3)

/-- The block's weights are the stages composed. -/
theorem pay14_eq (r0 r1 r2 r3 r4 r5 r6 r7 : Vec Ideal S1x512x256 .f32) (W1b : Vec Ideal S128x256 .f32) (b1b : Vec Ideal S1x128 .f32)
    (W2b : Vec Ideal S3x128 .f32) (b2b : Vec Ideal S1x3 .f32) :
    k0_pay14 (F := Ideal) (k0_pay6 r3) (k0_pay7 r4) (k0_pay8 r5) (k0_pay9 r6) (k0_pay10 r7) (k0_pay11 r0) (k0_pay12 r1) (k0_pay13 r2) W1b b1b W2b b2b
      = normK (expK (logitK (hiddenK (scaledK (stackK r0 r1 r2 r3 r4 r5 r6 r7)) W1b b1b) W2b b2b)) := rfl

/-- Row c of the stack holds the sums of the c-th loaded sequence. -/
theorem stackK_apply (r0 r1 r2 r3 r4 r5 r6 r7 : Vec Ideal S1x512x256 .f32) (c : Fin 8) (d : Fin 256) :
    stackK r0 r1 r2 r3 r4 r5 r6 r7 (ix2 c d) = ∑ s : Fin 512, rowsel r0 r1 r2 r3 r4 r5 r6 r7 c s d :=
  stack_apply r0 r1 r2 r3 r4 r5 r6 r7 c d

/-- The scaled stack at (c, d): the stack's entry times 1/512. -/
theorem scaledK_apply (X : FVec Ideal S8x256 .f32) (c : Fin 8) (d : Fin 256) :
    scaledK X (ix2 c d) = X (ix2 c d) * Cert.Spec.invS := by
  show X (ix2 c d) * Ideal.ofBits .f32 0x3B000000#32 = _
  rw [ofBits_inv512_f32]; rfl

/-- The hidden layer at (c, j): max (∑ d, Y (c, d) * W1 (j, d) + b1 j) 0. -/
theorem hiddenK_apply (Y : FVec Ideal S8x256 .f32) (W1b : Vec Ideal S128x256 .f32) (b1b : Vec Ideal S1x128 .f32) (c : Fin 8) (j : Fin 128) :
    hiddenK Y W1b b1b (ix2 c j) = max (∑ d : Fin 256, Y (ix2 c d) * W1b (ix2 j d) + b1b (ix2 0 j)) 0 := by
  show max (FloatOps.matmul (φ₂ := .f32) (DotDims.transposedRhs 8 256 128) none Y W1b (constant ⟨2, ![8, 128]⟩ .f32 0x00000000#32) (ix2 c j)
      + broadcastTo S8x128 (shapeCast S1x128 b1b shapeCasts_S1x128_S1x128) broadcasts_S1x128_S8x128 (ix2 c j))
    (Ideal.ofBits .f32 0x00000000#32) = _
  exact congrArg₂ max (congrArg₂ (· + ·) (matmul_abt_apply (φ₂ := .f32) none Y W1b c j)
    ((broadcastTo_1b_ab_apply _ _ c j).trans (congrFun (shapeCast_self b1b _) _))) Ideal.ofBits_zero_f32

/-- The logits at (c, k): ∑ j, H (c, j) * W2 (k, j) + b2 k. -/
theorem logitK_apply (H : FVec Ideal S8x128 .f32) (W2b : Vec Ideal S3x128 .f32) (b2b : Vec Ideal S1x3 .f32) (c : Fin 8) (k : Fin 3) :
    logitK H W2b b2b (ix2 c k) = ∑ j : Fin 128, H (ix2 c j) * W2b (ix2 k j) + b2b (ix2 0 k) := by
  show FloatOps.matmul (φ₂ := .f32) (DotDims.transposedRhs 8 128 3) none H W2b (constant ⟨2, ![8, 3]⟩ .f32 0x00000000#32) (ix2 c k)
      + broadcastTo S8x3 (shapeCast S1x3 b2b shapeCasts_S1x3_S1x3) broadcasts_S1x3_S8x3 (ix2 c k) = _
  exact congrArg₂ (· + ·) (matmul_abt_apply (φ₂ := .f32) none H W2b c k)
    ((broadcastTo_1b_ab_apply _ _ c k).trans (congrFun (shapeCast_self b2b _) _))

/-- The shifted exponentials at (c, k): exp of the logit less the fold of max from -∞ over the row. -/
theorem expK_apply (L : FVec Ideal S8x3 .f32) (c : Fin 8) (k : Fin 3) :
    expK L (ix2 c k) = Ideal.exp (L (ix2 c k) - (Finset.univ : Finset (Fin 3)).fold max ⊥ (fun k' => L (ix2 c k'))) := by
  show Ideal.exp (L (ix2 c k) - broadcastTo S8x3 (shapeCast S8x1
    (multiReduction .maximumf [1] S8 L 0xFF800000#32 reduces_S8x3_S8 (.inl rfl) rfl) shapeCasts_S8_S8x1) broadcasts_S8x1_S8x3 (ix2 c k)) = _
  exact congrArg (fun t => Ideal.exp (L (ix2 c k) - t))
    (((broadcastTo_a1_ab_apply _ _ c k).trans (shapeCast_a_a1_apply _ _ c 0)).trans (max_axis1_apply L _ _ _ c))

/-- The normalized entry at (c, k): the entry divided by the sum over the row. -/
theorem normK_apply (E : FVec Ideal S8x3 .f32) (c : Fin 8) (k : Fin 3) :
    normK E (ix2 c k) = Ideal.div (E (ix2 c k)) (∑ k' : Fin 3, E (ix2 c k')) := by
  show Ideal.div (E (ix2 c k)) (broadcastTo S8x3 (shapeCast S8x1
    (multiReduction .add [1] S8 E 0x00000000#32 reduces_S8x3_S8 (.inl rfl) rfl) shapeCasts_S8_S8x1) broadcasts_S8x1_S8x3 (ix2 c k)) = _
  exact congrArg (fun t => Ideal.div (E (ix2 c k)) t)
    (((broadcastTo_a1_ab_apply _ _ c k).trans (shapeCast_a_a1_apply _ _ c 0)).trans (sum_axis1_apply E _ _ _ c))

/-! ## The stages against the specification -/

section AgainstSpec
variable (r0 r1 r2 r3 r4 r5 r6 r7 : Vec Ideal S1x512x256 .f32) (W1b : Vec Ideal S128x256 .f32) (b1b : Vec Ideal S1x128 .f32)
  (W2b : Vec Ideal S3x128 .f32) (b2b : Vec Ideal S1x3 .f32) (c : Fin 8)

/-- The hidden layer of row c is the specification's, on the c-th loaded sequence. -/
theorem hidden_eq (j : Fin 128) :
    hiddenK (scaledK (stackK r0 r1 r2 r3 r4 r5 r6 r7)) W1b b1b (ix2 c j)
      = Cert.Spec.hid (rowsel r0 r1 r2 r3 r4 r5 r6 r7 c) (Cert.Spec.a2 W1b) (fun j => b1b (ix2 0 j)) j := by
  rw [hiddenK_apply]
  unfold Cert.Spec.hid Cert.Spec.mean
  refine congrArg (fun t => max (t + b1b (ix2 0 j)) 0) (Finset.sum_congr rfl fun d _ => ?_)
  rw [scaledK_apply, stackK_apply]

/-- The logits of row c are the specification's. -/
theorem logit_eq (k : Fin 3) :
    logitK (hiddenK (scaledK (stackK r0 r1 r2 r3 r4 r5 r6 r7)) W1b b1b) W2b b2b (ix2 c k)
      = Cert.Spec.logit (rowsel r0 r1 r2 r3 r4 r5 r6 r7 c) (Cert.Spec.a2 W1b) (fun j => b1b (ix2 0 j)) (Cert.Spec.a2 W2b)
          (fun k' => b2b (ix2 0 k')) k := by
  rw [logitK_apply]
  unfold Cert.Spec.logit
  refine congrArg (fun t => t + b2b (ix2 0 k)) (Finset.sum_congr rfl fun j _ => ?_)
  rw [hidden_eq]

/-- The shifted exponentials of row c are the specification's. -/
theorem ex_eq (k : Fin 3) :
    expK (logitK (hiddenK (scaledK (stackK r0 r1 r2 r3 r4 r5 r6 r7)) W1b b1b) W2b b2b) (ix2 c k)
      = Cert.Spec.ex (rowsel r0 r1 r2 r3 r4 r5 r6 r7 c) (Cert.Spec.a2 W1b) (fun j => b1b (ix2 0 j)) (Cert.Spec.a2 W2b)
          (fun k' => b2b (ix2 0 k')) k := by
  rw [expK_apply]
  unfold Cert.Spec.ex Cert.Spec.lmax
  exact congrArg₂ (fun a b => Ideal.exp (a - b)) (logit_eq r0 r1 r2 r3 r4 r5 r6 r7 W1b b1b W2b b2b c k)
    (Finset.fold_congr fun k' _ => logit_eq r0 r1 r2 r3 r4 r5 r6 r7 W1b b1b W2b b2b c k')

end AgainstSpec

/-- Entry (c, k) of the block's softmax weights is the specification's weight of the c-th loaded sequence. -/
theorem pay14_apply (r0 r1 r2 r3 r4 r5 r6 r7 : Vec Ideal S1x512x256 .f32) (W1b : Vec Ideal S128x256 .f32) (b1b : Vec Ideal S1x128 .f32) (W2b : Vec Ideal S3x128 .f32)
    (b2b : Vec Ideal S1x3 .f32) (c : Fin 8) (k : Fin 3) :
    k0_pay14 (F := Ideal) (k0_pay6 r3) (k0_pay7 r4) (k0_pay8 r5) (k0_pay9 r6) (k0_pay10 r7) (k0_pay11 r0) (k0_pay12 r1) (k0_pay13 r2) W1b b1b W2b b2b (ix2 c k)
      = Cert.Spec.prob (rowsel r0 r1 r2 r3 r4 r5 r6 r7 c) (Cert.Spec.a2 W1b) (fun j => b1b (ix2 0 j)) (Cert.Spec.a2 W2b)
          (fun k' => b2b (ix2 0 k')) k := by
  rw [pay14_eq, normK_apply]
  unfold Cert.Spec.prob
  exact congrArg₂ Ideal.div (ex_eq r0 r1 r2 r3 r4 r5 r6 r7 W1b b1b W2b b2b c k)
    (Finset.sum_congr rfl fun k' _ => ex_eq r0 r1 r2 r3 r4 r5 r6 r7 W1b b1b W2b b2b c k')

/-- Entry (c, 0) of the block's weight totals is the specification's wsum of the c-th loaded sequence. -/
theorem pay15_apply (r0 r1 r2 r3 r4 r5 r6 r7 : Vec Ideal S1x512x256 .f32) (W1b : Vec Ideal S128x256 .f32) (b1b : Vec Ideal S1x128 .f32) (W2b : Vec Ideal S3x128 .f32)
    (b2b : Vec Ideal S1x3 .f32) (cwb : Vec Ideal S1x3 .f32) (c : Fin 8) :
    k0_pay15 (F := Ideal) (k0_pay6 r3) (k0_pay7 r4) (k0_pay8 r5) (k0_pay9 r6) (k0_pay10 r7) (k0_pay11 r0) (k0_pay12 r1) (k0_pay13 r2) W1b b1b W2b b2b cwb (ix2 c 0)
      = Cert.Spec.wsum (rowsel r0 r1 r2 r3 r4 r5 r6 r7 c) (Cert.Spec.a2 W1b) (fun j => b1b (ix2 0 j)) (Cert.Spec.a2 W2b)
          (fun k' => b2b (ix2 0 k')) (fun k' => cwb (ix2 0 k')) := by
  unfold k0_pay15
  refine (shapeCast_a_a1_apply _ _ c 0).trans ?_
  refine (sum_axis1_apply _ _ _ _ c).trans ?_
  unfold Cert.Spec.wsum
  refine Finset.sum_congr rfl fun k _ => ?_
  exact congrArg₂ (· * ·) (pay14_apply r0 r1 r2 r3 r4 r5 r6 r7 W1b b1b W2b b2b c k)
    ((broadcastTo_1b_ab_apply _ _ c k).trans (congrFun (shapeCast_self cwb _) _))

end Cert.KernelIdeal.KerProb

end
-- ==== Proof.KerOut.lean ====
/-
  The eight stores of a grid point's output block, read entry by entry.

  For each sequence c of the block the body stores wsum[c] * x[c] + (t0 + p[c,0] * t1 + p[c,1] * t2), where t0, t1, t2 are
  the three kept tables and p, wsum the block's strategy weights and their totals. The eight stores differ only in where
  the straight-line text was cut into named values; each reads at (0, s, d) as that one formula.

  Every step is pointwise or a change of layout: a cast between [1, 512, 256] and [512, 256] keeps the entry at (s, d), a
  [1, 1] window of the weights at the offset (c, k) holds the weight (c, k), its broadcast to [512, 256] repeats it, and
  the narrowing and widening conversions are the identity on ideal values. Two lemmas carry the arithmetic: the running sum
  t0 + w * t1, and the stored value ws * x + (acc + w * t2) over any running sum acc.
-/
import proofs.«144965_g11562051961505_week1_w4_918_31_alg».proof.Proof.Gen.KernelIdeal.Skeleton
import proofs.«144965_g11562051961505_week1_w4_918_31_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerOut

open Cert.KernelIdeal Cert.KernelIdeal.Gen Idealize.ShloMosaic Idealize.ShloMosaic.TcCoe Idealize.ShloMosaic.ValueIdx

/-! ## The layout steps read at coordinates -/

section Steps

variable {α : Type}

/-- A [1, 512, 256] array cast to [512, 256] reads, at (s, d), the operand at (0, s, d). -/
theorem drop_apply (x : S1x512x256.Idx → α) (s : Fin 512) (d : Fin 256) :
    shapeCast S512x256 x shapeCasts_S1x512x256_S512x256 (ix2 s d) = x (ix3 0 s d) :=
  shapeCast_1ab_ab_apply x shapeCasts_S1x512x256_S512x256 s d

/-- A [512, 256] array cast to [1, 512, 256] reads, at (0, s, d), the operand at (s, d). -/
theorem lift_apply (x : S512x256.Idx → α) (s : Fin 512) (d : Fin 256) :
    shapeCast S1x512x256 x shapeCasts_S512x256_S1x512x256 (ix3 0 s d) = x (ix2 s d) :=
  shapeCast_ab_1ab_apply x shapeCasts_S512x256_S1x512x256 0 s d

/-- A [1, 1] array broadcast to [512, 256] reads its one entry everywhere. -/
theorem spread_apply (w : S1x1.Idx → α) (s : Fin 512) (d : Fin 256) :
    broadcastTo S512x256 w broadcasts_S1x1_S512x256 (ix2 s d) = w (ix2 0 0) := by
  refine broadcastTo_apply w broadcasts_S1x1_S512x256 (ix2 s d) (ix2 0 0) fun ax => ?_
  match ax with
  | ⟨0, _⟩ => rfl
  | ⟨1, _⟩ => rfl

/-- The [1, 1] window of a matrix at the offset (r, c) holds the matrix's entry (r, c). -/
theorem window_apply {n0 n1 : ℕ} (X : (⟨2, ![n0, n1]⟩ : Shape).Idx → α) (off : Fin 2 → ℕ)
    (h : (⟨2, ![n0, n1]⟩ : Shape).Slices off S1x1) (r : Fin n0) (c : Fin n1) (hr : r.val = off 0) (hc : c.val = off 1) :
    extractStridedSlice S1x1 off X h (ix2 0 0) = X (ix2 r c) := by
  refine extractStridedSlice_apply off X h (ix2 0 0) (ix2 r c) fun ax => ?_
  match ax with
  | ⟨0, _⟩ => exact hr
  | ⟨1, _⟩ => exact hc

end Steps

/-! ## The shared core of the eight stores -/

section Core

/-- The running sum of one sequence's tables after its first weighted table: t0 + w * t1 at (s, d). -/
theorem head_apply (w : FVec Ideal S1x1 .bf16) (t0 t1 : FVec Ideal S1x512x256 .bf16) (s : Fin 512) (d : Fin 256) :
    addf (shapeCast S512x256 t0 shapeCasts_S1x512x256_S512x256)
        (mulf (broadcastTo S512x256 w broadcasts_S1x1_S512x256) (shapeCast S512x256 t1 shapeCasts_S1x512x256_S512x256)) (ix2 s d)
      = t0 (ix3 0 s d) + w (ix2 0 0) * t1 (ix3 0 s d) := by
  rw [addf_apply, mulf_apply, drop_apply, drop_apply, spread_apply]

/-- The stored block of one sequence from the running sum acc, the last weight w and the total ws:
    ws * x + (acc + w * t2) at (0, s, d). -/
theorem tail_apply (ws : FVec Ideal S1x1 .f32) (acc : FVec Ideal S512x256 .bf16) (w : FVec Ideal S1x1 .bf16)
    (t2 : FVec Ideal S1x512x256 .bf16) (xr : FVec Ideal S1x512x256 .f32) (s : Fin 512) (d : Fin 256) :
    shapeCast S1x512x256
        (addf (mulf (broadcastTo S512x256 ws broadcasts_S1x1_S512x256) (shapeCast S512x256 xr shapeCasts_S1x512x256_S512x256))
          (extf .f32 (addf acc (mulf (broadcastTo S512x256 w broadcasts_S1x1_S512x256)
            (shapeCast S512x256 t2 shapeCasts_S1x512x256_S512x256))) bitsLt_bf16_f32))
        shapeCasts_S512x256_S1x512x256 (ix3 0 s d)
      = ws (ix2 0 0) * xr (ix3 0 s d) + (acc (ix2 s d) + w (ix2 0 0) * t2 (ix3 0 s d)) := by
  rw [lift_apply, addf_apply, mulf_apply, extf_apply, addf_apply, mulf_apply, drop_apply, drop_apply, spread_apply,
    spread_apply]

end Core

/-! ## The eight stores -/

/-- The store of sequence 0: wsum * x + (t0 + p0 * t1 + p1 * t2) at (0, s, d). -/
theorem out0_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay21 (F := Ideal) v57 v63 t0 t1 t2 xr (ix3 0 s d)
      = v63 (ix2 0 0) * xr (ix3 0 s d) + (t0 (ix3 0 s d) + v57 (ix2 0 0) * t1 (ix3 0 s d) + v57 (ix2 0 1) * t2 (ix3 0 s d)) := by
  unfold k0_pay21 k0_pay20
  refine (tail_apply _ _ _ _ _ s d).trans ?_
  rw [head_apply, window_apply v63 ![0, 0] slices_S8x1_o0_0_S1x1 0 0 rfl rfl,
    window_apply (truncf .bf16 v57 bitsLt_bf16_f32) ![0, 0] slices_S8x3_o0_0_S1x1 0 0 rfl rfl,
    window_apply (truncf .bf16 v57 bitsLt_bf16_f32) ![0, 1] slices_S8x3_o0_1_S1x1 0 1 rfl rfl, truncf_apply, truncf_apply]

/-- The store of sequence 1: wsum * x + (t0 + p0 * t1 + p1 * t2) at (0, s, d). -/
theorem out1_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay24 (F := Ideal) v63 (k0_pay22 v57 t0 t1) (k0_pay23 v57) t2 xr (ix3 0 s d)
      = v63 (ix2 1 0) * xr (ix3 0 s d) + (t0 (ix3 0 s d) + v57 (ix2 1 0) * t1 (ix3 0 s d) + v57 (ix2 1 1) * t2 (ix3 0 s d)) := by
  unfold k0_pay24 k0_pay22 k0_pay23 k0_pay20
  refine (tail_apply _ _ _ _ _ s d).trans ?_
  rw [head_apply, window_apply v63 ![1, 0] slices_S8x1_o1_0_S1x1 1 0 rfl rfl,
    window_apply (truncf .bf16 v57 bitsLt_bf16_f32) ![1, 0] slices_S8x3_o1_0_S1x1 1 0 rfl rfl,
    window_apply (truncf .bf16 v57 bitsLt_bf16_f32) ![1, 1] slices_S8x3_o1_1_S1x1 1 1 rfl rfl, truncf_apply, truncf_apply]

/-- The store of sequence 2: wsum * x + (t0 + p0 * t1 + p1 * t2) at (0, s, d). -/
theorem out2_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay25 (F := Ideal) v63 (k0_pay20 v57) t0 t1 t2 xr (ix3 0 s d)
      = v63 (ix2 2 0) * xr (ix3 0 s d) + (t0 (ix3 0 s d) + v57 (ix2 2 0) * t1 (ix3 0 s d) + v57 (ix2 2 1) * t2 (ix3 0 s d)) := by
  unfold k0_pay25 k0_pay20
  refine (tail_apply _ _ _ _ _ s d).trans ?_
  rw [head_apply, window_apply v63 ![2, 0] slices_S8x1_o2_0_S1x1 2 0 rfl rfl,
    window_apply (truncf .bf16 v57 bitsLt_bf16_f32) ![2, 0] slices_S8x3_o2_0_S1x1 2 0 rfl rfl,
    window_apply (truncf .bf16 v57 bitsLt_bf16_f32) ![2, 1] slices_S8x3_o2_1_S1x1 2 1 rfl rfl, truncf_apply, truncf_apply]

/-- The store of sequence 3: wsum * x + (t0 + p0 * t1 + p1 * t2) at (0, s, d). -/
theorem out3_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay26 (F := Ideal) v63 (k0_pay20 v57) t0 t1 t2 xr (ix3 0 s d)
      = v63 (ix2 3 0) * xr (ix3 0 s d) + (t0 (ix3 0 s d) + v57 (ix2 3 0) * t1 (ix3 0 s d) + v57 (ix2 3 1) * t2 (ix3 0 s d)) := by
  unfold k0_pay26 k0_pay20
  refine (tail_apply _ _ _ _ _ s d).trans ?_
  rw [head_apply, window_apply v63 ![3, 0] slices_S8x1_o3_0_S1x1 3 0 rfl rfl,
    window_apply (truncf .bf16 v57 bitsLt_bf16_f32) ![3, 0] slices_S8x3_o3_0_S1x1 3 0 rfl rfl,
    window_apply (truncf .bf16 v57 bitsLt_bf16_f32) ![3, 1] slices_S8x3_o3_1_S1x1 3 1 rfl rfl, truncf_apply, truncf_apply]

/-- The store of sequence 4: wsum * x + (t0 + p0 * t1 + p1 * t2) at (0, s, d). -/
theorem out4_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay29 (F := Ideal) v63 (k0_pay27 (k0_pay20 v57) t0 t1) (k0_pay28 (k0_pay20 v57)) t2 xr (ix3 0 s d)
      = v63 (ix2 4 0) * xr (ix3 0 s d) + (t0 (ix3 0 s d) + v57 (ix2 4 0) * t1 (ix3 0 s d) + v57 (ix2 4 1) * t2 (ix3 0 s d)) := by
  unfold k0_pay29 k0_pay27 k0_pay28 k0_pay20
  refine (tail_apply _ _ _ _ _ s d).trans ?_
  rw [head_apply, window_apply v63 ![4, 0] slices_S8x1_o4_0_S1x1 4 0 rfl rfl,
    window_apply (truncf .bf16 v57 bitsLt_bf16_f32) ![4, 0] slices_S8x3_o4_0_S1x1 4 0 rfl rfl,
    window_apply (truncf .bf16 v57 bitsLt_bf16_f32) ![4, 1] slices_S8x3_o4_1_S1x1 4 1 rfl rfl, truncf_apply, truncf_apply]

/-- The store of sequence 5: wsum * x + (t0 + p0 * t1 + p1 * t2) at (0, s, d). -/
theorem out5_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay30 (F := Ideal) v63 (k0_pay20 v57) t0 t1 t2 xr (ix3 0 s d)
      = v63 (ix2 5 0) * xr (ix3 0 s d) + (t0 (ix3 0 s d) + v57 (ix2 5 0) * t1 (ix3 0 s d) + v57 (ix2 5 1) * t2 (ix3 0 s d)) := by
  unfold k0_pay30 k0_pay20
  refine (tail_apply _ _ _ _ _ s d).trans ?_
  rw [head_apply, window_apply v63 ![5, 0] slices_S8x1_o5_0_S1x1 5 0 rfl rfl,
    window_apply (truncf .bf16 v57 bitsLt_bf16_f32) ![5, 0] slices_S8x3_o5_0_S1x1 5 0 rfl rfl,
    window_apply (truncf .bf16 v57 bitsLt_bf16_f32) ![5, 1] slices_S8x3_o5_1_S1x1 5 1 rfl rfl, truncf_apply, truncf_apply]

/-- The store of sequence 6: wsum * x + (t0 + p0 * t1 + p1 * t2) at (0, s, d). -/
theorem out6_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay31 (F := Ideal) v63 (k0_pay20 v57) t0 t1 t2 xr (ix3 0 s d)
      = v63 (ix2 6 0) * xr (ix3 0 s d) + (t0 (ix3 0 s d) + v57 (ix2 6 0) * t1 (ix3 0 s d) + v57 (ix2 6 1) * t2 (ix3 0 s d)) := by
  unfold k0_pay31 k0_pay20
  refine (tail_apply _ _ _ _ _ s d).trans ?_
  rw [head_apply, window_apply v63 ![6, 0] slices_S8x1_o6_0_S1x1 6 0 rfl rfl,
    window_apply (truncf .bf16 v57 bitsLt_bf16_f32) ![6, 0] slices_S8x3_o6_0_S1x1 6 0 rfl rfl,
    window_apply (truncf .bf16 v57 bitsLt_bf16_f32) ![6, 1] slices_S8x3_o6_1_S1x1 6 1 rfl rfl, truncf_apply, truncf_apply]

/-- The store of sequence 7: wsum * x + (t0 + p0 * t1 + p1 * t2) at (0, s, d). -/
theorem out7_apply (v57 : FVec Ideal S8x3 .f32) (v63 : FVec Ideal S8x1 .f32) (t0 t1 t2 : Vec Ideal S1x512x256 .bf16)
    (xr : Vec Ideal S1x512x256 .f32) (s : Fin 512) (d : Fin 256) :
    k0_pay1 (F := Ideal) v63 (k0_pay32 (k0_pay20 v57) t0 t1) (k0_pay33 (k0_pay20 v57)) t2 xr (ix3 0 s d)
      = v63 (ix2 7 0) * xr (ix3 0 s d) + (t0 (ix3 0 s d) + v57 (ix2 7 0) * t1 (ix3 0 s d) + v57 (ix2 7 1) * t2 (ix3 0 s d)) := by
  unfold k0_pay1 k0_pay32 k0_pay33 k0_pay20
  refine (tail_apply _ _ _ _ _ s d).trans ?_
  rw [head_apply, window_apply v63 ![7, 0] slices_S8x1_o7_0_S1x1 7 0 rfl rfl,
    window_apply (truncf .bf16 v57 bitsLt_bf16_f32) ![7, 0] slices_S8x3_o7_0_S1x1 7 0 rfl rfl,
    window_apply (truncf .bf16 v57 bitsLt_bf16_f32) ![7, 1] slices_S8x3_o7_1_S1x1 7 1 rfl rfl, truncf_apply, truncf_apply]

end Cert.KernelIdeal.KerOut

end
-- ==== Proof.KerTabRead.lean ====
/-
  Three stacked tables read back.

  A [3, 512, 256] buffer filled by three stores, table r through the rectangle of rows [r, r + 1), holds at (r, s, d) the
  r-th stored payload at (0, s, d); a load of rows [r, r + 1) after those stores reads the r-th payload.
-/
import proofs.«144965_g11562051961505_week1_w4_918_31_alg».proof.Proof.Gen.KernelIdeal.Frame
import Idealize.ShloMosaic.Lib.Pipeline.Value
import Idealize.ShloMosaic.Lib.ValueIdx
import Idealize.ShloMosaic.Lib.WritesUnit

noncomputable section

namespace Cert.KernelIdeal.KerTabRead

open Cert.KernelIdeal Cert.KernelIdeal.Gen Idealize.ShloMosaic Idealize.ShloMosaic.TcCoe Idealize.ShloMosaic.ValueIdx

variable {Val : EltTy → Type}

/-- Index (r, s, d) is at local position (0, s, d) of the rectangle of rows [r, r + 1). -/
theorem local_row (r : Fin 3) (s : Fin 512) (d : Fin 256) (a : Fin 3) :
    ((ix3 r s d : S3x512x256.Idx) a).val = (![r.val, 0, 0] : Fin 3 → ℕ) a + ((ix3 0 s d : S1x512x256.Idx) a).val := by
  match a with
  | ⟨0, _⟩ => show r.val = r.val + 0; omega
  | ⟨1, _⟩ => show s.val = 0 + s.val; omega
  | ⟨2, _⟩ => show d.val = 0 + d.val; omega

section
variable {sig' : RefSig} {κ : Kind} {sp : Space} (v : View sig' κ sp S3x512x256 .bf16) (f : v.ty.Contents Val)
  (inb2 : ∀ a, (![2, 0, 0] : Fin 3 → ℕ) a + S1x512x256.size a ≤ S3x512x256.size a)
  (inb1 : ∀ a, (![1, 0, 0] : Fin 3 → ℕ) a + S1x512x256.size a ≤ S3x512x256.size a)
  (inb0 : ∀ a, (![0, 0, 0] : Fin 3 → ℕ) a + S1x512x256.size a ≤ S3x512x256.size a)
  (w2 w1 w0 : S1x512x256.Idx → Val .bf16) (s : Fin 512) (d : Fin 256)

/-- After the three stores, entry (0, s, d) is the first store's payload at (0, s, d). -/
theorem read3_0 :
    v.read Val (v.writes Val f
        [(⟨Rect.unit (s := S3x512x256) ![2, 0, 0] S1x512x256.size inb2, w2⟩ : View.Piece Val S3x512x256 .bf16),
         ⟨Rect.unit (s := S3x512x256) ![1, 0, 0] S1x512x256.size inb1, w1⟩,
         ⟨Rect.unit (s := S3x512x256) ![0, 0, 0] S1x512x256.size inb0, w0⟩]) (ix3 0 s d)
      = w0 (ix3 0 s d) := by
  rw [View.read_writes_cons_unit_of_not_mem v f inb2 w2 _ (ix3 0 s d) rfl 0 (Or.inl (by show (0 : ℕ) < 2; omega)),
    View.read_writes_cons_unit_of_not_mem v f inb1 w1 _ (ix3 0 s d) rfl 0 (Or.inl (by show (0 : ℕ) < 1; omega))]
  exact View.read_writes_cons_unit_of_mem v f inb0 w0 [] (ix3 0 s d) (ix3 0 s d) rfl (local_row 0 s d)

/-- After the three stores, entry (1, s, d) is the second store's payload at (0, s, d). -/
theorem read3_1 :
    v.read Val (v.writes Val f
        [(⟨Rect.unit (s := S3x512x256) ![2, 0, 0] S1x512x256.size inb2, w2⟩ : View.Piece Val S3x512x256 .bf16),
         ⟨Rect.unit (s := S3x512x256) ![1, 0, 0] S1x512x256.size inb1, w1⟩,
         ⟨Rect.unit (s := S3x512x256) ![0, 0, 0] S1x512x256.size inb0, w0⟩]) (ix3 1 s d)
      = w1 (ix3 0 s d) := by
  rw [View.read_writes_cons_unit_of_not_mem v f inb2 w2 _ (ix3 1 s d) rfl 0 (Or.inl (by show (1 : ℕ) < 2; omega))]
  exact View.read_writes_cons_unit_of_mem v f inb1 w1 _ (ix3 1 s d) (ix3 0 s d) rfl (local_row 1 s d)

/-- After the three stores, entry (2, s, d) is the third store's payload at (0, s, d). -/
theorem read3_2 :
    v.read Val (v.writes Val f
        [(⟨Rect.unit (s := S3x512x256) ![2, 0, 0] S1x512x256.size inb2, w2⟩ : View.Piece Val S3x512x256 .bf16),
         ⟨Rect.unit (s := S3x512x256) ![1, 0, 0] S1x512x256.size inb1, w1⟩,
         ⟨Rect.unit (s := S3x512x256) ![0, 0, 0] S1x512x256.size inb0, w0⟩]) (ix3 2 s d)
      = w2 (ix3 0 s d) :=
  View.read_writes_cons_unit_of_mem v f inb2 w2 _ (ix3 2 s d) (ix3 0 s d) rfl (local_row 2 s d)

end

section
variable [∀ e, Nonempty (Val e)] {sig' : RefSig} {κ : Kind} {sp : Space} (v : View sig' κ sp S3x512x256 .bf16)
  (inb2 : ∀ a, (![2, 0, 0] : Fin 3 → ℕ) a + S1x512x256.size a ≤ S3x512x256.size a)
  (inb1 : ∀ a, (![1, 0, 0] : Fin 3 → ℕ) a + S1x512x256.size a ≤ S3x512x256.size a)
  (inb0 : ∀ a, (![0, 0, 0] : Fin 3 → ℕ) a + S1x512x256.size a ≤ S3x512x256.size a)
  (w2 w1 w0 : S1x512x256.Idx → Val .bf16) (s : Fin 512) (d : Fin 256)

/-- The load's local index (0, s, d) through the rectangle of rows [r, r + 1) is (r, s, d). -/
theorem idx_row (r : ℕ) (hr : r < 3) (inb : ∀ a, (![r, 0, 0] : Fin 3 → ℕ) a + S1x512x256.size a ≤ S3x512x256.size a) :
    (Rect.unit (s := S3x512x256) ![r, 0, 0] S1x512x256.size inb).toLoadRect.idx (ix3 0 s d) = ix3 ⟨r, hr⟩ s d := by
  funext a
  refine Fin.ext ?_
  match a with
  | ⟨0, _⟩ => show r + 1 * 0 = r; omega
  | ⟨1, _⟩ => show 0 + 1 * s.val = s.val; omega
  | ⟨2, _⟩ => show 0 + 1 * d.val = d.val; omega

/-- A load of row 0 after the three stores reads the first payload. -/
theorem readCov3_0 (inb) :
    v.readCov (Val := Val)
        [(⟨Rect.unit (s := S3x512x256) ![2, 0, 0] S1x512x256.size inb2, w2⟩ : View.Piece Val S3x512x256 .bf16),
         ⟨Rect.unit (s := S3x512x256) ![1, 0, 0] S1x512x256.size inb1, w1⟩,
         ⟨Rect.unit (s := S3x512x256) ![0, 0, 0] S1x512x256.size inb0, w0⟩]
        (Rect.unit (s := S3x512x256) ![0, 0, 0] S1x512x256.size inb).toLoadRect (ix3 0 s d) = w0 (ix3 0 s d) := by
  unfold View.readCov
  rw [View.readAt_apply, idx_row s d 0 (by decide) inb]
  exact read3_0 v v.junk inb2 inb1 inb0 w2 w1 w0 s d

/-- A load of row 1 after the three stores reads the second payload. -/
theorem readCov3_1 (inb) :
    v.readCov (Val := Val)
        [(⟨Rect.unit (s := S3x512x256) ![2, 0, 0] S1x512x256.size inb2, w2⟩ : View.Piece Val S3x512x256 .bf16),
         ⟨Rect.unit (s := S3x512x256) ![1, 0, 0] S1x512x256.size inb1, w1⟩,
         ⟨Rect.unit (s := S3x512x256) ![0, 0, 0] S1x512x256.size inb0, w0⟩]
        (Rect.unit (s := S3x512x256) ![1, 0, 0] S1x512x256.size inb).toLoadRect (ix3 0 s d) = w1 (ix3 0 s d) := by
  unfold View.readCov
  rw [View.readAt_apply, idx_row s d 1 (by decide) inb]
  exact read3_1 v v.junk inb2 inb1 inb0 w2 w1 w0 s d

/-- A load of row 2 after the three stores reads the third payload. -/
theorem readCov3_2 (inb) :
    v.readCov (Val := Val)
        [(⟨Rect.unit (s := S3x512x256) ![2, 0, 0] S1x512x256.size inb2, w2⟩ : View.Piece Val S3x512x256 .bf16),
         ⟨Rect.unit (s := S3x512x256) ![1, 0, 0] S1x512x256.size inb1, w1⟩,
         ⟨Rect.unit (s := S3x512x256) ![0, 0, 0] S1x512x256.size inb0, w0⟩]
        (Rect.unit (s := S3x512x256) ![2, 0, 0] S1x512x256.size inb).toLoadRect (ix3 0 s d) = w2 (ix3 0 s d) := by
  unfold View.readCov
  rw [View.readAt_apply, idx_row s d 2 (by decide) inb]
  exact read3_2 v v.junk inb2 inb1 inb0 w2 w1 w0 s d

end

end Cert.KernelIdeal.KerTabRead

end
-- ==== Proof.KerFrameTab.lean ====
/-
  The kept tables after the first grid point: the three stores into the scratch, read back as one function of the staged inputs.
-/
import proofs.«144965_g11562051961505_week1_w4_918_31_alg».proof.Proof.Gen.KernelIdeal.Frame
import proofs.«144965_g11562051961505_week1_w4_918_31_alg».proof.Proof.Spec
import proofs.«144965_g11562051961505_week1_w4_918_31_alg».proof.Proof.KerProb
import proofs.«144965_g11562051961505_week1_w4_918_31_alg».proof.Proof.KerTables
import proofs.«144965_g11562051961505_week1_w4_918_31_alg».proof.Proof.KerOut
import proofs.«144965_g11562051961505_week1_w4_918_31_alg».proof.Proof.KerPieces
import proofs.«144965_g11562051961505_week1_w4_918_31_alg».proof.Proof.KerTabRead
import Idealize.ShloMosaic.Lib.Pipeline.Value
import Idealize.ShloMosaic.Lib.WritesUnit

set_option maxRecDepth 16384

noncomputable section

namespace Cert.KernelIdeal.KerFrameTab

open Cert.KernelIdeal Cert.KernelIdeal.Gen Cert.KernelIdeal.KerPieces Idealize.ShloMosaic Idealize.ShloMosaic.TcCoe
open Idealize.ShloMosaic.ValueIdx Idealize.ShloMosaic.Tactic Idealize.SL.Sem

/-- A load through the whole-buffer rectangle of a whole memref holding x reads x. -/
theorem whole_load {S : Shape} {e : EltTy} {sp : Space} (arg : Memref sig .tc sp S e) (harg : arg.IsWhole) (x : Vec Ideal S e)
    {off : Fin S.rank → ℕ} (hz : off = fun _ => 0) (inb : ∀ a, off a + S.size a ≤ S.size a) :
    View.readAt (Elt Ideal) arg.view (Rect.unit off S.size inb).toLoadRect (harg.unread x) = x := by
  rw [View.readAt_eq_ld, harg.read_unread, View.ld_unit_zero hz]

/-- A 1 x 1 load at column k of a whole [1, 3] memref holding x reads x (0, k). -/
theorem cell_load (arg : Memref sig .tc .vmem S1x3 .f32) (harg : arg.IsWhole) (x : Vec Ideal S1x3 .f32) (k : ℕ) (hk : k < 3)
    (inb : ∀ a, (![0, k] : Fin 2 → ℕ) a + S1x1.size a ≤ S1x3.size a) :
    View.readAt (Elt Ideal) arg.view (Rect.unit (s := S1x3) ![0, k] S1x1.size inb).toLoadRect (harg.unread x) (ix2 0 0) = x (ix2 0 ⟨k, hk⟩) := by
  rw [View.readAt_eq_ld, harg.read_unread]
  show x _ = x _
  refine congrArg x (funext fun a => Fin.ext ?_)
  match a with
  | ⟨0, _⟩ => show 0 + 1 * 0 = 0; omega
  | ⟨1, _⟩ => show k + 1 * 0 = k; omega

theorem hz2 : (![0, 0] : Fin 2 → ℕ) = fun _ => 0 := funext fun a => by fin_cases a <;> rfl

/-- Entry (r, s, d) of the scratch after a first-point body is table r of the staged inputs at (s, d). -/
theorem tabA_apply (c : Dev nD) (i : grid0.Coords) (arg1 : Memref sig .tc .vmem S8x512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S824x256 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S3x128 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S8x512x256 .f32) (harg10 : arg10.IsWhole) (arg11 : Memref sig .tc .vmem S3x512x256 .bf16) (harg11 : arg11.IsWhole) (hc0 : cond0_0 i) (x0 : Vec Ideal S8x512x256 .f32) (x1 : Vec Ideal S512x256 .f32) (x2 : Vec Ideal S512x256 .f32) (x3 : Vec Ideal S824x256 .f32) (x4 : Vec Ideal S128x256 .f32) (x5 : Vec Ideal S1x128 .f32) (x6 : Vec Ideal S3x128 .f32) (x7 : Vec Ideal S1x3 .f32) (x8 : Vec Ideal S1x3 .f32) (r : Fin 3) (s : Fin 512) (d : Fin 256) :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 (ix3 r s d) = tabF x1 x2 x3 x8 r s d := by
  unfold sout0_A_0
  unfold kernelRun0_A
  dsimp only
  sl_unfold_words
  match r with
  | ⟨0, _⟩ =>
    refine (KerTabRead.read3_0 VS0_0 VS0_0.junk _ _ _ _ _ _ s d).trans ?_
    rw [KerTables.pay17_apply, whole_load arg4 harg4 x3 hz2, cell_load arg9 harg9 x8 2 (by decide)]
    rfl
  | ⟨1, _⟩ =>
    refine (KerTabRead.read3_1 VS0_0 VS0_0.junk _ _ _ _ _ _ s d).trans ?_
    rw [KerTables.pay18_apply, whole_load arg4 harg4 x3 hz2, whole_load arg2 harg2 x1 hz2,
      cell_load arg9 harg9 x8 2 (by decide), cell_load arg9 harg9 x8 0 (by decide)]
    rfl
  | ⟨2, _⟩ =>
    refine (KerTabRead.read3_2 VS0_0 VS0_0.junk _ _ _ _ _ _ s d).trans ?_
    rw [KerTables.pay19_apply, whole_load arg4 harg4 x3 hz2, whole_load arg3 harg3 x2 hz2,
      cell_load arg9 harg9 x8 2 (by decide), cell_load arg9 harg9 x8 1 (by decide)]
    rfl

end Cert.KernelIdeal.KerFrameTab

end
-- ==== Proof.KerFrameA.lean ====
/-
  The output block of the first grid point: eight stores, each reading the tables the same body has just stored.
-/
import proofs.«144965_g11562051961505_week1_w4_918_31_alg».proof.Proof.Gen.KernelIdeal.Frame
import proofs.«144965_g11562051961505_week1_w4_918_31_alg».proof.Proof.Spec
import proofs.«144965_g11562051961505_week1_w4_918_31_alg».proof.Proof.KerProb
import proofs.«144965_g11562051961505_week1_w4_918_31_alg».proof.Proof.KerTables
import proofs.«144965_g11562051961505_week1_w4_918_31_alg».proof.Proof.KerOut
import proofs.«144965_g11562051961505_week1_w4_918_31_alg».proof.Proof.KerPieces
import proofs.«144965_g11562051961505_week1_w4_918_31_alg».proof.Proof.KerTabRead
import Idealize.ShloMosaic.Lib.Pipeline.Value
import Idealize.ShloMosaic.Lib.WritesUnit

set_option maxRecDepth 16384

noncomputable section

namespace Cert.KernelIdeal.KerFrameA

open Cert.KernelIdeal Cert.KernelIdeal.Gen Cert.KernelIdeal.KerPieces Idealize.ShloMosaic Idealize.ShloMosaic.TcCoe
open Idealize.ShloMosaic.ValueIdx Idealize.ShloMosaic.Tactic Idealize.SL.Sem

/-! ## Eight stacked sequences read back

A [8, 512, 256] block filled by eight stores, sequence r through the rectangle of rows [r, r + 1), holds at (r, s, d)
the r-th stored payload at (0, s, d); a load of rows [r, r + 1) of a block reads, at (0, s, d), the block at (r, s, d). -/

/-- The offsets (0, 0) are the zero offsets. -/
theorem off2_zero : (![0, 0] : Fin 2 → ℕ) = fun _ => 0 :=
  funext fun a => match a with
    | ⟨0, _⟩ => rfl
    | ⟨1, _⟩ => rfl

/-- Index (r, s, d) is at local position (0, s, d) of the rectangle of rows [r, r + 1). -/
theorem local_seq (r : Fin 8) (s : Fin 512) (d : Fin 256) (a : Fin 3) :
    ((ix3 r s d : S8x512x256.Idx) a).val = (![r.val, 0, 0] : Fin 3 → ℕ) a + ((ix3 0 s d : S1x512x256.Idx) a).val := by
  match a with
  | ⟨0, _⟩ => show r.val = r.val + 0; omega
  | ⟨1, _⟩ => show s.val = 0 + s.val; omega
  | ⟨2, _⟩ => show d.val = 0 + d.val; omega

section Rows

variable {Val : EltTy → Type} {sig' : RefSig} {κ : Kind} {sp : Space} (v : View sig' κ sp S8x512x256 .f32) (f : v.ty.Contents Val)
  (inb7 : ∀ a, (![7, 0, 0] : Fin 3 → ℕ) a + S1x512x256.size a ≤ S8x512x256.size a)
  (inb6 : ∀ a, (![6, 0, 0] : Fin 3 → ℕ) a + S1x512x256.size a ≤ S8x512x256.size a)
  (inb5 : ∀ a, (![5, 0, 0] : Fin 3 → ℕ) a + S1x512x256.size a ≤ S8x512x256.size a)
  (inb4 : ∀ a, (![4, 0, 0] : Fin 3 → ℕ) a + S1x512x256.size a ≤ S8x512x256.size a)
  (inb3 : ∀ a, (![3, 0, 0] : Fin 3 → ℕ) a + S1x512x256.size a ≤ S8x512x256.size a)
  (inb2 : ∀ a, (![2, 0, 0] : Fin 3 → ℕ) a + S1x512x256.size a ≤ S8x512x256.size a)
  (inb1 : ∀ a, (![1, 0, 0] : Fin 3 → ℕ) a + S1x512x256.size a ≤ S8x512x256.size a)
  (inb0 : ∀ a, (![0, 0, 0] : Fin 3 → ℕ) a + S1x512x256.size a ≤ S8x512x256.size a)
  (w7 w6 w5 w4 w3 w2 w1 w0 : S1x512x256.Idx → Val .f32) (s : Fin 512) (d : Fin 256)

/-- After the eight stores, entry (0, s, d) is the first store's payload at (0, s, d). -/
theorem read8_0 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 0 s d)
      = w0 (ix3 0 s d) := by
  rw [View.read_writes_cons_unit_of_not_mem v f inb7 w7 _ (ix3 0 s d) rfl 0 (Or.inl (by show (0 : ℕ) < 7; omega)),
    View.read_writes_cons_unit_of_not_mem v f inb6 w6 _ (ix3 0 s d) rfl 0 (Or.inl (by show (0 : ℕ) < 6; omega)),
    View.read_writes_cons_unit_of_not_mem v f inb5 w5 _ (ix3 0 s d) rfl 0 (Or.inl (by show (0 : ℕ) < 5; omega)),
    View.read_writes_cons_unit_of_not_mem v f inb4 w4 _ (ix3 0 s d) rfl 0 (Or.inl (by show (0 : ℕ) < 4; omega)),
    View.read_writes_cons_unit_of_not_mem v f inb3 w3 _ (ix3 0 s d) rfl 0 (Or.inl (by show (0 : ℕ) < 3; omega)),
    View.read_writes_cons_unit_of_not_mem v f inb2 w2 _ (ix3 0 s d) rfl 0 (Or.inl (by show (0 : ℕ) < 2; omega)),
    View.read_writes_cons_unit_of_not_mem v f inb1 w1 _ (ix3 0 s d) rfl 0 (Or.inl (by show (0 : ℕ) < 1; omega))]
  exact View.read_writes_cons_unit_of_mem v f inb0 w0 _ (ix3 0 s d) (ix3 0 s d) rfl (local_seq 0 s d)

/-- After the eight stores, entry (1, s, d) is the second store's payload at (0, s, d). -/
theorem read8_1 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 1 s d)
      = w1 (ix3 0 s d) := by
  rw [View.read_writes_cons_unit_of_not_mem v f inb7 w7 _ (ix3 1 s d) rfl 0 (Or.inl (by show (1 : ℕ) < 7; omega)),
    View.read_writes_cons_unit_of_not_mem v f inb6 w6 _ (ix3 1 s d) rfl 0 (Or.inl (by show (1 : ℕ) < 6; omega)),
    View.read_writes_cons_unit_of_not_mem v f inb5 w5 _ (ix3 1 s d) rfl 0 (Or.inl (by show (1 : ℕ) < 5; omega)),
    View.read_writes_cons_unit_of_not_mem v f inb4 w4 _ (ix3 1 s d) rfl 0 (Or.inl (by show (1 : ℕ) < 4; omega)),
    View.read_writes_cons_unit_of_not_mem v f inb3 w3 _ (ix3 1 s d) rfl 0 (Or.inl (by show (1 : ℕ) < 3; omega)),
    View.read_writes_cons_unit_of_not_mem v f inb2 w2 _ (ix3 1 s d) rfl 0 (Or.inl (by show (1 : ℕ) < 2; omega))]
  exact View.read_writes_cons_unit_of_mem v f inb1 w1 _ (ix3 1 s d) (ix3 0 s d) rfl (local_seq 1 s d)

/-- After the eight stores, entry (2, s, d) is the third store's payload at (0, s, d). -/
theorem read8_2 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 2 s d)
      = w2 (ix3 0 s d) := by
  rw [View.read_writes_cons_unit_of_not_mem v f inb7 w7 _ (ix3 2 s d) rfl 0 (Or.inl (by show (2 : ℕ) < 7; omega)),
    View.read_writes_cons_unit_of_not_mem v f inb6 w6 _ (ix3 2 s d) rfl 0 (Or.inl (by show (2 : ℕ) < 6; omega)),
    View.read_writes_cons_unit_of_not_mem v f inb5 w5 _ (ix3 2 s d) rfl 0 (Or.inl (by show (2 : ℕ) < 5; omega)),
    View.read_writes_cons_unit_of_not_mem v f inb4 w4 _ (ix3 2 s d) rfl 0 (Or.inl (by show (2 : ℕ) < 4; omega)),
    View.read_writes_cons_unit_of_not_mem v f inb3 w3 _ (ix3 2 s d) rfl 0 (Or.inl (by show (2 : ℕ) < 3; omega))]
  exact View.read_writes_cons_unit_of_mem v f inb2 w2 _ (ix3 2 s d) (ix3 0 s d) rfl (local_seq 2 s d)

/-- After the eight stores, entry (3, s, d) is the fourth store's payload at (0, s, d). -/
theorem read8_3 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 3 s d)
      = w3 (ix3 0 s d) := by
  rw [View.read_writes_cons_unit_of_not_mem v f inb7 w7 _ (ix3 3 s d) rfl 0 (Or.inl (by show (3 : ℕ) < 7; omega)),
    View.read_writes_cons_unit_of_not_mem v f inb6 w6 _ (ix3 3 s d) rfl 0 (Or.inl (by show (3 : ℕ) < 6; omega)),
    View.read_writes_cons_unit_of_not_mem v f inb5 w5 _ (ix3 3 s d) rfl 0 (Or.inl (by show (3 : ℕ) < 5; omega)),
    View.read_writes_cons_unit_of_not_mem v f inb4 w4 _ (ix3 3 s d) rfl 0 (Or.inl (by show (3 : ℕ) < 4; omega))]
  exact View.read_writes_cons_unit_of_mem v f inb3 w3 _ (ix3 3 s d) (ix3 0 s d) rfl (local_seq 3 s d)

/-- After the eight stores, entry (4, s, d) is the fifth store's payload at (0, s, d). -/
theorem read8_4 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 4 s d)
      = w4 (ix3 0 s d) := by
  rw [View.read_writes_cons_unit_of_not_mem v f inb7 w7 _ (ix3 4 s d) rfl 0 (Or.inl (by show (4 : ℕ) < 7; omega)),
    View.read_writes_cons_unit_of_not_mem v f inb6 w6 _ (ix3 4 s d) rfl 0 (Or.inl (by show (4 : ℕ) < 6; omega)),
    View.read_writes_cons_unit_of_not_mem v f inb5 w5 _ (ix3 4 s d) rfl 0 (Or.inl (by show (4 : ℕ) < 5; omega))]
  exact View.read_writes_cons_unit_of_mem v f inb4 w4 _ (ix3 4 s d) (ix3 0 s d) rfl (local_seq 4 s d)

/-- After the eight stores, entry (5, s, d) is the sixth store's payload at (0, s, d). -/
theorem read8_5 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 5 s d)
      = w5 (ix3 0 s d) := by
  rw [View.read_writes_cons_unit_of_not_mem v f inb7 w7 _ (ix3 5 s d) rfl 0 (Or.inl (by show (5 : ℕ) < 7; omega)),
    View.read_writes_cons_unit_of_not_mem v f inb6 w6 _ (ix3 5 s d) rfl 0 (Or.inl (by show (5 : ℕ) < 6; omega))]
  exact View.read_writes_cons_unit_of_mem v f inb5 w5 _ (ix3 5 s d) (ix3 0 s d) rfl (local_seq 5 s d)

/-- After the eight stores, entry (6, s, d) is the seventh store's payload at (0, s, d). -/
theorem read8_6 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 6 s d)
      = w6 (ix3 0 s d) := by
  rw [View.read_writes_cons_unit_of_not_mem v f inb7 w7 _ (ix3 6 s d) rfl 0 (Or.inl (by show (6 : ℕ) < 7; omega))]
  exact View.read_writes_cons_unit_of_mem v f inb6 w6 _ (ix3 6 s d) (ix3 0 s d) rfl (local_seq 6 s d)

/-- After the eight stores, entry (7, s, d) is the eighth store's payload at (0, s, d). -/
theorem read8_7 :
    v.read Val (v.writes Val f
        [(⟨Rect.unit (s := S8x512x256) ![7, 0, 0] S1x512x256.size inb7, w7⟩ : View.Piece Val S8x512x256 .f32),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩]) (ix3 7 s d)
      = w7 (ix3 0 s d) := by
  exact View.read_writes_cons_unit_of_mem v f inb7 w7 _ (ix3 7 s d) (ix3 0 s d) rfl (local_seq 7 s d)

end Rows

/-- The load's local index (0, s, d) through the rectangle of rows [r, r + 1) is (r, s, d). -/
theorem idx_seq (r : ℕ) (hr : r < 8) (inb : ∀ a, (![r, 0, 0] : Fin 3 → ℕ) a + S1x512x256.size a ≤ S8x512x256.size a)
    (s : Fin 512) (d : Fin 256) :
    (Rect.unit (s := S8x512x256) ![r, 0, 0] S1x512x256.size inb).idx (ix3 0 s d) = ix3 ⟨r, hr⟩ s d := by
  funext a
  refine Fin.ext ?_
  match a with
  | ⟨0, _⟩ => show r + 1 * 0 = r; omega
  | ⟨1, _⟩ => show 0 + 1 * s.val = s.val; omega
  | ⟨2, _⟩ => show 0 + 1 * d.val = d.val; omega

/-- A load of rows [r, r + 1) of a block reads, at (0, s, d), the block at (r, s, d). -/
theorem ld_seq_apply (x0 : Vec Ideal S8x512x256 .f32) (r : ℕ) (hr : r < 8)
    (inb : ∀ a, (![r, 0, 0] : Fin 3 → ℕ) a + S1x512x256.size a ≤ S8x512x256.size a) (s : Fin 512) (d : Fin 256) :
    View.ld (Val := Elt Ideal) (e' := .f32) x0 (Rect.unit (s := S8x512x256) ![r, 0, 0] S1x512x256.size inb) (ix3 0 s d)
      = x0 (ix3 ⟨r, hr⟩ s d) :=
  congrArg x0 (idx_seq r hr inb s d)

/-- The eight row loads of a block, selected by c, are its c-th sequence. -/
theorem rowsel_ld (x0 : Vec Ideal S8x512x256 .f32) (inb0 : ∀ a, (![0, 0, 0] : Fin 3 → ℕ) a + S1x512x256.size a ≤ S8x512x256.size a) (inb1 : ∀ a, (![1, 0, 0] : Fin 3 → ℕ) a + S1x512x256.size a ≤ S8x512x256.size a) (inb2 : ∀ a, (![2, 0, 0] : Fin 3 → ℕ) a + S1x512x256.size a ≤ S8x512x256.size a) (inb3 : ∀ a, (![3, 0, 0] : Fin 3 → ℕ) a + S1x512x256.size a ≤ S8x512x256.size a) (inb4 : ∀ a, (![4, 0, 0] : Fin 3 → ℕ) a + S1x512x256.size a ≤ S8x512x256.size a) (inb5 : ∀ a, (![5, 0, 0] : Fin 3 → ℕ) a + S1x512x256.size a ≤ S8x512x256.size a) (inb6 : ∀ a, (![6, 0, 0] : Fin 3 → ℕ) a + S1x512x256.size a ≤ S8x512x256.size a) (inb7 : ∀ a, (![7, 0, 0] : Fin 3 → ℕ) a + S1x512x256.size a ≤ S8x512x256.size a)
    (c : Fin 8) :
    KerProb.rowsel (View.ld (Val := Elt Ideal) (e' := .f32) x0 (Rect.unit (s := S8x512x256) ![0, 0, 0] S1x512x256.size inb0))
        (View.ld (Val := Elt Ideal) (e' := .f32) x0 (Rect.unit (s := S8x512x256) ![1, 0, 0] S1x512x256.size inb1))
        (View.ld (Val := Elt Ideal) (e' := .f32) x0 (Rect.unit (s := S8x512x256) ![2, 0, 0] S1x512x256.size inb2))
        (View.ld (Val := Elt Ideal) (e' := .f32) x0 (Rect.unit (s := S8x512x256) ![3, 0, 0] S1x512x256.size inb3))
        (View.ld (Val := Elt Ideal) (e' := .f32) x0 (Rect.unit (s := S8x512x256) ![4, 0, 0] S1x512x256.size inb4))
        (View.ld (Val := Elt Ideal) (e' := .f32) x0 (Rect.unit (s := S8x512x256) ![5, 0, 0] S1x512x256.size inb5))
        (View.ld (Val := Elt Ideal) (e' := .f32) x0 (Rect.unit (s := S8x512x256) ![6, 0, 0] S1x512x256.size inb6))
        (View.ld (Val := Elt Ideal) (e' := .f32) x0 (Rect.unit (s := S8x512x256) ![7, 0, 0] S1x512x256.size inb7)) c
      = xrow x0 c := by
  funext s d
  match c with
  | ⟨0, h⟩ => exact ld_seq_apply x0 0 h inb0 s d
  | ⟨1, h⟩ => exact ld_seq_apply x0 1 h inb1 s d
  | ⟨2, h⟩ => exact ld_seq_apply x0 2 h inb2 s d
  | ⟨3, h⟩ => exact ld_seq_apply x0 3 h inb3 s d
  | ⟨4, h⟩ => exact ld_seq_apply x0 4 h inb4 s d
  | ⟨5, h⟩ => exact ld_seq_apply x0 5 h inb5 s d
  | ⟨6, h⟩ => exact ld_seq_apply x0 6 h inb6 s d
  | ⟨7, h⟩ => exact ld_seq_apply x0 7 h inb7 s d

/-- The [1, 1] window of the mixing weights at column k holds the k-th weight. -/
theorem ld_cw_apply (x8 : Vec Ideal S1x3 .f32) (k : ℕ) (hk : k < 3)
    (inb : ∀ a, (![0, k] : Fin 2 → ℕ) a + S1x1.size a ≤ S1x3.size a) :
    View.ld (Val := Elt Ideal) (e' := .f32) x8 (Rect.unit (s := S1x3) ![0, k] S1x1.size inb) (ix2 0 0) = x8 (ix2 0 ⟨k, hk⟩) := by
  refine congrArg x8 (funext fun a => Fin.ext ?_)
  match a with
  | ⟨0, _⟩ => show 0 + 1 * 0 = 0; omega
  | ⟨1, _⟩ => show k + 1 * 0 = k; omega

/-! ## The block over its weights, tables and sequences -/

/-- The eight stores, over any weights v57 and totals v63, tables t0, t1, t2 and loaded sequences: entry (c, s, d) is
    v63[c] * x[c] + (t0 + v57[c, 0] * t1 + v57[c, 1] * t2) at (s, d). -/
theorem store8_apply {sig' : RefSig} {κ : Kind} {sp : Space} (v : View sig' κ sp S8x512x256 .f32) (f : v.ty.Contents (Elt Ideal))
    (inb7 : ∀ a, (![7, 0, 0] : Fin 3 → ℕ) a + S1x512x256.size a ≤ S8x512x256.size a) (inb6 : ∀ a, (![6, 0, 0] : Fin 3 → ℕ) a + S1x512x256.size a ≤ S8x512x256.size a) (inb5 : ∀ a, (![5, 0, 0] : Fin 3 → ℕ) a + S1x512x256.size a ≤ S8x512x256.size a) (inb4 : ∀ a, (![4, 0, 0] : Fin 3 → ℕ) a + S1x512x256.size a ≤ S8x512x256.size a) (inb3 : ∀ a, (![3, 0, 0] : Fin 3 → ℕ) a + S1x512x256.size a ≤ S8x512x256.size a) (inb2 : ∀ a, (![2, 0, 0] : Fin 3 → ℕ) a + S1x512x256.size a ≤ S8x512x256.size a) (inb1 : ∀ a, (![1, 0, 0] : Fin 3 → ℕ) a + S1x512x256.size a ≤ S8x512x256.size a) (inb0 : ∀ a, (![0, 0, 0] : Fin 3 → ℕ) a + S1x512x256.size a ≤ S8x512x256.size a)
    (V63 : FVec Ideal S8x1 .f32) (V57 : FVec Ideal S8x3 .f32) (T0 T1 T2 : Vec Ideal S1x512x256 .bf16)
    (X0 X1 X2 X3 X4 X5 X6 X7 : Vec Ideal S1x512x256 .f32) (c : Fin 8) (s : Fin 512) (d : Fin 256) :
    v.read (Elt Ideal) (v.writes (Elt Ideal) f
        [(⟨Rect.unit (s := S8x512x256) ![7, 0, 0] S1x512x256.size inb7, k0_pay1 (F := Ideal) V63 (k0_pay32 (k0_pay20 V57) T0 T1) (k0_pay33 (k0_pay20 V57)) T2 X7⟩ : View.Piece (Elt Ideal) S8x512x256 .f32),
         ⟨Rect.unit (s := S8x512x256) ![6, 0, 0] S1x512x256.size inb6, k0_pay31 (F := Ideal) V63 (k0_pay20 V57) T0 T1 T2 X6⟩,
         ⟨Rect.unit (s := S8x512x256) ![5, 0, 0] S1x512x256.size inb5, k0_pay30 (F := Ideal) V63 (k0_pay20 V57) T0 T1 T2 X5⟩,
         ⟨Rect.unit (s := S8x512x256) ![4, 0, 0] S1x512x256.size inb4, k0_pay29 (F := Ideal) V63 (k0_pay27 (k0_pay20 V57) T0 T1) (k0_pay28 (k0_pay20 V57)) T2 X4⟩,
         ⟨Rect.unit (s := S8x512x256) ![3, 0, 0] S1x512x256.size inb3, k0_pay26 (F := Ideal) V63 (k0_pay20 V57) T0 T1 T2 X3⟩,
         ⟨Rect.unit (s := S8x512x256) ![2, 0, 0] S1x512x256.size inb2, k0_pay25 (F := Ideal) V63 (k0_pay20 V57) T0 T1 T2 X2⟩,
         ⟨Rect.unit (s := S8x512x256) ![1, 0, 0] S1x512x256.size inb1, k0_pay24 (F := Ideal) V63 (k0_pay22 V57 T0 T1) (k0_pay23 V57) T2 X1⟩,
         ⟨Rect.unit (s := S8x512x256) ![0, 0, 0] S1x512x256.size inb0, k0_pay21 (F := Ideal) V57 V63 T0 T1 T2 X0⟩]) (ix3 c s d)
      = V63 (ix2 c 0) * KerProb.rowsel X0 X1 X2 X3 X4 X5 X6 X7 c s d
        + (T0 (ix3 0 s d) + V57 (ix2 c 0) * T1 (ix3 0 s d) + V57 (ix2 c 1) * T2 (ix3 0 s d)) := by
  match c with
  | ⟨0, _⟩ =>
    exact (read8_0 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out0_apply V57 V63 T0 T1 T2 X0 s d)
  | ⟨1, _⟩ =>
    exact (read8_1 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out1_apply V57 V63 T0 T1 T2 X1 s d)
  | ⟨2, _⟩ =>
    exact (read8_2 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out2_apply V57 V63 T0 T1 T2 X2 s d)
  | ⟨3, _⟩ =>
    exact (read8_3 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out3_apply V57 V63 T0 T1 T2 X3 s d)
  | ⟨4, _⟩ =>
    exact (read8_4 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out4_apply V57 V63 T0 T1 T2 X4 s d)
  | ⟨5, _⟩ =>
    exact (read8_5 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out5_apply V57 V63 T0 T1 T2 X5 s d)
  | ⟨6, _⟩ =>
    exact (read8_6 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out6_apply V57 V63 T0 T1 T2 X6 s d)
  | ⟨7, _⟩ =>
    exact (read8_7 v f inb7 inb6 inb5 inb4 inb3 inb2 inb1 inb0 (k0_pay1 V63 (k0_pay32 (k0_pay20 V57) T0 T1) (k0_pay33 (k0_pay20 V57)) T2 X7)
      (k0_pay31 V63 (k0_pay20 V57) T0 T1 T2 X6) (k0_pay30 V63 (k0_pay20 V57) T0 T1 T2 X5)
      (k0_pay29 V63 (k0_pay27 (k0_pay20 V57) T0 T1) (k0_pay28 (k0_pay20 V57)) T2 X4) (k0_pay26 V63 (k0_pay20 V57) T0 T1 T2 X3)
      (k0_pay25 V63 (k0_pay20 V57) T0 T1 T2 X2) (k0_pay24 V63 (k0_pay22 V57 T0 T1) (k0_pay23 V57) T2 X1)
      (k0_pay21 V57 V63 T0 T1 T2 X0) s d).trans (KerOut.out7_apply V57 V63 T0 T1 T2 X7 s d)

/-- Equal parts make equal entries. -/
theorem combine {A A' B B' C C' D D' E E' G G' H H' : EReal} (hA : A = A') (hB : B = B') (hC : C = C') (hD : D = D')
    (hE : E = E') (hG : G = G') (hH : H = H') : A * B + (C + D * E + G * H) = A' * B' + (C' + D' * E' + G' * H') := by
  rw [hA, hB, hC, hD, hE, hG, hH]

set_option maxHeartbeats 4000000 in
/-- Entry (c, s, d) of the output block after a first-point body. -/
theorem outA_apply (c : Dev nD) (i : grid0.Coords) (arg1 : Memref sig .tc .vmem S8x512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S824x256 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S3x128 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S8x512x256 .f32) (harg10 : arg10.IsWhole) (arg11 : Memref sig .tc .vmem S3x512x256 .bf16) (harg11 : arg11.IsWhole) (hc0 : cond0_0 i) (x0 : Vec Ideal S8x512x256 .f32) (x1 : Vec Ideal S512x256 .f32) (x2 : Vec Ideal S512x256 .f32) (x3 : Vec Ideal S824x256 .f32) (x4 : Vec Ideal S128x256 .f32) (x5 : Vec Ideal S1x128 .f32) (x6 : Vec Ideal S3x128 .f32) (x7 : Vec Ideal S1x3 .f32) (x8 : Vec Ideal S1x3 .f32) (c' : Fin 8) (s : Fin 512) (d : Fin 256) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 (ix3 c' s d) = outF x0 x4 x5 x6 x7 x8 (tabF x1 x2 x3 x8) c' s d := by
  unfold out0_A_9
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, View.ld_unit_zero (S := S512x256) off2_zero,
    View.ld_unit_zero (S := S824x256) off2_zero, View.ld_unit_zero (S := S128x256) off2_zero,
    View.ld_unit_zero (S := S1x128) off2_zero, View.ld_unit_zero (S := S3x128) off2_zero,
    View.ld_unit_zero (S := S1x3) off2_zero]
  refine (store8_apply _ _ _ _ _ _ _ _ _ _ _ _ _ _ _ _ _ _ _ _ _ _ _ c' s d).trans ?_
  refine combine ?_ ?_ ?_ ?_ ?_ ?_ ?_
  · refine (KerProb.pay15_apply _ _ _ _ _ _ _ _ x4 x5 x6 x7 x8 c').trans ?_
    exact congrArg (fun r => Cert.Spec.wsum r (Cert.Spec.a2 x4) (row0 x5) (Cert.Spec.a2 x6) (row0 x7) (row0 x8))
      (rowsel_ld x0 inb_S8x512x256_S1x512x256_0_0_0 inb_S8x512x256_S1x512x256_1_0_0 inb_S8x512x256_S1x512x256_2_0_0 inb_S8x512x256_S1x512x256_3_0_0 inb_S8x512x256_S1x512x256_4_0_0 inb_S8x512x256_S1x512x256_5_0_0 inb_S8x512x256_S1x512x256_6_0_0 inb_S8x512x256_S1x512x256_7_0_0 c')
  · exact congrFun (congrFun (rowsel_ld x0 inb_S8x512x256_S1x512x256_0_0_0 inb_S8x512x256_S1x512x256_1_0_0 inb_S8x512x256_S1x512x256_2_0_0 inb_S8x512x256_S1x512x256_3_0_0 inb_S8x512x256_S1x512x256_4_0_0 inb_S8x512x256_S1x512x256_5_0_0 inb_S8x512x256_S1x512x256_6_0_0 inb_S8x512x256_S1x512x256_7_0_0 c') s) d
  · refine (KerTabRead.readCov3_0 arg11.view _ _ _ _ _ _ s d _).trans ?_
    refine (KerTables.pay17_apply x3 _ s d).trans ?_
    exact congrArg (fun a => a * KerTables.band x3 s d) (ld_cw_apply x8 2 (by decide) inb_S1x3_S1x1_0_2)
  · refine (KerProb.pay14_apply _ _ _ _ _ _ _ _ x4 x5 x6 x7 c' 0).trans ?_
    exact congrArg (fun r => Cert.Spec.prob r (Cert.Spec.a2 x4) (row0 x5) (Cert.Spec.a2 x6) (row0 x7) 0)
      (rowsel_ld x0 inb_S8x512x256_S1x512x256_0_0_0 inb_S8x512x256_S1x512x256_1_0_0 inb_S8x512x256_S1x512x256_2_0_0 inb_S8x512x256_S1x512x256_3_0_0 inb_S8x512x256_S1x512x256_4_0_0 inb_S8x512x256_S1x512x256_5_0_0 inb_S8x512x256_S1x512x256_6_0_0 inb_S8x512x256_S1x512x256_7_0_0 c')
  · refine (KerTabRead.readCov3_1 arg11.view _ _ _ _ _ _ s d _).trans ?_
    refine (KerTables.pay18_apply x3 _ _ x1 s d).trans ?_
    exact congrArg₂ (fun a b => a * x1 (ix2 s d) - b * KerTables.band x3 s d)
      (ld_cw_apply x8 0 (by decide) inb_S1x3_S1x1_0_0) (ld_cw_apply x8 2 (by decide) inb_S1x3_S1x1_0_2)
  · refine (KerProb.pay14_apply _ _ _ _ _ _ _ _ x4 x5 x6 x7 c' 1).trans ?_
    exact congrArg (fun r => Cert.Spec.prob r (Cert.Spec.a2 x4) (row0 x5) (Cert.Spec.a2 x6) (row0 x7) 1)
      (rowsel_ld x0 inb_S8x512x256_S1x512x256_0_0_0 inb_S8x512x256_S1x512x256_1_0_0 inb_S8x512x256_S1x512x256_2_0_0 inb_S8x512x256_S1x512x256_3_0_0 inb_S8x512x256_S1x512x256_4_0_0 inb_S8x512x256_S1x512x256_5_0_0 inb_S8x512x256_S1x512x256_6_0_0 inb_S8x512x256_S1x512x256_7_0_0 c')
  · refine (KerTabRead.readCov3_2 arg11.view _ _ _ _ _ _ s d _).trans ?_
    refine (KerTables.pay19_apply x3 _ _ x2 s d).trans ?_
    exact congrArg₂ (fun a b => a * x2 (ix2 s d) - b * KerTables.band x3 s d)
      (ld_cw_apply x8 1 (by decide) inb_S1x3_S1x1_0_1) (ld_cw_apply x8 2 (by decide) inb_S1x3_S1x1_0_2)

end Cert.KernelIdeal.KerFrameA

end
-- ==== Proof.KerFrameB.lean ====
/-
  The output block of a later grid point: eight stores, each reading the tables the scratch kept.

  The body stores sequence c of its result through the rows [c, c + 1) of the [8, 512, 256] block, so the block read back
  at (c, s, d) is the c-th stored value at (0, s, d): every newer store lies on another row. That value is
  wsum * x + (t0 + p0 * t1 + p1 * t2) with the weights of the c-th loaded sequence. A load of rows [r, r + 1) reads the
  contents at (r, s, d) and a load of a whole buffer reads its contents, so x is the c-th sequence of the staged batch
  block, the weights are the specification's prob and wsum of that sequence, and t0, t1, t2 are the three rows of the
  scratch as the body found it.
-/
import proofs.«144965_g11562051961505_week1_w4_918_31_alg».proof.Proof.Gen.KernelIdeal.Frame
import proofs.«144965_g11562051961505_week1_w4_918_31_alg».proof.Proof.Spec
import proofs.«144965_g11562051961505_week1_w4_918_31_alg».proof.Proof.KerProb
import proofs.«144965_g11562051961505_week1_w4_918_31_alg».proof.Proof.KerTables
import proofs.«144965_g11562051961505_week1_w4_918_31_alg».proof.Proof.KerOut
import proofs.«144965_g11562051961505_week1_w4_918_31_alg».proof.Proof.KerPieces
import Idealize.ShloMosaic.Lib.Pipeline.Value
import Idealize.ShloMosaic.Lib.WritesUnit

set_option maxRecDepth 16384

noncomputable section

namespace Cert.KernelIdeal.KerFrameB

open Cert.KernelIdeal Cert.KernelIdeal.Gen Cert.KernelIdeal.KerPieces Idealize.ShloMosaic Idealize.ShloMosaic.TcCoe
open Idealize.ShloMosaic.ValueIdx Idealize.ShloMosaic.Tactic Idealize.SL.Sem

/-! ## Row rectangles of a stack of [512, 256] tables -/

section Rows

variable {n : ℕ}

/-- The rectangle of rows [r, r + 1) of an [n, 512, 256] stack places its local index (0, s, d) at (r, s, d). -/
theorem emb_row (r : ℕ) (hr : r < n)
    (inb : ∀ a, (![r, 0, 0] : Fin 3 → ℕ) a + S1x512x256.size a ≤ (⟨3, ![n, 512, 256]⟩ : Shape).size a)
    (s : Fin 512) (d : Fin 256) :
    (Rect.unit (s := (⟨3, ![n, 512, 256]⟩ : Shape)) ![r, 0, 0] S1x512x256.size inb).emb (ix3 0 s d) = ix3 ⟨r, hr⟩ s d := by
  funext a
  refine Fin.ext ?_
  match a with
  | ⟨0, _⟩ => show r + 1 * 0 = r; omega
  | ⟨1, _⟩ => show 0 + 1 * s.val = s.val; omega
  | ⟨2, _⟩ => show 0 + 1 * d.val = d.val; omega

/-- An index of another row is outside the rectangle of rows [r, r + 1). -/
theorem not_mem_row (r : ℕ)
    (inb : ∀ a, (![r, 0, 0] : Fin 3 → ℕ) a + S1x512x256.size a ≤ (⟨3, ![n, 512, 256]⟩ : Shape).size a)
    (r' : Fin n) (hne : r'.val ≠ r) (s : Fin 512) (d : Fin 256) :
    ix3 r' s d ∉ (Rect.unit (s := (⟨3, ![n, 512, 256]⟩ : Shape)) ![r, 0, 0] S1x512x256.size inb).set := by
  rw [Rect.mem_set_unit]
  intro h
  have h0 := h 0
  have e1 : (![r, 0, 0] : Fin 3 → ℕ) 0 = r := rfl
  have e2 : S1x512x256.size (0 : Fin 3) = 1 := rfl
  have e3 : ((ix3 r' s d : (⟨3, ![n, 512, 256]⟩ : Shape).Idx) 0).val = r'.val := rfl
  rw [e1, e2, e3] at h0
  omega

/-- A load of rows [r, r + 1) of a buffer whose contents read X reads, at (0, s, d), X at (r, s, d). -/
theorem load_row {e : EltTy} (m : Memref sig .tc .vmem (⟨3, ![n, 512, 256]⟩ : Shape) e) (hm : m.IsWhole)
    (X : Vec Ideal (⟨3, ![n, 512, 256]⟩ : Shape) e) (r : ℕ) (hr : r < n)
    (inb : ∀ a, (![r, 0, 0] : Fin 3 → ℕ) a + S1x512x256.size a ≤ (⟨3, ![n, 512, 256]⟩ : Shape).size a)
    (s : Fin 512) (d : Fin 256) :
    View.readAt (Elt Ideal) m.view (Rect.unit (s := (⟨3, ![n, 512, 256]⟩ : Shape)) ![r, 0, 0] S1x512x256.size inb).toLoadRect
        (hm.unread X) (ix3 0 s d) = X (ix3 ⟨r, hr⟩ s d) := by
  rw [View.readAt_eq_ld, hm.read_unread]
  exact congrArg X (emb_row r hr inb s d)

/-- A load of a whole buffer whose contents read X reads X. -/
theorem load_whole {S : Shape} {e : EltTy} (m : Memref sig .tc .vmem S e) (hm : m.IsWhole) (X : Vec Ideal S e)
    (off : Fin S.rank → ℕ) (hz : off = fun _ => 0) (inb : ∀ a, off a + S.size a ≤ S.size a) :
    View.readAt (Elt Ideal) m.view (Rect.unit off S.size inb).toLoadRect (hm.unread X) = X := by
  rw [View.readAt_eq_ld, hm.read_unread]
  exact View.ld_unit_zero hz inb X

end Rows

/-! ## Eight stacked stores read back -/

section Stack

variable {Val : EltTy → Type} [∀ e, Nonempty (Val e)] {n : ℕ} {e : EltTy}

/-- A newest store through rows [r, r + 1) is invisible at an index of another row. -/
theorem canon_skip_row (r : ℕ)
    (inb : ∀ a, (![r, 0, 0] : Fin 3 → ℕ) a + S1x512x256.size a ≤ (⟨3, ![n, 512, 256]⟩ : Shape).size a)
    (w : S1x512x256.Idx → Val e) (L : List (View.Piece Val (⟨3, ![n, 512, 256]⟩ : Shape) e))
    (r' : Fin n) (hne : r'.val ≠ r) (s : Fin 512) (d : Fin 256) :
    View.canon (Val := Val)
        ((⟨Rect.unit (s := (⟨3, ![n, 512, 256]⟩ : Shape)) ![r, 0, 0] S1x512x256.size inb, w⟩ :
          View.Piece Val (⟨3, ![n, 512, 256]⟩ : Shape) e) :: L) (ix3 r' s d)
      = View.canon (Val := Val) L (ix3 r' s d) :=
  View.canon_cons_of_not_mem
    (⟨Rect.unit (s := (⟨3, ![n, 512, 256]⟩ : Shape)) ![r, 0, 0] S1x512x256.size inb, w⟩ :
      View.Piece Val (⟨3, ![n, 512, 256]⟩ : Shape) e) L (not_mem_row r inb r' hne s d)

/-- A newest store through rows [r, r + 1) shows its payload at (0, s, d) at the index (r, s, d). -/
theorem canon_hit_row (r : ℕ) (hr : r < n)
    (inb : ∀ a, (![r, 0, 0] : Fin 3 → ℕ) a + S1x512x256.size a ≤ (⟨3, ![n, 512, 256]⟩ : Shape).size a)
    (w : S1x512x256.Idx → Val e) (L : List (View.Piece Val (⟨3, ![n, 512, 256]⟩ : Shape) e))
    (s : Fin 512) (d : Fin 256) :
    View.canon (Val := Val)
        ((⟨Rect.unit (s := (⟨3, ![n, 512, 256]⟩ : Shape)) ![r, 0, 0] S1x512x256.size inb, w⟩ :
          View.Piece Val (⟨3, ![n, 512, 256]⟩ : Shape) e) :: L) (ix3 ⟨r, hr⟩ s d)
      = w (ix3 0 s d) := by
  rw [← emb_row r hr inb s d]
  exact View.canon_cons_emb (Rect.unit (s := (⟨3, ![n, 512, 256]⟩ : Shape)) ![r, 0, 0] S1x512x256.size inb) w L (ix3 0 s d)

/-- An [8, 512, 256] buffer filled by eight stores, sequence c through the rectangle of rows [c, c + 1), holds at (c, s, d)
    the c-th stored payload at (0, s, d). -/
theorem canon8_apply
    (inb7 : ∀ a, (![7, 0, 0] : Fin 3 → ℕ) a + S1x512x256.size a ≤ S8x512x256.size a)
    (inb6 : ∀ a, (![6, 0, 0] : Fin 3 → ℕ) a + S1x512x256.size a ≤ S8x512x256.size a)
    (inb5 : ∀ a, (![5, 0, 0] : Fin 3 → ℕ) a + S1x512x256.size a ≤ S8x512x256.size a)
    (inb4 : ∀ a, (![4, 0, 0] : Fin 3 → ℕ) a + S1x512x256.size a ≤ S8x512x256.size a)
    (inb3 : ∀ a, (![3, 0, 0] : Fin 3 → ℕ) a + S1x512x256.size a ≤ S8x512x256.size a)
    (inb2 : ∀ a, (![2, 0, 0] : Fin 3 → ℕ) a + S1x512x256.size a ≤ S8x512x256.size a)
    (inb1 : ∀ a, (![1, 0, 0] : Fin 3 → ℕ) a + S1x512x256.size a ≤ S8x512x256.size a)
    (inb0 : ∀ a, (![0, 0, 0] : Fin 3 → ℕ) a + S1x512x256.size a ≤ S8x512x256.size a)
    (w7 w6 w5 w4 w3 w2 w1 w0 : S1x512x256.Idx → Val e) (c : Fin 8) (s : Fin 512) (d : Fin 256) :
    View.canon (Val := Val)
        [(⟨Rect.unit (s := S8x512x256) ![7, 0, 0] S1x512x256.size inb7, w7⟩ : View.Piece Val S8x512x256 e),
         ⟨Rect.unit (s := S8x512x256) ![6, 0, 0] S1x512x256.size inb6, w6⟩,
         ⟨Rect.unit (s := S8x512x256) ![5, 0, 0] S1x512x256.size inb5, w5⟩,
         ⟨Rect.unit (s := S8x512x256) ![4, 0, 0] S1x512x256.size inb4, w4⟩,
         ⟨Rect.unit (s := S8x512x256) ![3, 0, 0] S1x512x256.size inb3, w3⟩,
         ⟨Rect.unit (s := S8x512x256) ![2, 0, 0] S1x512x256.size inb2, w2⟩,
         ⟨Rect.unit (s := S8x512x256) ![1, 0, 0] S1x512x256.size inb1, w1⟩,
         ⟨Rect.unit (s := S8x512x256) ![0, 0, 0] S1x512x256.size inb0, w0⟩] (ix3 c s d)
      = (match c with
          | ⟨0, _⟩ => w0 | ⟨1, _⟩ => w1 | ⟨2, _⟩ => w2 | ⟨3, _⟩ => w3
          | ⟨4, _⟩ => w4 | ⟨5, _⟩ => w5 | ⟨6, _⟩ => w6 | ⟨_ + 7, _⟩ => w7) (ix3 0 s d) := by
  match c with
  | ⟨0, h⟩ =>
    rw [canon_skip_row 7 inb7 w7 _ ⟨0, h⟩ (show (0 : ℕ) ≠ 7 by decide) s d,
      canon_skip_row 6 inb6 w6 _ ⟨0, h⟩ (show (0 : ℕ) ≠ 6 by decide) s d,
      canon_skip_row 5 inb5 w5 _ ⟨0, h⟩ (show (0 : ℕ) ≠ 5 by decide) s d,
      canon_skip_row 4 inb4 w4 _ ⟨0, h⟩ (show (0 : ℕ) ≠ 4 by decide) s d,
      canon_skip_row 3 inb3 w3 _ ⟨0, h⟩ (show (0 : ℕ) ≠ 3 by decide) s d,
      canon_skip_row 2 inb2 w2 _ ⟨0, h⟩ (show (0 : ℕ) ≠ 2 by decide) s d,
      canon_skip_row 1 inb1 w1 _ ⟨0, h⟩ (show (0 : ℕ) ≠ 1 by decide) s d,
      canon_hit_row 0 h inb0 w0 _ s d]
  | ⟨1, h⟩ =>
    rw [canon_skip_row 7 inb7 w7 _ ⟨1, h⟩ (show (1 : ℕ) ≠ 7 by decide) s d,
      canon_skip_row 6 inb6 w6 _ ⟨1, h⟩ (show (1 : ℕ) ≠ 6 by decide) s d,
      canon_skip_row 5 inb5 w5 _ ⟨1, h⟩ (show (1 : ℕ) ≠ 5 by decide) s d,
      canon_skip_row 4 inb4 w4 _ ⟨1, h⟩ (show (1 : ℕ) ≠ 4 by decide) s d,
      canon_skip_row 3 inb3 w3 _ ⟨1, h⟩ (show (1 : ℕ) ≠ 3 by decide) s d,
      canon_skip_row 2 inb2 w2 _ ⟨1, h⟩ (show (1 : ℕ) ≠ 2 by decide) s d,
      canon_hit_row 1 h inb1 w1 _ s d]
  | ⟨2, h⟩ =>
    rw [canon_skip_row 7 inb7 w7 _ ⟨2, h⟩ (show (2 : ℕ) ≠ 7 by decide) s d,
      canon_skip_row 6 inb6 w6 _ ⟨2, h⟩ (show (2 : ℕ) ≠ 6 by decide) s d,
      canon_skip_row 5 inb5 w5 _ ⟨2, h⟩ (show (2 : ℕ) ≠ 5 by decide) s d,
      canon_skip_row 4 inb4 w4 _ ⟨2, h⟩ (show (2 : ℕ) ≠ 4 by decide) s d,
      canon_skip_row 3 inb3 w3 _ ⟨2, h⟩ (show (2 : ℕ) ≠ 3 by decide) s d,
      canon_hit_row 2 h inb2 w2 _ s d]
  | ⟨3, h⟩ =>
    rw [canon_skip_row 7 inb7 w7 _ ⟨3, h⟩ (show (3 : ℕ) ≠ 7 by decide) s d,
      canon_skip_row 6 inb6 w6 _ ⟨3, h⟩ (show (3 : ℕ) ≠ 6 by decide) s d,
      canon_skip_row 5 inb5 w5 _ ⟨3, h⟩ (show (3 : ℕ) ≠ 5 by decide) s d,
      canon_skip_row 4 inb4 w4 _ ⟨3, h⟩ (show (3 : ℕ) ≠ 4 by decide) s d,
      canon_hit_row 3 h inb3 w3 _ s d]
  | ⟨4, h⟩ =>
    rw [canon_skip_row 7 inb7 w7 _ ⟨4, h⟩ (show (4 : ℕ) ≠ 7 by decide) s d,
      canon_skip_row 6 inb6 w6 _ ⟨4, h⟩ (show (4 : ℕ) ≠ 6 by decide) s d,
      canon_skip_row 5 inb5 w5 _ ⟨4, h⟩ (show (4 : ℕ) ≠ 5 by decide) s d,
      canon_hit_row 4 h inb4 w4 _ s d]
  | ⟨5, h⟩ =>
    rw [canon_skip_row 7 inb7 w7 _ ⟨5, h⟩ (show (5 : ℕ) ≠ 7 by decide) s d,
      canon_skip_row 6 inb6 w6 _ ⟨5, h⟩ (show (5 : ℕ) ≠ 6 by decide) s d,
      canon_hit_row 5 h inb5 w5 _ s d]
  | ⟨6, h⟩ =>
    rw [canon_skip_row 7 inb7 w7 _ ⟨6, h⟩ (show (6 : ℕ) ≠ 7 by decide) s d,
      canon_hit_row 6 h inb6 w6 _ s d]
  | ⟨7, h⟩ =>
    rw [canon_hit_row 7 h inb7 w7 _ s d]

end Stack

/-! ## One output entry from the body's loads -/

section Entry

/-- The eight sequence loads of a block whose contents read X are, together, the block's rows. -/
theorem rowsel_loads (m : Memref sig .tc .vmem S8x512x256 .f32) (hm : m.IsWhole) (X : Vec Ideal S8x512x256 .f32)
    (inb0 : ∀ a, (![0, 0, 0] : Fin 3 → ℕ) a + S1x512x256.size a ≤ S8x512x256.size a) (inb1 : ∀ a, (![1, 0, 0] : Fin 3 → ℕ) a + S1x512x256.size a ≤ S8x512x256.size a) (inb2 : ∀ a, (![2, 0, 0] : Fin 3 → ℕ) a + S1x512x256.size a ≤ S8x512x256.size a) (inb3 : ∀ a, (![3, 0, 0] : Fin 3 → ℕ) a + S1x512x256.size a ≤ S8x512x256.size a)
    (inb4 : ∀ a, (![4, 0, 0] : Fin 3 → ℕ) a + S1x512x256.size a ≤ S8x512x256.size a) (inb5 : ∀ a, (![5, 0, 0] : Fin 3 → ℕ) a + S1x512x256.size a ≤ S8x512x256.size a) (inb6 : ∀ a, (![6, 0, 0] : Fin 3 → ℕ) a + S1x512x256.size a ≤ S8x512x256.size a) (inb7 : ∀ a, (![7, 0, 0] : Fin 3 → ℕ) a + S1x512x256.size a ≤ S8x512x256.size a)
    (c : Fin 8) :
    KerProb.rowsel (View.readAt (Elt Ideal) m.view (Rect.unit (s := S8x512x256) ![0, 0, 0] S1x512x256.size inb0).toLoadRect (hm.unread X))
        (View.readAt (Elt Ideal) m.view (Rect.unit (s := S8x512x256) ![1, 0, 0] S1x512x256.size inb1).toLoadRect (hm.unread X))
        (View.readAt (Elt Ideal) m.view (Rect.unit (s := S8x512x256) ![2, 0, 0] S1x512x256.size inb2).toLoadRect (hm.unread X))
        (View.readAt (Elt Ideal) m.view (Rect.unit (s := S8x512x256) ![3, 0, 0] S1x512x256.size inb3).toLoadRect (hm.unread X))
        (View.readAt (Elt Ideal) m.view (Rect.unit (s := S8x512x256) ![4, 0, 0] S1x512x256.size inb4).toLoadRect (hm.unread X))
        (View.readAt (Elt Ideal) m.view (Rect.unit (s := S8x512x256) ![5, 0, 0] S1x512x256.size inb5).toLoadRect (hm.unread X))
        (View.readAt (Elt Ideal) m.view (Rect.unit (s := S8x512x256) ![6, 0, 0] S1x512x256.size inb6).toLoadRect (hm.unread X))
        (View.readAt (Elt Ideal) m.view (Rect.unit (s := S8x512x256) ![7, 0, 0] S1x512x256.size inb7).toLoadRect (hm.unread X)) c
      = xrow X c := by
  funext s d
  match c with
  | ⟨0, h⟩ => exact load_row m hm X 0 h inb0 s d
  | ⟨1, h⟩ => exact load_row m hm X 1 h inb1 s d
  | ⟨2, h⟩ => exact load_row m hm X 2 h inb2 s d
  | ⟨3, h⟩ => exact load_row m hm X 3 h inb3 s d
  | ⟨4, h⟩ => exact load_row m hm X 4 h inb4 s d
  | ⟨5, h⟩ => exact load_row m hm X 5 h inb5 s d
  | ⟨6, h⟩ => exact load_row m hm X 6 h inb6 s d
  | ⟨7, h⟩ => exact load_row m hm X 7 h inb7 s d

/-- With the weights read as the specification's prob and wsum of the c-th row, and every load read as the contents it
    loads, the stored formula wsum * x + (t0 + p0 * t1 + p1 * t2) is the output entry outF. -/
theorem entry_apply (L0 L1 L2 L3 L4 L5 L6 L7 XR : Vec Ideal S1x512x256 .f32) (W1 : Vec Ideal S128x256 .f32)
    (B1 : Vec Ideal S1x128 .f32) (W2 : Vec Ideal S3x128 .f32) (B2 CW : Vec Ideal S1x3 .f32)
    (T0 T1 T2 : Vec Ideal S1x512x256 .bf16)
    (x0 : Vec Ideal S8x512x256 .f32) (x4 : Vec Ideal S128x256 .f32) (x5 : Vec Ideal S1x128 .f32)
    (x6 : Vec Ideal S3x128 .f32) (x7 x8 : Vec Ideal S1x3 .f32) (t : Fin 3 → Fin 512 → Fin 256 → EReal)
    (c : Fin 8) (s : Fin 512) (d : Fin 256)
    (hL : KerProb.rowsel L0 L1 L2 L3 L4 L5 L6 L7 c = xrow x0 c)
    (hW1 : W1 = x4) (hB1 : B1 = x5) (hW2 : W2 = x6) (hB2 : B2 = x7) (hCW : CW = x8)
    (hXR : XR (ix3 0 s d) = x0 (ix3 c s d))
    (hT0 : T0 (ix3 0 s d) = t 0 s d) (hT1 : T1 (ix3 0 s d) = t 1 s d) (hT2 : T2 (ix3 0 s d) = t 2 s d) :
    k0_pay15 (F := Ideal) (k0_pay6 L3) (k0_pay7 L4) (k0_pay8 L5) (k0_pay9 L6) (k0_pay10 L7) (k0_pay11 L0) (k0_pay12 L1)
          (k0_pay13 L2) W1 B1 W2 B2 CW (ix2 c 0) * XR (ix3 0 s d)
        + (T0 (ix3 0 s d)
          + k0_pay14 (F := Ideal) (k0_pay6 L3) (k0_pay7 L4) (k0_pay8 L5) (k0_pay9 L6) (k0_pay10 L7) (k0_pay11 L0)
              (k0_pay12 L1) (k0_pay13 L2) W1 B1 W2 B2 (ix2 c 0) * T1 (ix3 0 s d)
          + k0_pay14 (F := Ideal) (k0_pay6 L3) (k0_pay7 L4) (k0_pay8 L5) (k0_pay9 L6) (k0_pay10 L7) (k0_pay11 L0)
              (k0_pay12 L1) (k0_pay13 L2) W1 B1 W2 B2 (ix2 c 1) * T2 (ix3 0 s d))
      = outF x0 x4 x5 x6 x7 x8 t c s d := by
  subst hW1 hB1 hW2 hB2 hCW
  rw [KerProb.pay15_apply L0 L1 L2 L3 L4 L5 L6 L7 W1 B1 W2 B2 CW c,
    KerProb.pay14_apply L0 L1 L2 L3 L4 L5 L6 L7 W1 B1 W2 B2 c 0,
    KerProb.pay14_apply L0 L1 L2 L3 L4 L5 L6 L7 W1 B1 W2 B2 c 1, hL, hXR, hT0, hT1, hT2]
  rfl

end Entry

/-! ## The block after a later-point body -/

/-- The zero offsets of a whole rank-2 load. -/
theorem zero2 : (![0, 0] : Fin 2 → ℕ) = fun _ => 0 := by
  funext a
  match a with
  | ⟨0, _⟩ => rfl
  | ⟨1, _⟩ => rfl

/-- Entry (c, s, d) of the output block after a later-point body, over the scratch contents xs0 it found. -/
theorem outB_apply (c : Dev nD) (i : grid0.Coords) (arg1 : Memref sig .tc .vmem S8x512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S824x256 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S3x128 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S8x512x256 .f32) (harg10 : arg10.IsWhole) (arg11 : Memref sig .tc .vmem S3x512x256 .bf16) (harg11 : arg11.IsWhole) (hc0 : ¬cond0_0 i) (x0 : Vec Ideal S8x512x256 .f32) (x1 : Vec Ideal S512x256 .f32) (x2 : Vec Ideal S512x256 .f32) (x3 : Vec Ideal S824x256 .f32) (x4 : Vec Ideal S128x256 .f32) (x5 : Vec Ideal S1x128 .f32) (x6 : Vec Ideal S3x128 .f32) (x7 : Vec Ideal S1x3 .f32) (x8 : Vec Ideal S1x3 .f32) (xs0 : Vec Ideal S3x512x256 .bf16) (c' : Fin 8) (s : Fin 512) (d : Fin 256) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 (ix3 c' s d) = outF x0 x4 x5 x6 x7 x8 (fun r s d => xs0 (ix3 r s d)) c' s d := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0)]
  unfold kernelRun0_B
  dsimp only
  sl_unfold_words
  refine (canon8_apply _ _ _ _ _ _ _ _ _ _ _ _ _ _ _ _ c' s d).trans ?_
  match c' with
  | ⟨0, h⟩ =>
    refine (KerOut.out0_apply _ _ _ _ _ _ s d).trans ?_
    exact entry_apply _ _ _ _ _ _ _ _ _ _ _ _ _ _ _ _ _ x0 x4 x5 x6 x7 x8 _ ⟨0, h⟩ s d
      (rowsel_loads arg1 harg1 x0 _ _ _ _ _ _ _ _ ⟨0, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 0 h _ s d)
      (load_row arg11 harg11 xs0 0 (by decide) _ s d) (load_row arg11 harg11 xs0 1 (by decide) _ s d)
      (load_row arg11 harg11 xs0 2 (by decide) _ s d)
  | ⟨1, h⟩ =>
    refine (KerOut.out1_apply _ _ _ _ _ _ s d).trans ?_
    exact entry_apply _ _ _ _ _ _ _ _ _ _ _ _ _ _ _ _ _ x0 x4 x5 x6 x7 x8 _ ⟨1, h⟩ s d
      (rowsel_loads arg1 harg1 x0 _ _ _ _ _ _ _ _ ⟨1, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 1 h _ s d)
      (load_row arg11 harg11 xs0 0 (by decide) _ s d) (load_row arg11 harg11 xs0 1 (by decide) _ s d)
      (load_row arg11 harg11 xs0 2 (by decide) _ s d)
  | ⟨2, h⟩ =>
    refine (KerOut.out2_apply _ _ _ _ _ _ s d).trans ?_
    exact entry_apply _ _ _ _ _ _ _ _ _ _ _ _ _ _ _ _ _ x0 x4 x5 x6 x7 x8 _ ⟨2, h⟩ s d
      (rowsel_loads arg1 harg1 x0 _ _ _ _ _ _ _ _ ⟨2, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 2 h _ s d)
      (load_row arg11 harg11 xs0 0 (by decide) _ s d) (load_row arg11 harg11 xs0 1 (by decide) _ s d)
      (load_row arg11 harg11 xs0 2 (by decide) _ s d)
  | ⟨3, h⟩ =>
    refine (KerOut.out3_apply _ _ _ _ _ _ s d).trans ?_
    exact entry_apply _ _ _ _ _ _ _ _ _ _ _ _ _ _ _ _ _ x0 x4 x5 x6 x7 x8 _ ⟨3, h⟩ s d
      (rowsel_loads arg1 harg1 x0 _ _ _ _ _ _ _ _ ⟨3, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 3 h _ s d)
      (load_row arg11 harg11 xs0 0 (by decide) _ s d) (load_row arg11 harg11 xs0 1 (by decide) _ s d)
      (load_row arg11 harg11 xs0 2 (by decide) _ s d)
  | ⟨4, h⟩ =>
    refine (KerOut.out4_apply _ _ _ _ _ _ s d).trans ?_
    exact entry_apply _ _ _ _ _ _ _ _ _ _ _ _ _ _ _ _ _ x0 x4 x5 x6 x7 x8 _ ⟨4, h⟩ s d
      (rowsel_loads arg1 harg1 x0 _ _ _ _ _ _ _ _ ⟨4, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 4 h _ s d)
      (load_row arg11 harg11 xs0 0 (by decide) _ s d) (load_row arg11 harg11 xs0 1 (by decide) _ s d)
      (load_row arg11 harg11 xs0 2 (by decide) _ s d)
  | ⟨5, h⟩ =>
    refine (KerOut.out5_apply _ _ _ _ _ _ s d).trans ?_
    exact entry_apply _ _ _ _ _ _ _ _ _ _ _ _ _ _ _ _ _ x0 x4 x5 x6 x7 x8 _ ⟨5, h⟩ s d
      (rowsel_loads arg1 harg1 x0 _ _ _ _ _ _ _ _ ⟨5, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 5 h _ s d)
      (load_row arg11 harg11 xs0 0 (by decide) _ s d) (load_row arg11 harg11 xs0 1 (by decide) _ s d)
      (load_row arg11 harg11 xs0 2 (by decide) _ s d)
  | ⟨6, h⟩ =>
    refine (KerOut.out6_apply _ _ _ _ _ _ s d).trans ?_
    exact entry_apply _ _ _ _ _ _ _ _ _ _ _ _ _ _ _ _ _ x0 x4 x5 x6 x7 x8 _ ⟨6, h⟩ s d
      (rowsel_loads arg1 harg1 x0 _ _ _ _ _ _ _ _ ⟨6, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 6 h _ s d)
      (load_row arg11 harg11 xs0 0 (by decide) _ s d) (load_row arg11 harg11 xs0 1 (by decide) _ s d)
      (load_row arg11 harg11 xs0 2 (by decide) _ s d)
  | ⟨7, h⟩ =>
    refine (KerOut.out7_apply _ _ _ _ _ _ s d).trans ?_
    exact entry_apply _ _ _ _ _ _ _ _ _ _ _ _ _ _ _ _ _ x0 x4 x5 x6 x7 x8 _ ⟨7, h⟩ s d
      (rowsel_loads arg1 harg1 x0 _ _ _ _ _ _ _ _ ⟨7, h⟩)
      (load_whole arg5 harg5 x4 _ zero2 _) (load_whole arg6 harg6 x5 _ zero2 _) (load_whole arg7 harg7 x6 _ zero2 _)
      (load_whole arg8 harg8 x7 _ zero2 _) (load_whole arg9 harg9 x8 _ zero2 _)
      (load_row arg1 harg1 x0 7 h _ s d)
      (load_row arg11 harg11 xs0 0 (by decide) _ s d) (load_row arg11 harg11 xs0 1 (by decide) _ s d)
      (load_row arg11 harg11 xs0 2 (by decide) _ s d)

end Cert.KernelIdeal.KerFrameB

end
-- ==== Proof.KerHost.lean ====
/-
  What the kernel's region finds in the arrays the host prepared for it.

  Before the region the host pads the relative table with five zero rows (the padding value is the integer 0 converted
  to a float), slices the first 512 rows of the sinusoidal and the learned tables, and reshapes the two biases and the
  mixing weights from [n] to [1, n].
-/
import proofs.«144965_g11562051961505_week1_w4_918_31_alg».proof.Proof.Gen.KernelIdeal.Frame
import proofs.«144965_g11562051961505_week1_w4_918_31_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.PureOps.Ideal.Laws

noncomputable section

namespace Cert.KernelIdeal.KerHost

open Cert.KernelIdeal Cert.KernelIdeal.Gen Idealize.ShloMosaic Idealize.ShloMosaic.TcCoe Idealize.ShloMosaic.ValueIdx
open Idealize.SL.Sem

/-! ## The three layout operations over plain arrays -/

/-- A table of 819 rows padded below with five rows of the value held by a rank-0 array, at (k, d): the table's row k
    when k < 819, the padding value otherwise. -/
theorem pad_rows_apply (x : S819x256.Idx → EReal) (v : S_.Idx → EReal)
    (hp : S819x256.Pads ![0, 0] ![5, 0] ![0, 0] S824x256) (hu : 0 < S_.numel) (k : Fin 824) (d : Fin 256) :
    pad S824x256 ![0, 0] ![5, 0] ![0, 0] x v hp hu (ix2 k d)
      = if h : k.val < 819 then x (ix2 ⟨k.val, h⟩ d) else v (Shape.Idx.first hu) := by
  by_cases h : k.val < 819
  · rw [dif_pos h]
    refine pad_apply_of_inside _ _ _ x v hp hu _ (ix2 ⟨k.val, h⟩ d) (fun a => ?_)
    match a with
    | ⟨0, _⟩ => show k.val = 0 + k.val * (0 + 1); omega
    | ⟨1, _⟩ => show d.val = 0 + d.val * (0 + 1); omega
  · rw [dif_neg h]
    refine pad_apply_of_not_inside _ _ _ x v hp hu _ (⟨0, by decide⟩ : Fin 2) (fun hin => h ?_)
    have h3 : (k.val - 0) / (0 + 1) < 819 := hin.2.2
    omega

/-- The first 512 rows of a table of 4096 rows, at (s, d): the table's row s. -/
theorem slice_rows_apply (x : S4096x256.Idx → EReal) (hs : S4096x256.Slices ![0, 0] S512x256) (s : Fin 512) (d : Fin 256) :
    extractStridedSlice S512x256 ![0, 0] x hs (ix2 s d) = x (ix2 (Cert.Spec.row4096 s) d) :=
  slice2_axis0_apply 0 x hs s d (Cert.Spec.row4096 s) (by show s.val = 0 + s.val; omega)

variable (m : (ℓ : Loc nD τ sig) → Buf (Elt Ideal) ℓ)

/-! ## The arrays the region finds -/

/-- The padded relative table at (k, d): the table's row k below 819, zero in the five added rows. -/
theorem V_v0 (c : Dev nD) (k : Fin 824) (d : Fin 256) :
    (V m c main_v0 : S824x256.Idx → EReal) (ix2 k d)
      = Cert.Spec.relPad (Cert.Spec.a2 (m ((c : Thread nD τ).loc main_arg2) : S819x256.Idx → EReal)) k d := by
  have e : (V m c main_v0 : S824x256.Idx → EReal)
      = pad S824x256 ![0, 0] ![5, 0] ![0, 0] (m ((c : Thread nD τ).loc main_arg2) : S819x256.Idx → EReal)
          (sitofp (F := Ideal) .f32 (constantI S_ 32 0#32)) pads_S819x256_S824x256_050_000 h_S_ := by
    dsimp only [Gen.V]
    simp only [Gen.hostOps0, Gen.hostOps0_1, Gen.hostOps0_2, List.flatten_cons, List.flatten_nil, List.append_nil,
      List.cons_append, List.nil_append]
    after_results
    rfl
  rw [e, pad_rows_apply]
  unfold Cert.Spec.relPad
  by_cases h : k.val < 819
  · rw [dif_pos h, dif_pos h]
  · rw [dif_neg h, dif_neg h]
    show (((0#32 : BitVec 32).toInt : ℝ) : EReal) = 0
    norm_num

/-- The sliced sinusoidal table at (s, d) is the table's row s. -/
theorem V_v1 (c : Dev nD) (s : Fin 512) (d : Fin 256) :
    (V m c main_v1 : S512x256.Idx → EReal) (ix2 s d)
      = (m ((c : Thread nD τ).loc main_arg8) : S4096x256.Idx → EReal) (ix2 (Cert.Spec.row4096 s) d) := by
  have e : (V m c main_v1 : S512x256.Idx → EReal)
      = extractStridedSlice S512x256 ![0, 0] (m ((c : Thread nD τ).loc main_arg8) : S4096x256.Idx → EReal)
          slices_S4096x256_S512x256_0_0 := by
    dsimp only [Gen.V]
    simp only [Gen.hostOps0, Gen.hostOps0_1, Gen.hostOps0_2, List.flatten_cons, List.flatten_nil, List.append_nil,
      List.cons_append, List.nil_append]
    after_results
  rw [e, slice_rows_apply]

/-- The sliced learned table at (s, d) is the table's row s. -/
theorem V_v2 (c : Dev nD) (s : Fin 512) (d : Fin 256) :
    (V m c main_v2 : S512x256.Idx → EReal) (ix2 s d)
      = (m ((c : Thread nD τ).loc main_arg1) : S4096x256.Idx → EReal) (ix2 (Cert.Spec.row4096 s) d) := by
  have e : (V m c main_v2 : S512x256.Idx → EReal)
      = extractStridedSlice S512x256 ![0, 0] (m ((c : Thread nD τ).loc main_arg1) : S4096x256.Idx → EReal)
          slices_S4096x256_S512x256_0_0 := by
    dsimp only [Gen.V]
    simp only [Gen.hostOps0, Gen.hostOps0_1, Gen.hostOps0_2, List.flatten_cons, List.flatten_nil, List.append_nil,
      List.cons_append, List.nil_append]
    after_results
  rw [e, slice_rows_apply]

/-- The first bias as a row. -/
theorem V_v3 (c : Dev nD) (j : Fin 128) :
    (V m c main_v3 : S1x128.Idx → EReal) (ix2 0 j) = (m ((c : Thread nD τ).loc main_arg4) : S128.Idx → EReal) (ix1 j) := by
  have e : (V m c main_v3 : S1x128.Idx → EReal)
      = shapeCast S1x128 (m ((c : Thread nD τ).loc main_arg4) : S128.Idx → EReal) shapeCasts_S128_S1x128 := by
    dsimp only [Gen.V]
    simp only [Gen.hostOps0, Gen.hostOps0_1, Gen.hostOps0_2, List.flatten_cons, List.flatten_nil, List.append_nil,
      List.cons_append, List.nil_append]
    after_results
    rfl
  rw [e]
  exact shapeCast_a_1a_apply _ _ 0 j

/-- The second bias as a row. -/
theorem V_v4 (c : Dev nD) (k : Fin 3) :
    (V m c main_v4 : S1x3.Idx → EReal) (ix2 0 k) = (m ((c : Thread nD τ).loc main_arg6) : S3.Idx → EReal) (ix1 k) := by
  have e : (V m c main_v4 : S1x3.Idx → EReal)
      = shapeCast S1x3 (m ((c : Thread nD τ).loc main_arg6) : S3.Idx → EReal) shapeCasts_S3_S1x3 := by
    dsimp only [Gen.V]
    simp only [Gen.hostOps0, Gen.hostOps0_1, Gen.hostOps0_2, List.flatten_cons, List.flatten_nil, List.append_nil,
      List.cons_append, List.nil_append]
    after_results
    rfl
  rw [e]
  exact shapeCast_a_1a_apply _ _ 0 k

/-- The mixing weights as a row. -/
theorem V_v5 (c : Dev nD) (k : Fin 3) :
    (V m c main_v5 : S1x3.Idx → EReal) (ix2 0 k) = (m ((c : Thread nD τ).loc main_arg7) : S3.Idx → EReal) (ix1 k) := by
  have e : (V m c main_v5 : S1x3.Idx → EReal)
      = shapeCast S1x3 (m ((c : Thread nD τ).loc main_arg7) : S3.Idx → EReal) shapeCasts_S3_S1x3 := by
    dsimp only [Gen.V]
    simp only [Gen.hostOps0, Gen.hostOps0_1, Gen.hostOps0_2, List.flatten_cons, List.flatten_nil, List.append_nil,
      List.cons_append, List.nil_append]
    after_results
    rfl
  rw [e]
  exact shapeCast_a_1a_apply _ _ 0 k

end Cert.KernelIdeal.KerHost

end
-- ==== Proof.KerValue.lean ====
/-
  The kernel's output array after the run, entry by entry.

  The grid has two points; point t writes back batches 8t … 8t + 7. At the first point the body builds the three tables
  and uses them; at the second it finds them in the scratch as the first point left them. Either way entry (c, s, d) of
  the written-back block is wsum * x + (T0 + p0 * T1 + p1 * T2) of sequence 8t + c, which is the specification's kernel
  arrangement once the staged blocks are read off the arrays the host prepared.
-/
import proofs.«144965_g11562051961505_week1_w4_918_31_alg».proof.Proof.Gen.KernelIdeal.Value
import proofs.«144965_g11562051961505_week1_w4_918_31_alg».proof.Proof.Spec
import proofs.«144965_g11562051961505_week1_w4_918_31_alg».proof.Proof.KerPieces
import proofs.«144965_g11562051961505_week1_w4_918_31_alg».proof.Proof.KerFrameTab
import proofs.«144965_g11562051961505_week1_w4_918_31_alg».proof.Proof.KerFrameA
import proofs.«144965_g11562051961505_week1_w4_918_31_alg».proof.Proof.KerFrameB
import proofs.«144965_g11562051961505_week1_w4_918_31_alg».proof.Proof.KerHost
import Idealize.ShloMosaic.Lib.Pipeline.Value

set_option maxRecDepth 16384

noncomputable section

namespace Cert.KernelIdeal.KerValue

open Cert.KernelIdeal Cert.KernelIdeal.Gen Cert.KernelIdeal.KerPieces Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The specification's kernel arrangement of the launch contents, as an array. -/
def G (c : Dev nD) : S16x512x256.Idx → EReal := fun i =>
  Cert.Spec.kerOut (Cert.Spec.a3 (m ((c : Thread nD τ).loc main_arg0))) (Cert.Spec.a2 (m ((c : Thread nD τ).loc main_arg1))) (Cert.Spec.a2 (m ((c : Thread nD τ).loc main_arg2))) (Cert.Spec.a2 (m ((c : Thread nD τ).loc main_arg3))) (Cert.Spec.a1 (m ((c : Thread nD τ).loc main_arg4))) (Cert.Spec.a2 (m ((c : Thread nD τ).loc main_arg5))) (Cert.Spec.a1 (m ((c : Thread nD τ).loc main_arg6))) (Cert.Spec.a1 (m ((c : Thread nD τ).loc main_arg7))) (Cert.Spec.a2 (m ((c : Thread nD τ).loc main_arg8))) (i 0) (i 1) (i 2)

/-! ## The windows' block indices, decided over the two grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)
theorem idxW1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idxW2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idxW3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idxW4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idxW5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idxW6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idxW7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idxW8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## The staged blocks, read off the arrays the region finds -/

/-- Sequence c' of the batch block at point t is sequence 8t + c' of x. -/
theorem blk0_apply (c : Dev nD) (t : Fin cfg0.N) (c' : Fin 8) (s : Fin 512) (d : Fin 256) (b : Fin 16)
    (hb : b.val = 8 * t.val + c'.val) :
    (iblk m c 0 t : S8x512x256.Idx → EReal) (ix3 c' s d) = ((m ((c : Thread nD τ).loc main_arg0)) : S16x512x256.Idx → EReal) (ix3 b s d) := by
  show V m c main_arg0 (((cfg0.win 0).blk t).view.emb (ix3 c' s d)) = _
  rw [V_main_arg0]
  refine congrArg ((m ((c : Thread nD τ).loc main_arg0)) : S16x512x256.Idx → EReal) (funext fun a => Fin.ext ?_)
  obtain ⟨e0, e1, e2⟩ := idx0 t
  match a with
  | ⟨0, _⟩ => show win0_0.index t (0 : Fin 3) * 8 + 1 * c'.val = b.val; rw [e0]; omega
  | ⟨1, _⟩ => show win0_0.index t (1 : Fin 3) * 512 + 1 * s.val = s.val; rw [e1]; omega
  | ⟨2, _⟩ => show win0_0.index t (2 : Fin 3) * 256 + 1 * d.val = d.val; rw [e2]; omega

/-- Window 1 stages its whole array at every point. -/
theorem blk1_apply (c : Dev nD) (t : Fin cfg0.N) (p : Fin 512) (q : Fin 256) :
    (iblk m c 1 t : S512x256.Idx → EReal) (ix2 p q) = (V m c main_v1 : S512x256.Idx → EReal) (ix2 p q) := by
  show V m c main_v1 (((cfg0.win 1).blk t).view.emb (ix2 p q)) = _
  refine congrArg (V m c main_v1) (funext fun a => Fin.ext ?_)
  obtain ⟨e0, e1⟩ := idxW1 t
  match a with
  | ⟨0, _⟩ => show win0_1.index t (0 : Fin 2) * 512 + 1 * p.val = p.val; rw [e0]; omega
  | ⟨1, _⟩ => show win0_1.index t (1 : Fin 2) * 256 + 1 * q.val = q.val; rw [e1]; omega

/-- Window 2 stages its whole array at every point. -/
theorem blk2_apply (c : Dev nD) (t : Fin cfg0.N) (p : Fin 512) (q : Fin 256) :
    (iblk m c 2 t : S512x256.Idx → EReal) (ix2 p q) = (V m c main_v2 : S512x256.Idx → EReal) (ix2 p q) := by
  show V m c main_v2 (((cfg0.win 2).blk t).view.emb (ix2 p q)) = _
  refine congrArg (V m c main_v2) (funext fun a => Fin.ext ?_)
  obtain ⟨e0, e1⟩ := idxW2 t
  match a with
  | ⟨0, _⟩ => show win0_2.index t (0 : Fin 2) * 512 + 1 * p.val = p.val; rw [e0]; omega
  | ⟨1, _⟩ => show win0_2.index t (1 : Fin 2) * 256 + 1 * q.val = q.val; rw [e1]; omega

/-- Window 3 stages its whole array at every point. -/
theorem blk3_apply (c : Dev nD) (t : Fin cfg0.N) (p : Fin 824) (q : Fin 256) :
    (iblk m c 3 t : S824x256.Idx → EReal) (ix2 p q) = (V m c main_v0 : S824x256.Idx → EReal) (ix2 p q) := by
  show V m c main_v0 (((cfg0.win 3).blk t).view.emb (ix2 p q)) = _
  refine congrArg (V m c main_v0) (funext fun a => Fin.ext ?_)
  obtain ⟨e0, e1⟩ := idxW3 t
  match a with
  | ⟨0, _⟩ => show win0_3.index t (0 : Fin 2) * 824 + 1 * p.val = p.val; rw [e0]; omega
  | ⟨1, _⟩ => show win0_3.index t (1 : Fin 2) * 256 + 1 * q.val = q.val; rw [e1]; omega

/-- Window 4 stages its whole array at every point. -/
theorem blk4_apply (c : Dev nD) (t : Fin cfg0.N) (p : Fin 128) (q : Fin 256) :
    (iblk m c 4 t : S128x256.Idx → EReal) (ix2 p q) = (V m c main_arg3 : S128x256.Idx → EReal) (ix2 p q) := by
  show V m c main_arg3 (((cfg0.win 4).blk t).view.emb (ix2 p q)) = _
  refine congrArg (V m c main_arg3) (funext fun a => Fin.ext ?_)
  obtain ⟨e0, e1⟩ := idxW4 t
  match a with
  | ⟨0, _⟩ => show win0_4.index t (0 : Fin 2) * 128 + 1 * p.val = p.val; rw [e0]; omega
  | ⟨1, _⟩ => show win0_4.index t (1 : Fin 2) * 256 + 1 * q.val = q.val; rw [e1]; omega

/-- Window 5 stages its whole array at every point. -/
theorem blk5_apply (c : Dev nD) (t : Fin cfg0.N) (p : Fin 1) (q : Fin 128) :
    (iblk m c 5 t : S1x128.Idx → EReal) (ix2 p q) = (V m c main_v3 : S1x128.Idx → EReal) (ix2 p q) := by
  show V m c main_v3 (((cfg0.win 5).blk t).view.emb (ix2 p q)) = _
  refine congrArg (V m c main_v3) (funext fun a => Fin.ext ?_)
  obtain ⟨e0, e1⟩ := idxW5 t
  match a with
  | ⟨0, _⟩ => show win0_5.index t (0 : Fin 2) * 1 + 1 * p.val = p.val; rw [e0]; omega
  | ⟨1, _⟩ => show win0_5.index t (1 : Fin 2) * 128 + 1 * q.val = q.val; rw [e1]; omega

/-- Window 6 stages its whole array at every point. -/
theorem blk6_apply (c : Dev nD) (t : Fin cfg0.N) (p : Fin 3) (q : Fin 128) :
    (iblk m c 6 t : S3x128.Idx → EReal) (ix2 p q) = (V m c main_arg5 : S3x128.Idx → EReal) (ix2 p q) := by
  show V m c main_arg5 (((cfg0.win 6).blk t).view.emb (ix2 p q)) = _
  refine congrArg (V m c main_arg5) (funext fun a => Fin.ext ?_)
  obtain ⟨e0, e1⟩ := idxW6 t
  match a with
  | ⟨0, _⟩ => show win0_6.index t (0 : Fin 2) * 3 + 1 * p.val = p.val; rw [e0]; omega
  | ⟨1, _⟩ => show win0_6.index t (1 : Fin 2) * 128 + 1 * q.val = q.val; rw [e1]; omega

/-- Window 7 stages its whole array at every point. -/
theorem blk7_apply (c : Dev nD) (t : Fin cfg0.N) (p : Fin 1) (q : Fin 3) :
    (iblk m c 7 t : S1x3.Idx → EReal) (ix2 p q) = (V m c main_v4 : S1x3.Idx → EReal) (ix2 p q) := by
  show V m c main_v4 (((cfg0.win 7).blk t).view.emb (ix2 p q)) = _
  refine congrArg (V m c main_v4) (funext fun a => Fin.ext ?_)
  obtain ⟨e0, e1⟩ := idxW7 t
  match a with
  | ⟨0, _⟩ => show win0_7.index t (0 : Fin 2) * 1 + 1 * p.val = p.val; rw [e0]; omega
  | ⟨1, _⟩ => show win0_7.index t (1 : Fin 2) * 3 + 1 * q.val = q.val; rw [e1]; omega

/-- Window 8 stages its whole array at every point. -/
theorem blk8_apply (c : Dev nD) (t : Fin cfg0.N) (p : Fin 1) (q : Fin 3) :
    (iblk m c 8 t : S1x3.Idx → EReal) (ix2 p q) = (V m c main_v5 : S1x3.Idx → EReal) (ix2 p q) := by
  show V m c main_v5 (((cfg0.win 8).blk t).view.emb (ix2 p q)) = _
  refine congrArg (V m c main_v5) (funext fun a => Fin.ext ?_)
  obtain ⟨e0, e1⟩ := idxW8 t
  match a with
  | ⟨0, _⟩ => show win0_8.index t (0 : Fin 2) * 1 + 1 * p.val = p.val; rw [e0]; omega
  | ⟨1, _⟩ => show win0_8.index t (1 : Fin 2) * 3 + 1 * q.val = q.val; rw [e1]; omega

/-! ## The pieces' arguments, read off the launch contents -/

/-- Batch number 8t + c' of the sequence c' of point t's block. -/
def bOf (t : Fin cfg0.N) (c' : Fin 8) : Fin 16 :=
  ⟨8 * t.val + c'.val, by
    have h1 : t.val < 2 := lt_of_lt_of_eq t.isLt (show cfg0.N = 2 from N_0)
    have h2 := c'.isLt
    omega⟩

theorem xrow_eq (c : Dev nD) (t : Fin cfg0.N) (c' : Fin 8) :
    xrow (iblk m c 0 t) c' = Cert.Spec.a3 (m ((c : Thread nD τ).loc main_arg0)) (bOf t c') := by
  funext s d
  exact blk0_apply m c t c' s d (bOf t c') rfl

theorem W1_eq (c : Dev nD) (t : Fin cfg0.N) :
    Cert.Spec.a2 (iblk m c 4 t : S128x256.Idx → EReal) = Cert.Spec.a2 (m ((c : Thread nD τ).loc main_arg3)) := by
  funext p q
  show (iblk m c 4 t : S128x256.Idx → EReal) (ix2 p q) = _
  rw [blk4_apply, V_main_arg3]

theorem W2_eq (c : Dev nD) (t : Fin cfg0.N) :
    Cert.Spec.a2 (iblk m c 6 t : S3x128.Idx → EReal) = Cert.Spec.a2 (m ((c : Thread nD τ).loc main_arg5)) := by
  funext p q
  show (iblk m c 6 t : S3x128.Idx → EReal) (ix2 p q) = _
  rw [blk6_apply, V_main_arg5]

theorem b1_eq (c : Dev nD) (t : Fin cfg0.N) :
    row0 (iblk m c 5 t : S1x128.Idx → EReal) = Cert.Spec.a1 (m ((c : Thread nD τ).loc main_arg4)) := by
  funext j
  show (iblk m c 5 t : S1x128.Idx → EReal) (ix2 0 j) = _
  rw [blk5_apply]
  exact KerHost.V_v3 m c j

theorem b2_eq (c : Dev nD) (t : Fin cfg0.N) :
    row0 (iblk m c 7 t : S1x3.Idx → EReal) = Cert.Spec.a1 (m ((c : Thread nD τ).loc main_arg6)) := by
  funext j
  show (iblk m c 7 t : S1x3.Idx → EReal) (ix2 0 j) = _
  rw [blk7_apply]
  exact KerHost.V_v4 m c j

theorem cw_eq (c : Dev nD) (t : Fin cfg0.N) :
    row0 (iblk m c 8 t : S1x3.Idx → EReal) = Cert.Spec.a1 (m ((c : Thread nD τ).loc main_arg7)) := by
  funext j
  show (iblk m c 8 t : S1x3.Idx → EReal) (ix2 0 j) = _
  rw [blk8_apply]
  exact KerHost.V_v5 m c j

theorem cw_at (c : Dev nD) (t : Fin cfg0.N) (k : Fin 3) :
    (iblk m c 8 t : S1x3.Idx → EReal) (ix2 0 k) = Cert.Spec.a1 (m ((c : Thread nD τ).loc main_arg7)) k :=
  congrFun (cw_eq m c t) k

theorem band_eq (c : Dev nD) (t : Fin cfg0.N) (s : Fin 512) (d : Fin 256) :
    KerTables.band (iblk m c 3 t) s d = Cert.Spec.relm (Cert.Spec.a2 (m ((c : Thread nD τ).loc main_arg2))) s d := by
  unfold KerTables.band Cert.Spec.relm
  refine Finset.sum_congr rfl fun k _ => ?_
  rw [blk3_apply, KerHost.V_v0]

/-- The three tables of the launch contents, as the specification names them. -/
def tabS (c : Dev nD) (r : Fin 3) (s : Fin 512) (d : Fin 256) : EReal :=
  match r with
  | ⟨0, _⟩ => Cert.Spec.T0 (Cert.Spec.a2 (m ((c : Thread nD τ).loc main_arg2))) (Cert.Spec.a1 (m ((c : Thread nD τ).loc main_arg7))) s d
  | ⟨1, _⟩ => Cert.Spec.T1 (Cert.Spec.a2 (m ((c : Thread nD τ).loc main_arg2))) (Cert.Spec.a1 (m ((c : Thread nD τ).loc main_arg7))) (Cert.Spec.a2 (m ((c : Thread nD τ).loc main_arg8))) s d
  | ⟨_ + 2, _⟩ => Cert.Spec.T2 (Cert.Spec.a2 (m ((c : Thread nD τ).loc main_arg2))) (Cert.Spec.a1 (m ((c : Thread nD τ).loc main_arg7))) (Cert.Spec.a2 (m ((c : Thread nD τ).loc main_arg1))) s d

/-- The three tables over blocks that read as given functions. -/
theorem tabF_eq_of (x1 x2 : Vec Ideal S512x256 .f32) (x3 : Vec Ideal S824x256 .f32) (x8 : Vec Ideal S1x3 .f32)
    (pe pos bandv : Fin 512 → Fin 256 → EReal) (cw : Fin 3 → EReal)
    (h1 : ∀ s d, x1 (ix2 s d) = pe s d) (h2 : ∀ s d, x2 (ix2 s d) = pos s d)
    (h3 : ∀ s d, KerTables.band x3 s d = bandv s d) (h8 : ∀ k, x8 (ix2 0 k) = cw k)
    (r : Fin 3) (s : Fin 512) (d : Fin 256) :
    tabF x1 x2 x3 x8 r s d
      = (match r with
          | ⟨0, _⟩ => cw 2 * bandv s d
          | ⟨1, _⟩ => cw 0 * pe s d - cw 2 * bandv s d
          | ⟨_ + 2, _⟩ => cw 1 * pos s d - cw 2 * bandv s d) := by
  match r with
  | ⟨0, _⟩ =>
    show x8 (ix2 0 2) * KerTables.band x3 s d = cw 2 * bandv s d
    rw [h8, h3]
  | ⟨1, _⟩ =>
    show x8 (ix2 0 0) * x1 (ix2 s d) - x8 (ix2 0 2) * KerTables.band x3 s d = cw 0 * pe s d - cw 2 * bandv s d
    rw [h8, h8, h3, h1]
  | ⟨2, _⟩ =>
    show x8 (ix2 0 1) * x2 (ix2 s d) - x8 (ix2 0 2) * KerTables.band x3 s d = cw 1 * pos s d - cw 2 * bandv s d
    rw [h8, h8, h3, h2]

theorem tab_eq (c : Dev nD) (t : Fin cfg0.N) (r : Fin 3) (s : Fin 512) (d : Fin 256) :
    tabF (iblk m c 1 t) (iblk m c 2 t) (iblk m c 3 t) (iblk m c 8 t) r s d = tabS m c r s d := by
  refine (tabF_eq_of (iblk m c 1 t) (iblk m c 2 t) (iblk m c 3 t) (iblk m c 8 t)
    (fun s d => Cert.Spec.a2 (m ((c : Thread nD τ).loc main_arg8)) (Cert.Spec.row4096 s) d)
    (fun s d => Cert.Spec.a2 (m ((c : Thread nD τ).loc main_arg1)) (Cert.Spec.row4096 s) d)
    (Cert.Spec.relm (Cert.Spec.a2 (m ((c : Thread nD τ).loc main_arg2)))) (Cert.Spec.a1 (m ((c : Thread nD τ).loc main_arg7)))
    (fun s d => (blk1_apply m c t s d).trans (KerHost.V_v1 m c s d))
    (fun s d => (blk2_apply m c t s d).trans (KerHost.V_v2 m c s d))
    (fun s d => band_eq m c t s d) (fun k => cw_at m c t k) r s d).trans ?_
  match r with
  | ⟨0, _⟩ => rfl
  | ⟨1, _⟩ => rfl
  | ⟨2, _⟩ => rfl

/-- One output entry over tables that are the specification's is the specification's kernel arrangement. -/
theorem outF_eq (c : Dev nD) (t : Fin cfg0.N) (c' : Fin 8) (s : Fin 512) (d : Fin 256)
    (T : Fin 3 → Fin 512 → Fin 256 → EReal) (hT : ∀ r s d, T r s d = tabS m c r s d) :
    outF (iblk m c 0 t) (iblk m c 4 t) (iblk m c 5 t) (iblk m c 6 t) (iblk m c 7 t) (iblk m c 8 t) T c' s d
      = G m c (ix3 (bOf t c') s d) := by
  unfold outF
  rw [xrow_eq, W1_eq, b1_eq, W2_eq, b2_eq, cw_eq, hT 0 s d, hT 1 s d, hT 2 s d,
    blk0_apply m c t c' s d (bOf t c') rfl]
  rfl

/-! ## What each point writes back, and the array after the run -/

/-- The scratch the second point finds is the three tables the first point stored. -/
theorem scratch_eq (c : Dev nD) (h : 0 < cfg0.N) (r : Fin 3) (s : Fin 512) (d : Fin 256) :
    ((outsAt0 m c 0 h).2 : S3x512x256.Idx → EReal) (ix3 r s d) = tabS m c r s d := by
  rw [outsAt0_A m c ⟨0, h⟩ rfl]
  dsimp only
  rw [KerFrameTab.tabA_apply]
  exact tab_eq m c ⟨0, h⟩ r s d

/-- Local index (c', s, d) of point t's output block is entry (8t + c', s, d) of the array. -/
theorem emb9 (t : Fin cfg0.N) (c' : Fin 8) (s : Fin 512) (d : Fin 256) :
    ((cfg0.win 9).blk t).view.emb (ix3 c' s d) = (ix3 (bOf t c') s d : S16x512x256.Idx) := by
  funext a
  refine Fin.ext ?_
  obtain ⟨e0, e1, e2⟩ := idx9 t
  match a with
  | ⟨0, _⟩ => show win0_9.index t (0 : Fin 3) * 8 + 1 * c'.val = 8 * t.val + c'.val; rw [e0]; omega
  | ⟨1, _⟩ => show win0_9.index t (1 : Fin 3) * 512 + 1 * s.val = s.val; rw [e1]; omega
  | ⟨2, _⟩ => show win0_9.index t (2 : Fin 3) * 256 + 1 * d.val = d.val; rw [e2]; omega

/-- WHAT POINT t WRITES BACK is block t of the specification's kernel arrangement. -/
theorem flushed_eq (c : Dev nD) (t : Fin cfg0.N) :
    (dats m 0 c).flushed 9 t = ((cfg0.win 9).blk t).view.read (Elt Ideal) (G m c) := by
  have hN : t.val < 2 := lt_of_lt_of_eq t.isLt (show cfg0.N = 2 from N_0)
  refine funext fun (y : S8x512x256.Idx) => ?_
  obtain ⟨c', s, d, rfl⟩ : ∃ (c' : Fin 8) (s : Fin 512) (d : Fin 256), y = ix3 c' s d := ⟨y 0, y 1, y 2, eq_ix3 y⟩
  show _ = G m c (((cfg0.win 9).blk t).view.emb (ix3 c' s d))
  rw [emb9]
  by_cases h0 : t.val % 2 = 0
  · rw [Value.flushed9_A m c t h0]
    show out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (ix3 c' s d) = _
    rw [KerFrameA.outA_apply]
    exact outF_eq m c t c' s d _ (fun r s d => tab_eq m c t r s d)
  · rw [Value.flushed9_B m c t h0]
    show out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2 (ix3 c' s d) = _
    rw [KerFrameB.outB_apply]
    refine outF_eq m c t c' s d _ (fun r s d => ?_)
    have ht : t.val - 1 = 0 := by omega
    have e : ∀ (n : ℕ) (hn : n < cfg0.N), n = 0 →
        ((outsAt0 m c n hn).2 : S3x512x256.Idx → EReal) (ix3 r s d) = tabS m c r s d := by
      intro n hn hz; subst hz; exact scratch_eq m c hn r s d
    exact e _ _ ht

/-- An index of the array is in point t's block iff each coordinate is in the block's range on its axis. -/
theorem mem_blk9 (t : Fin cfg0.N) (i : S16x512x256.Idx) :
    i ∈ ((cfg0.win 9).blk t).view.set ↔ ∀ a : Fin 3, win0_9.index t a * S8x512x256.size a ≤ (i a).val
      ∧ (i a).val < win0_9.index t a * S8x512x256.size a + S8x512x256.size a := by
  show i ∈ ((View.whole main_v6).slice (win0_9.rect t)).set ↔ _
  rw [View.set_slice_whole, Rect.mem_set_unit]
  exact Iff.rfl

/-- Every entry of the array is in some point's block. -/
theorem cover (i : S16x512x256.Idx) :
    ∃ t : Fin cfg0.N, (cfg0.win 9).flush t = true ∧ i ∈ ((cfg0.win 9).blk t).view.set := by
  have hi0 : (i 0).val < 16 := (i 0).isLt
  have hi1 : (i 1).val < 512 := (i 1).isLt
  have hi2 : (i 2).val < 256 := (i 2).isLt
  have hlt : (i 0).val / 8 < cfg0.N := by rw [show cfg0.N = 2 from N_0]; omega
  refine ⟨⟨(i 0).val / 8, hlt⟩, flush0_9 _, ?_⟩
  rw [mem_blk9]
  obtain ⟨e0, e1, e2⟩ := idx9 ⟨(i 0).val / 8, hlt⟩
  intro a
  match a with
  | ⟨0, _⟩ =>
    show win0_9.index ⟨(i 0).val / 8, hlt⟩ (0 : Fin 3) * 8 ≤ (i 0).val
      ∧ (i 0).val < win0_9.index ⟨(i 0).val / 8, hlt⟩ (0 : Fin 3) * 8 + 8
    rw [e0]; show (i 0).val / 8 * 8 ≤ (i 0).val ∧ (i 0).val < (i 0).val / 8 * 8 + 8; omega
  | ⟨1, _⟩ =>
    show win0_9.index ⟨(i 0).val / 8, hlt⟩ (1 : Fin 3) * 512 ≤ (i 1).val
      ∧ (i 1).val < win0_9.index ⟨(i 0).val / 8, hlt⟩ (1 : Fin 3) * 512 + 512
    rw [e1]; omega
  | ⟨2, _⟩ =>
    show win0_9.index ⟨(i 0).val / 8, hlt⟩ (2 : Fin 3) * 256 ≤ (i 2).val
      ∧ (i 2).val < win0_9.index ⟨(i 0).val / 8, hlt⟩ (2 : Fin 3) * 256 + 256
    rw [e2]; omega

/-- THE ARRAY after the run is the specification's kernel arrangement of the launch contents. -/
theorem final (c : Dev nD) : (dats m 0 c).arrAt 9 cfg0.N = G m c :=
  (dats m 0 c).arrAt_eq_of_cover 9 (G m c) (fun t _ => flushed_eq m c t) (cover)

/-- The kernel's run: the result array at the specification's kernel arrangement, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KerValue

end
-- ==== Proof.lean ====
/-
  The kernel of the adaptive positional encoding against its reference, over the reals.

  Both programs compute, for each sequence, softmax weights of three strategies from the sequence's mean, and mix three
  positional encodings with them. The reference sums (x + table) * (weight * mixing weight) over the strategies, its
  relative table being the mean of 512 gathered rows. The kernel uses that the weights sum to one, to write the result as
  wsum * x + T0 + p0 * (T1 - T0) + p1 * (T2 - T0), and that the gathered rows of one position are a band of the table
  with clamped ends, to get the relative mean as a banded matrix product; it builds the three tables at the first grid
  point and keeps them for the second. On finite inputs every quantity is a real number and the two arrangements agree.
-/
import proofs.«144965_g11562051961505_week1_w4_918_31_alg».proof.Defs
import proofs.«144965_g11562051961505_week1_w4_918_31_alg».proof.Proof.Gen.Kernel
import proofs.«144965_g11562051961505_week1_w4_918_31_alg».proof.Proof.Gen.Kernel.Frame
import proofs.«144965_g11562051961505_week1_w4_918_31_alg».proof.Proof.Gen.KernelIdeal
import proofs.«144965_g11562051961505_week1_w4_918_31_alg».proof.Proof.Gen.KernelIdeal.Frame
import proofs.«144965_g11562051961505_week1_w4_918_31_alg».proof.Proof.Gen.KernelIdeal.Value
import proofs.«144965_g11562051961505_week1_w4_918_31_alg».proof.Proof.Gen.ReferenceIdeal
import proofs.«144965_g11562051961505_week1_w4_918_31_alg».proof.Proof.Gen.Pre_finite_inputs
import proofs.«144965_g11562051961505_week1_w4_918_31_alg».proof.Proof.Spec
import proofs.«144965_g11562051961505_week1_w4_918_31_alg».proof.Proof.Math
import proofs.«144965_g11562051961505_week1_w4_918_31_alg».proof.Proof.Finite
import proofs.«144965_g11562051961505_week1_w4_918_31_alg».proof.Proof.RefRun
import proofs.«144965_g11562051961505_week1_w4_918_31_alg».proof.Proof.RefCombine
import proofs.«144965_g11562051961505_week1_w4_918_31_alg».proof.Proof.KerValue
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo

/-- The word-level kernel runs and leaves its arguments alone. -/
theorem frame_k : Cert.frame_Kernel := fun m ρ _ => Cert.Kernel.Gen.frame m ρ

/-- The idealized kernel runs and leaves its arguments alone. -/
theorem frame_ki : Cert.frame_KernelIdeal := fun m ρ _ => Cert.KernelIdeal.Gen.frame m ρ

/-- The reference runs and leaves its arguments alone: no operation of its straight line writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Run.arg0_kept _),
      (h c Cert.ReferenceIdeal.main_arg1).trans (Cert.ReferenceIdeal.Run.arg1_kept _),
      (h c Cert.ReferenceIdeal.main_arg2).trans (Cert.ReferenceIdeal.Run.arg2_kept _),
      (h c Cert.ReferenceIdeal.main_arg3).trans (Cert.ReferenceIdeal.Run.arg3_kept _),
      (h c Cert.ReferenceIdeal.main_arg4).trans (Cert.ReferenceIdeal.Run.arg4_kept _),
      (h c Cert.ReferenceIdeal.main_arg5).trans (Cert.ReferenceIdeal.Run.arg5_kept _),
      (h c Cert.ReferenceIdeal.main_arg6).trans (Cert.ReferenceIdeal.Run.arg6_kept _),
      (h c Cert.ReferenceIdeal.main_arg7).trans (Cert.ReferenceIdeal.Run.arg7_kept _),
      (h c Cert.ReferenceIdeal.main_arg8).trans (Cert.ReferenceIdeal.Run.arg8_kept _)⟩)
    (Cert.ReferenceIdeal.Run.run_main (F := Ideal) m ρ)

/-- The reference's result array of launch contents m', entry by entry, is the specification's reference arrangement. -/
theorem ref_value (m' : (ℓ : Loc Cert.ReferenceIdeal.nD Cert.ReferenceIdeal.τ Cert.ReferenceIdeal.sig) → Buf (Elt Ideal) ℓ)
    (c : Dev Cert.ReferenceIdeal.nD) :
    after (Cert.ReferenceIdeal.Run.ops (F := Ideal)) (launchContents m' c) (Cert.ReferenceIdeal.main_v59 : DevRef Cert.ReferenceIdeal.τ Cert.ReferenceIdeal.sig)
      = fun i : Cert.ReferenceIdeal.S16x512x256.Idx =>
          Cert.Spec.refOut (Cert.Spec.a3 (m' ((c.tc : Thread Cert.ReferenceIdeal.nD Cert.ReferenceIdeal.τ).loc Cert.ReferenceIdeal.main_arg0))) (Cert.Spec.a2 (m' ((c.tc : Thread Cert.ReferenceIdeal.nD Cert.ReferenceIdeal.τ).loc Cert.ReferenceIdeal.main_arg1))) (Cert.Spec.a2 (m' ((c.tc : Thread Cert.ReferenceIdeal.nD Cert.ReferenceIdeal.τ).loc Cert.ReferenceIdeal.main_arg2))) (Cert.Spec.a2 (m' ((c.tc : Thread Cert.ReferenceIdeal.nD Cert.ReferenceIdeal.τ).loc Cert.ReferenceIdeal.main_arg3)))
            (Cert.Spec.a1 (m' ((c.tc : Thread Cert.ReferenceIdeal.nD Cert.ReferenceIdeal.τ).loc Cert.ReferenceIdeal.main_arg4))) (Cert.Spec.a2 (m' ((c.tc : Thread Cert.ReferenceIdeal.nD Cert.ReferenceIdeal.τ).loc Cert.ReferenceIdeal.main_arg5))) (Cert.Spec.a1 (m' ((c.tc : Thread Cert.ReferenceIdeal.nD Cert.ReferenceIdeal.τ).loc Cert.ReferenceIdeal.main_arg6))) (Cert.Spec.a1 (m' ((c.tc : Thread Cert.ReferenceIdeal.nD Cert.ReferenceIdeal.τ).loc Cert.ReferenceIdeal.main_arg7)))
            (Cert.Spec.a2 (m' ((c.tc : Thread Cert.ReferenceIdeal.nD Cert.ReferenceIdeal.τ).loc Cert.ReferenceIdeal.main_arg8))) (i 0) (i 1) (i 2) := by
  rw [Cert.ReferenceIdeal.RefCombine.after_v59]
  funext i
  obtain ⟨b, s, d, rfl⟩ : ∃ (b : Fin 16) (s : Fin 512) (d : Fin 256), i = ix3 b s d := ⟨i 0, i 1, i 2, eq_ix3 i⟩
  exact Cert.ReferenceIdeal.RefCombine.refVec_apply _ _ _ _ _ _ _ _ _ b s d

/-- On launch contents the precondition admits, the reference arrangement of the contents is the kernel's. -/
theorem ref_eq_ker (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S16x512x256.Idx) :
    Cert.Spec.refOut (Cert.Spec.a3 (m ((c.tc : Thread Cert.KernelIdeal.nD Cert.KernelIdeal.τ).loc Cert.KernelIdeal.main_arg0))) (Cert.Spec.a2 (m ((c.tc : Thread Cert.KernelIdeal.nD Cert.KernelIdeal.τ).loc Cert.KernelIdeal.main_arg1))) (Cert.Spec.a2 (m ((c.tc : Thread Cert.KernelIdeal.nD Cert.KernelIdeal.τ).loc Cert.KernelIdeal.main_arg2))) (Cert.Spec.a2 (m ((c.tc : Thread Cert.KernelIdeal.nD Cert.KernelIdeal.τ).loc Cert.KernelIdeal.main_arg3))) (Cert.Spec.a1 (m ((c.tc : Thread Cert.KernelIdeal.nD Cert.KernelIdeal.τ).loc Cert.KernelIdeal.main_arg4))) (Cert.Spec.a2 (m ((c.tc : Thread Cert.KernelIdeal.nD Cert.KernelIdeal.τ).loc Cert.KernelIdeal.main_arg5))) (Cert.Spec.a1 (m ((c.tc : Thread Cert.KernelIdeal.nD Cert.KernelIdeal.τ).loc Cert.KernelIdeal.main_arg6))) (Cert.Spec.a1 (m ((c.tc : Thread Cert.KernelIdeal.nD Cert.KernelIdeal.τ).loc Cert.KernelIdeal.main_arg7))) (Cert.Spec.a2 (m ((c.tc : Thread Cert.KernelIdeal.nD Cert.KernelIdeal.τ).loc Cert.KernelIdeal.main_arg8))) (i 0) (i 1) (i 2) = Cert.KernelIdeal.KerValue.G m c i := by
  obtain ⟨h0, h1, h2, h3, h4, h5, h6, h7, h8⟩ := Cert.Finite.real_of_fn _ _ _ _ _ _ _ _ _ (hpre c)
  choose x0 hx0 using h0
  choose x1 hx1 using h1
  choose x2 hx2 using h2
  choose x3 hx3 using h3
  choose x4 hx4 using h4
  choose x5 hx5 using h5
  choose x6 hx6 using h6
  choose x7 hx7 using h7
  choose x8 hx8 using h8
  have e0 : Cert.Spec.a3 (m ((c.tc : Thread Cert.KernelIdeal.nD Cert.KernelIdeal.τ).loc Cert.KernelIdeal.main_arg0)) = fun a b d => ((x0 (ix3 a b d) : ℝ) : EReal) :=
    funext fun a => funext fun b => funext fun d => hx0 _
  have e1 : Cert.Spec.a2 (m ((c.tc : Thread Cert.KernelIdeal.nD Cert.KernelIdeal.τ).loc Cert.KernelIdeal.main_arg1)) = fun a b => ((x1 (ix2 a b) : ℝ) : EReal) := funext fun a => funext fun b => hx1 _
  have e2 : Cert.Spec.a2 (m ((c.tc : Thread Cert.KernelIdeal.nD Cert.KernelIdeal.τ).loc Cert.KernelIdeal.main_arg2)) = fun a b => ((x2 (ix2 a b) : ℝ) : EReal) := funext fun a => funext fun b => hx2 _
  have e3 : Cert.Spec.a2 (m ((c.tc : Thread Cert.KernelIdeal.nD Cert.KernelIdeal.τ).loc Cert.KernelIdeal.main_arg3)) = fun a b => ((x3 (ix2 a b) : ℝ) : EReal) := funext fun a => funext fun b => hx3 _
  have e4 : Cert.Spec.a1 (m ((c.tc : Thread Cert.KernelIdeal.nD Cert.KernelIdeal.τ).loc Cert.KernelIdeal.main_arg4)) = fun a => ((x4 (ix1 a) : ℝ) : EReal) := funext fun a => hx4 _
  have e5 : Cert.Spec.a2 (m ((c.tc : Thread Cert.KernelIdeal.nD Cert.KernelIdeal.τ).loc Cert.KernelIdeal.main_arg5)) = fun a b => ((x5 (ix2 a b) : ℝ) : EReal) := funext fun a => funext fun b => hx5 _
  have e6 : Cert.Spec.a1 (m ((c.tc : Thread Cert.KernelIdeal.nD Cert.KernelIdeal.τ).loc Cert.KernelIdeal.main_arg6)) = fun a => ((x6 (ix1 a) : ℝ) : EReal) := funext fun a => hx6 _
  have e7 : Cert.Spec.a1 (m ((c.tc : Thread Cert.KernelIdeal.nD Cert.KernelIdeal.τ).loc Cert.KernelIdeal.main_arg7)) = fun a => ((x7 (ix1 a) : ℝ) : EReal) := funext fun a => hx7 _
  have e8 : Cert.Spec.a2 (m ((c.tc : Thread Cert.KernelIdeal.nD Cert.KernelIdeal.τ).loc Cert.KernelIdeal.main_arg8)) = fun a b => ((x8 (ix2 a b) : ℝ) : EReal) := funext fun a => funext fun b => hx8 _
  unfold Cert.KernelIdeal.KerValue.G
  rw [e0, e1, e2, e3, e4, e5, e6, e7, e8]
  exact (Cert.Spec.kerOut_eq_refOut _ _ _ _ _ _ _ _ _ _ _ _).symm

/-- Both idealized programs, from memories agreeing on the arguments, end with the same result array. -/
theorem algebraic : Cert.algebraic_KernelIdeal_ReferenceIdeal := by
  intro m ρ m' ρ' hpre hagree
  refine ⟨fun c => Cert.KernelIdeal.KerValue.G m c, Cert.KernelIdeal.KerValue.run m ρ, ?_⟩
  refine (θ_run Cert.ReferenceIdeal.defs _ _).mono (fun r h c => ⟨?_,
      (h c Cert.ReferenceIdeal.main_arg0).trans (Cert.ReferenceIdeal.Run.arg0_kept _),
      (h c Cert.ReferenceIdeal.main_arg1).trans (Cert.ReferenceIdeal.Run.arg1_kept _),
      (h c Cert.ReferenceIdeal.main_arg2).trans (Cert.ReferenceIdeal.Run.arg2_kept _),
      (h c Cert.ReferenceIdeal.main_arg3).trans (Cert.ReferenceIdeal.Run.arg3_kept _),
      (h c Cert.ReferenceIdeal.main_arg4).trans (Cert.ReferenceIdeal.Run.arg4_kept _),
      (h c Cert.ReferenceIdeal.main_arg5).trans (Cert.ReferenceIdeal.Run.arg5_kept _),
      (h c Cert.ReferenceIdeal.main_arg6).trans (Cert.ReferenceIdeal.Run.arg6_kept _),
      (h c Cert.ReferenceIdeal.main_arg7).trans (Cert.ReferenceIdeal.Run.arg7_kept _),
      (h c Cert.ReferenceIdeal.main_arg8).trans (Cert.ReferenceIdeal.Run.arg8_kept _)⟩)
    (Cert.ReferenceIdeal.Run.run_main (F := Ideal) m' ρ')
  refine (h c Cert.ReferenceIdeal.main_v59).trans ((ref_value m' c).trans ?_)
  obtain ⟨a0, a1, a2, a3, a4, a5, a6, a7, a8⟩ := hagree c
  rw [a0, a1, a2, a3, a4, a5, a6, a7, a8]
  exact funext fun i => ref_eq_ker m hpre c i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
